-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S1024 : Shape := ⟨1, ![1024]⟩
abbrev S100000x512 : Shape := ⟨2, ![100000, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S100000x512 : S_.BroadcastsInDim S100000x512 (![] : Fin 0 → Fin S100000x512.rank)
  reducesTo_S100000x512_S_d0_1 : S100000x512.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1024x512 .f32) (main_arg1 : IVec S1024 32) (main_arg2 : FVec F S100000x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S100000x512 .f32 := Host.absf main_arg2
  let main_cst_0 : FVec F S_ .f32 := constant S_ .f32 0x7F800000#32
  let main_v5 : FVec F S100000x512 .f32 := broadcastInDim S100000x512 ![] bcast_S_S100000x512 main_cst_0
  let main_v6 : IVec S100000x512 1 := cmpf .olt main_v4 main_v5
  let main_c_1 : IVec S_ 1 := constantI S_ 1 1#1
  let main_v7 : IVec S_ 1 := (fun x v => Host.reduce IntOp.andi x v reducesTo_S100000x512_S_d0_1 h_S_) main_v6 main_c_1
  let main_v8 : IVec S_ 1 := andi main_v3 main_v7
  let main_c_2 : IVec S_ 32 := constantI S_ 32 0#32
  let main_v9 : IVec S1024 32 := broadcastInDim S1024 ![] bcast_S_S1024 main_c_2
  let main_v10 : IVec S1024 1 := cmpi .sge main_arg1 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v8 main_v11
  let main_c_4 : IVec S_ 32 := constantI S_ 32 100000#32
  let main_v13 : IVec S1024 32 := broadcastInDim S1024 ![] bcast_S_S1024 main_c_4
  let main_v14 : IVec S1024 1 := cmpi .slt main_arg1 main_v13
  let main_c_5 : IVec S_ 1 := constantI S_ 1 1#1
  let main_v15 : IVec S_ 1 := (fun x v => Host.reduce IntOp.andi x v reducesTo_S1024_S_d0 h_S_) main_v14 main_c_5
  fn_part1 (F := F) main_v12 main_v15
-- ==== Kernel.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S512x512 : Shape := ⟨2, ![512, 512]⟩
abbrev S2000x512 : Shape := ⟨2, ![2000, 512]⟩
abbrev S512x1 : Shape := ⟨2, ![512, 1]⟩
abbrev S2000 : Shape := ⟨1, ![2000]⟩
abbrev S2000x1 : Shape := ⟨2, ![2000, 1]⟩
abbrev S512x2000 : Shape := ⟨2, ![512, 2000]⟩
abbrev S512 : Shape := ⟨1, ![512]⟩

abbrev nBuf : Space → Nat
  | .hbm => 107
  | .vmem => 10
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S1024x512, .bf16⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S_, .i32⟩
  | .hbm, ⟨18, _⟩ => ⟨S1024, .i32⟩
  | .hbm, ⟨19, _⟩ => ⟨S1024, .i32⟩
  | .hbm, ⟨20, _⟩ => ⟨S1024, .i32⟩
  | .hbm, ⟨21, _⟩ => ⟨S1024x1, .i32⟩
  | .hbm, ⟨22, _⟩ => ⟨S1, .i32⟩
  | .hbm, ⟨23, _⟩ => ⟨S_, .i32⟩
  | .hbm, ⟨24, _⟩ => ⟨S1024x1, .i32⟩
  | .hbm, ⟨25, _⟩ => ⟨S1024x1, .i1⟩
  | .hbm, ⟨26, _⟩ => ⟨S1x1, .i32⟩
  | .hbm, ⟨27, _⟩ => ⟨S1024x1, .i32⟩
  | .hbm, ⟨28, _⟩ => ⟨S1024x1, .i1⟩
  | .hbm, ⟨29, _⟩ => ⟨S1024x1, .i1⟩
  | .hbm, ⟨30, _⟩ => ⟨S_, .i1⟩
  | .hbm, ⟨31, _⟩ => ⟨S1024, .i1⟩
  | .hbm, ⟨32, _⟩ => ⟨S1024x512, .f32⟩
  | .hbm, ⟨33, _⟩ => ⟨S1024x512, .i1⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024, .f32⟩
  | .hbm, ⟨40, _⟩ => ⟨S1024x1, .f32⟩
  | .hbm, ⟨41, _⟩ => ⟨S1024x1, .f32⟩
  | .hbm, ⟨42, _⟩ => ⟨S_, .f32⟩
  | .hbm, ⟨43, _⟩ => ⟨S1024x1, .f32⟩
  | .hbm, ⟨44, _⟩ => ⟨S1024x1, .f32⟩
  | .hbm, ⟨45, _⟩ => ⟨S1024x512, .f32⟩
  | .hbm, ⟨46, _⟩ => ⟨S1024x512, .f32⟩
  | .hbm, ⟨47, _⟩ => ⟨S1024x512, .f32⟩
  | .hbm, ⟨48, _⟩ => ⟨S_, .f32⟩
  | .hbm, ⟨49, _⟩ => ⟨S1024, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S1024, .f32⟩
  | .hbm, ⟨54, _⟩ => ⟨S1024, .f32⟩
  | .hbm, ⟨55, _⟩ => ⟨S_, .f32⟩
  | .hbm, ⟨56, _⟩ => ⟨S1024, .f32⟩
  | .hbm, ⟨57, _⟩ => ⟨S1024, .f32⟩
  | .hbm, ⟨58, _⟩ => ⟨S1024, .f32⟩
  | .hbm, ⟨59, _⟩ => ⟨S_, .f32⟩
  | .hbm, ⟨60, _⟩ => ⟨S1024, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S1024, .f32⟩
  | .hbm, ⟨73, _⟩ => ⟨S_, .f32⟩
  | .hbm, ⟨74, _⟩ => ⟨S1024, .f32⟩
  | .hbm, ⟨75, _⟩ => ⟨S1024, .i1⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S1024, .f32⟩
  | .hbm, ⟨80, _⟩ => ⟨S_, .f32⟩
  | .hbm, ⟨81, _⟩ => ⟨S1024, .f32⟩
  | .hbm, ⟨82, _⟩ => ⟨S1024, .f32⟩
  | .hbm, ⟨83, _⟩ => ⟨S1024x1, .f32⟩
  | .hbm, ⟨84, _⟩ => ⟨S1024x1, .f32⟩
  | .hbm, ⟨85, _⟩ => ⟨S1024x1, .f32⟩
  | .hbm, ⟨86, _⟩ => ⟨S1024, .f32⟩
  | .hbm, ⟨87, _⟩ => ⟨S1024, .f32⟩
  | .hbm, ⟨88, _⟩ => ⟨S_, .f32⟩
  | .hbm, ⟨89, _⟩ => ⟨S1024, .f32⟩
  | .hbm, ⟨90, _⟩ => ⟨S1024, .f32⟩
  | .hbm, ⟨91, _⟩ => ⟨S1024, .f32⟩
  | .hbm, ⟨92, _⟩ => ⟨S1024, .f32⟩
  | .hbm, ⟨93, _⟩ => ⟨S1024, .f32⟩
  | .hbm, ⟨94, _⟩ => ⟨S1024, .f32⟩
  | .hbm, ⟨95, _⟩ => ⟨S1024, .f32⟩
  | .hbm, ⟨96, _⟩ => ⟨S1024, .f32⟩
  | .hbm, ⟨97, _⟩ => ⟨S_, .f32⟩
  | .hbm, ⟨98, _⟩ => ⟨S1024, .f32⟩
  | .hbm, ⟨99, _⟩ => ⟨S1024, .f32⟩
  | .hbm, ⟨100, _⟩ => ⟨S1024, .f32⟩
  | .hbm, ⟨101, _⟩ => ⟨S1024, .f32⟩
  | .hbm, ⟨102, _⟩ => ⟨S1024, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S2000x512, .f32⟩
  | .local _ .vmem, ⟨3, _⟩ => ⟨S2000x512, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_3 : Ref sig .tc := ⟨.hbm, 48, rfl⟩
abbrev main_v19 : Ref sig .tc := ⟨.hbm, 49, rfl⟩
abbrev main_cst_4 : Ref sig .tc := ⟨.hbm, 50, rfl⟩
abbrev main_cst_5 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v20 : Ref sig .tc := ⟨.hbm, 57, rfl⟩
abbrev main_v21 : Ref sig .tc := ⟨.hbm, 58, rfl⟩
abbrev main_cst_6 : Ref sig .tc := ⟨.hbm, 59, rfl⟩
abbrev main_v22 : Ref sig .tc := ⟨.hbm, 60, rfl⟩
abbrev main_v23 : Ref sig .tc := ⟨.hbm, 61, rfl⟩
abbrev main_cst_7 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_cst_8 : Ref sig .tc := ⟨.hbm, 66, rfl⟩
abbrev main_v27 : Ref sig .tc := ⟨.hbm, 67, rfl⟩
abbrev main_v28 : Ref sig .tc := ⟨.hbm, 68, rfl⟩
abbrev main_cst_9 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_cst_10 : Ref sig .tc := ⟨.hbm, 73, rfl⟩
abbrev main_v32 : Ref sig .tc := ⟨.hbm, 74, rfl⟩
abbrev main_v33 : Ref sig .tc := ⟨.hbm, 75, rfl⟩
abbrev main_cst_11 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_cst_12 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40_0 : Ref sig .tc := ⟨.hbm, 84, rfl⟩
abbrev main_v40_1 : Ref sig .tc := ⟨.hbm, 85, rfl⟩
abbrev main_v41 : Ref sig .tc := ⟨.hbm, 86, rfl⟩
abbrev main_v42 : Ref sig .tc := ⟨.hbm, 87, rfl⟩
abbrev main_cst_13 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_14 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_15 : Ref sig .tc := ⟨.hbm, 103, rfl⟩
abbrev main_v56 : Ref sig .tc := ⟨.hbm, 104, rfl⟩
abbrev main_cst_16 : Ref sig .tc := ⟨.hbm, 105, rfl⟩
abbrev main_v57 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  bitsLt_bf16_f32 : FTy.bits .bf16 < FTy.bits .f32
  bcast_S_S1024 : S_.BroadcastsInDim S1024 (![] : Fin 0 → Fin S1024.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  bcast_S1024_S1024x512_0 : S1024.BroadcastsInDim S1024x512 (![0] : Fin 1 → Fin S1024x512.rank)
  bcast_S_S1024x512 : S_.BroadcastsInDim S1024x512 (![] : Fin 0 → Fin S1024x512.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x512_S2000x512_0_0 : ∀ a, (![0, 0] : Fin 2 → Nat) a + S2000x512.size a ≤ S2000x512.size a
  h_S2000x512 : 0 < S2000x512.numel
  reduces_S2000x512_S2000 : S2000x512.Reduces [1] S2000
  shapeCasts_S2000_S2000x1 : S2000.ShapeCasts S2000x1
  broadcasts_S2000x1_S2000x512 : S2000x1.Broadcasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  transposes_S2000x512_p1_0_S512x2000 : S2000x512.Transposes [1, 0] S512x2000
  reduces_S512x2000_S512 : S512x2000.Reduces [1] S512
  shapeCasts_S512_S512x1 : S512.ShapeCasts S512x1
  broadcasts_S512x1_S512x2000 : S512x1.Broadcasts S512x2000
  shapeCasts_S1024x1_S1024 : S1024x1.ShapeCasts S1024
  reducesTo_S1024_S_d0 : S1024.ReducesTo [0] S_
  gather_S100000x512_S1024x1_S1024x512_1_0_n_n_0_1_1512_wf : GatherDims.WF S100000x512 S1024x1 S1024x512 [1] [0] [] [0] [] 1 ![1, 512]
  dot_S512x512_S512x2000_S512x2000_1_0_0_1_n_n_wf : DotDims.WF S512x512 S512x2000 S512x2000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S1024x512.size a
  hwx0_0 : ∀ i : grid0.Coords, EltTy.bits .bf16 = 32 ∨ (Rect.block (s := S1024x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S1024x1.size a
  hwx0_2 : ∀ i : grid0.Coords, EltTy.bits .f32 = 32 ∨ (Rect.block (s := S1024x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S1024x1.size a
  hwx0_3 : ∀ i : grid0.Coords, EltTy.bits .f32 = 32 ∨ (Rect.block (s := S1024x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S1024x1.size a
  hwx0_4 : ∀ i : grid0.Coords, EltTy.bits .f32 = 32 ∨ (Rect.block (s := S1024x1) S512x1.size (cc0_transform_4 i) (hinb0_4 i)).WholeWords (EltTy.packing .f32)

variable [Facts₀]

def gather_S100000x512_S1024x1_S1024x512_1_0_n_n_0_1_1512 : GatherDims S100000x512 S1024x1 S1024x512 where
  offsetDims := [1]
  collapsedSliceDims := [0]
  operandBatchingDims := []
  startIndicesBatchingDims := []
  startIndexMap := [0]
  indexVectorDim := 1
  sliceSizes := ![1, 512]
  wf := gather_S100000x512_S1024x1_S1024x512_1_0_n_n_0_1_1512_wf
def dot_S512x512_S512x2000_S512x2000_1_0_0_1_n_n : DotDims S512x512 S512x2000 S512x2000 where
  lhsContracting := [1]
  rhsContracting := [0]
  lhsNonContracting := [0]
  rhsNonContracting := [1]
  lhsBatch := []
  rhsBatch := []
  wf := dot_S512x512_S512x2000_S512x2000_1_0_0_1_n_n_wf

abbrev win0_0 : Pipeline.Window sig grid0 :=
  Pipeline.Window.ofSpec (Memref.whole main_v8) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40_1) S512x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x512 : Shape := ⟨2, ![1024, 512]⟩
abbrev S1024 : Shape := ⟨1, ![1024]⟩
abbrev S100000x512 : Shape := ⟨2, ![100000, 512]⟩
abbrev S_ : Shape := ⟨0, ![]⟩
abbrev S1024x1 : Shape := ⟨2, ![1024, 1]⟩
abbrev S100000 : Shape := ⟨1, ![100000]⟩
abbrev S100000x1 : Shape := ⟨2, ![100000, 1]⟩
abbrev S512x100000 : Shape := ⟨2, ![512, 100000]⟩
abbrev S1024x100000 : Shape := ⟨2, ![1024, 100000]⟩
abbrev S1x100000 : Shape := ⟨2, ![1, 100000]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 111
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S100000x512, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S1024x512, .f32⟩
  | .hbm, ⟨12, _⟩ => ⟨S1024x512, .f32⟩
  | .hbm, ⟨13, _⟩ => ⟨S100000x512, .f32⟩
  | .hbm, ⟨14, _⟩ => ⟨S_, .f32⟩
  | .hbm, ⟨15, _⟩ => ⟨S100000, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S100000x512, .f32⟩
  | .hbm, ⟨22, _⟩ => ⟨S100000x512, .f32⟩
  | .hbm, ⟨23, _⟩ => ⟨S512x100000, .f32⟩
  | .hbm, ⟨24, _⟩ => ⟨S1024x100000, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1024x100000, .f32⟩
  | .hbm, ⟨29, _⟩ => ⟨S1024x100000, .f32⟩
  | .hbm, ⟨30, _⟩ => ⟨S_, .f32⟩
  | .hbm, ⟨31, _⟩ => ⟨S1024x100000, .f32⟩
  | .hbm, ⟨32, _⟩ => ⟨S1024x100000, .f32⟩
  | .hbm, ⟨33, _⟩ => ⟨S1024x100000, .f32⟩
  | .hbm, ⟨34, _⟩ => ⟨S_, .f32⟩
  | .hbm, ⟨35, _⟩ => ⟨S1024x100000, .f32⟩
  | .hbm, ⟨36, _⟩ => ⟨S1024x100000, .f32⟩
  | .hbm, ⟨37, _⟩ => ⟨S1024x100000, .f32⟩
  | .hbm, ⟨38, _⟩ => ⟨S_, .f32⟩
  | .hbm, ⟨39, _⟩ => ⟨S1024x100000, .f32⟩
  | .hbm, ⟨40, _⟩ => ⟨S1024x100000, .f32⟩
  | .hbm, ⟨41, _⟩ => ⟨S_, .f32⟩
  | .hbm, ⟨42, _⟩ => ⟨S1024x100000, .f32⟩
  | .hbm, ⟨43, _⟩ => ⟨S1024x100000, .f32⟩
  | .hbm, ⟨44, _⟩ => ⟨S1024x100000, .f32⟩
  | .hbm, ⟨45, _⟩ => ⟨S_, .f32⟩
  | .hbm, ⟨46, _⟩ => ⟨S1024x100000, .f32⟩
  | .hbm, ⟨47, _⟩ => ⟨S1024x100000, .i1⟩
  | .hbm, ⟨48, _⟩ => ⟨S_, .f32⟩
  | .hbm, ⟨49, _⟩ => ⟨S1024x100000, .f32⟩
  | .hbm, ⟨50, _⟩ => ⟨S1024x100000, .f32⟩
  | .hbm, ⟨51, _⟩ => ⟨S1024x100000, .f32⟩
  | .hbm, ⟨52, _⟩ => ⟨S1024x1, .i32⟩
  | .hbm, ⟨53, _⟩ => ⟨S1x100000, .i32⟩
  | .hbm, ⟨54, _⟩ => ⟨S1024x100000, .i32⟩
  | .hbm, ⟨55, _⟩ => ⟨S1024x100000, .i32⟩
  | .hbm, ⟨56, _⟩ => ⟨S1024x100000, .i1⟩
  | .hbm, ⟨57, _⟩ => ⟨S1024x100000, .f32⟩
  | .hbm, ⟨58, _⟩ => ⟨S1024x100000, .f32⟩
  | .hbm, ⟨59, _⟩ => ⟨S_, .f32⟩
  | .hbm, ⟨60, _⟩ => ⟨S1024x100000, .f32⟩
  | .hbm, ⟨61, _⟩ => ⟨S1024x100000, .f32⟩
  | .hbm, ⟨62, _⟩ => ⟨S1024x100000, .f32⟩
  | .hbm, ⟨63, _⟩ => ⟨S1024x100000, .f32⟩
  | .hbm, ⟨64, _⟩ => ⟨S_, .f32⟩
  | .hbm, ⟨65, _⟩ => ⟨S1024x100000, .f32⟩
  | .hbm, ⟨66, _⟩ => ⟨S1024x100000, .f32⟩
  | .hbm, ⟨67, _⟩ => ⟨S_, .f32⟩
  | .hbm, ⟨68, _⟩ => ⟨S1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S1024x1, .f32⟩
  | .hbm, ⟨73, _⟩ => ⟨S1024x100000, .f32⟩
  | .hbm, ⟨74, _⟩ => ⟨S1024x100000, .f32⟩
  | .hbm, ⟨75, _⟩ => ⟨S1024x100000, .f32⟩
  | .hbm, ⟨76, _⟩ => ⟨S_, .f32⟩
  | .hbm, ⟨77, _⟩ => ⟨S1024, .f32⟩
  | .hbm, ⟨78, _⟩ => ⟨S1024x1, .f32⟩
  | .hbm, ⟨79, _⟩ => ⟨S1024x1, .f32⟩
  | .hbm, ⟨80, _⟩ => ⟨S1024x100000, .f32⟩
  | .hbm, ⟨81, _⟩ => ⟨S1024x100000, .f32⟩
  | .hbm, ⟨82, _⟩ => ⟨S1024x1, .i32⟩
  | .hbm, ⟨83, _⟩ => ⟨S_, .i32⟩
  | .hbm, ⟨84, _⟩ => ⟨S1024x1, .i32⟩
  | .hbm, ⟨85, _⟩ => ⟨S1024x1, .i1⟩
  | .hbm, ⟨86, _⟩ => ⟨S_, .i32⟩
  | .hbm, ⟨87, _⟩ => ⟨S1024x1, .i32⟩
  | .hbm, ⟨88, _⟩ => ⟨S1024x1, .i32⟩
  | .hbm, ⟨89, _⟩ => ⟨S1024x1, .i32⟩
  | .hbm, ⟨90, _⟩ => ⟨S1024x1x1, .i32⟩
  | .hbm, ⟨91, _⟩ => ⟨S1, .i32⟩
  | .hbm, ⟨92, _⟩ => ⟨S_, .i32⟩
  | .hbm, ⟨93, _⟩ => ⟨S1024x1x1, .i32⟩
  | .hbm, ⟨94, _⟩ => ⟨S1024x1x1, .i1⟩
  | .hbm, ⟨95, _⟩ => ⟨S1x1x1, .i32⟩
  | .hbm, ⟨96, _⟩ => ⟨S1024x1x1, .i32⟩
  | .hbm, ⟨97, _⟩ => ⟨S1024x1x1, .i1⟩
  | .hbm, ⟨98, _⟩ => ⟨S1024x1x1, .i1⟩
  | .hbm, ⟨99, _⟩ => ⟨S_, .i1⟩
  | .hbm, ⟨100, _⟩ => ⟨S1024x1, .i1⟩
  | .hbm, ⟨101, _⟩ => ⟨S1024x1, .f32⟩
  | .hbm, ⟨102, _⟩ => ⟨S_, .f32⟩
  | .hbm, ⟨103, _⟩ => ⟨S1024x1, .f32⟩
  | .hbm, ⟨104, _⟩ => ⟨S1024x1, .f32⟩
  | .hbm, ⟨105, _⟩ => ⟨S1024, .f32⟩
  | .hbm, ⟨106, _⟩ => ⟨S1024, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_cst_4 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v33 : Ref sig .tc := ⟨.hbm, 57, rfl⟩
abbrev main_v34 : Ref sig .tc := ⟨.hbm, 58, rfl⟩
abbrev main_cst_10 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_11 : Ref sig .tc := ⟨.hbm, 64, rfl⟩
abbrev main_v39 : Ref sig .tc := ⟨.hbm, 65, rfl⟩
abbrev main_v40 : Ref sig .tc := ⟨.hbm, 66, rfl⟩
abbrev main_call3_cst : Ref sig .tc := ⟨.hbm, 67, rfl⟩
abbrev main_call3_v0 : Ref sig .tc := ⟨.hbm, 68, rfl⟩
abbrev main_call3_cst_0 : Ref sig .tc := ⟨.hbm, 69, rfl⟩
abbrev main_call3_v1 : Ref sig .tc := ⟨.hbm, 70, rfl⟩
abbrev main_call3_v2 : Ref sig .tc := ⟨.hbm, 71, rfl⟩
abbrev main_call3_v3 : Ref sig .tc := ⟨.hbm, 72, rfl⟩
abbrev main_call3_v4 : Ref sig .tc := ⟨.hbm, 73, rfl⟩
abbrev main_call3_v5 : Ref sig .tc := ⟨.hbm, 74, rfl⟩
abbrev main_call3_v6 : Ref sig .tc := ⟨.hbm, 75, rfl⟩
abbrev main_call3_cst_1 : Ref sig .tc := ⟨.hbm, 76, rfl⟩
abbrev main_call3_v7 : Ref sig .tc := ⟨.hbm, 77, rfl⟩
abbrev main_call3_v8 : Ref sig .tc := ⟨.hbm, 78, rfl⟩
abbrev main_call3_v9 : Ref sig .tc := ⟨.hbm, 79, rfl⟩
abbrev main_call3_v10 : Ref sig .tc := ⟨.hbm, 80, rfl⟩
abbrev main_v41 : Ref sig .tc := ⟨.hbm, 81, rfl⟩
abbrev main_v42 : Ref sig .tc := ⟨.hbm, 82, rfl⟩
abbrev main_call4_c : Ref sig .tc := ⟨.hbm, 83, rfl⟩
abbrev main_call4_v0 : Ref sig .tc := ⟨.hbm, 84, rfl⟩
abbrev main_call4_v1 : Ref sig .tc := ⟨.hbm, 85, rfl⟩
abbrev main_call4_c_0 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_call4_v5 : Ref sig .tc := ⟨.hbm, 90, rfl⟩
abbrev main_call4_c_1 : Ref sig .tc := ⟨.hbm, 91, rfl⟩
abbrev main_call4_c_2 : Ref sig .tc := ⟨.hbm, 92, rfl⟩
abbrev main_call4_v6 : Ref sig .tc := ⟨.hbm, 93, rfl⟩
abbrev main_call4_v7 : Ref sig .tc := ⟨.hbm, 94, rfl⟩
abbrev main_call4_v8 : Ref sig .tc := ⟨.hbm, 95, rfl⟩
abbrev main_call4_v9 : Ref sig .tc := ⟨.hbm, 96, rfl⟩
abbrev main_call4_v10 : Ref sig .tc := ⟨.hbm, 97, rfl⟩
abbrev main_call4_v11 : Ref sig .tc := ⟨.hbm, 98, rfl⟩
abbrev main_call4_c_3 : Ref sig .tc := ⟨.hbm, 99, rfl⟩
abbrev main_call4_v12 : Ref sig .tc := ⟨.hbm, 100, rfl⟩
abbrev main_call4_v13 : Ref sig .tc := ⟨.hbm, 101, rfl⟩
abbrev main_call4_cst : Ref sig .tc := ⟨.hbm, 102, rfl⟩
abbrev main_call4_v14 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_12 : Ref sig .tc := ⟨.hbm, 107, rfl⟩
abbrev main_v46 : Ref sig .tc := ⟨.hbm, 108, rfl⟩
abbrev main_cst_13 : Ref sig .tc := ⟨.hbm, 109, rfl⟩
abbrev main_v47 : Ref sig .tc := ⟨.hbm, 110, rfl⟩

abbrev nD : Nat := 1
abbrev τ : Topo := Topo.v7x

variable {F : FTy → Type} [FloatOps F]

class Facts₀ : Prop where
  reducesTo_S1024x512_S1024_d1 : S1024x512.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x512_0_1 : S1024x1.BroadcastsInDim S1024x512 (![0, 1] : Fin 2 → Fin S1024x512.rank)
  reducesTo_S100000x512_S100000_d1 : S100000x512.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x512_0_1 : S100000x1.BroadcastsInDim S100000x512 (![0, 1] : Fin 2 → Fin S100000x512.rank)
  transposes_S100000x512_S512x100000_1_0 : S100000x512.Transposes [1, 0] S512x100000
  bcast_S_S1024x100000 : S_.BroadcastsInDim S1024x100000 (![] : Fin 0 → Fin S1024x100000.rank)
  bcast_S1024x1_S1024x100000_0_1 : S1024x1.BroadcastsInDim S1024x100000 (![0, 1] : Fin 2 → Fin S1024x100000.rank)
  bcast_S1x100000_S1024x100000_0_1 : S1x100000.BroadcastsInDim S1024x100000 (![0, 1] : Fin 2 → Fin S1024x100000.rank)
  reducesTo_S1024x100000_S1024_d1 : S1024x100000.ReducesTo [1] S1024
  bcast_S_S1024 : S_.BroadcastsInDim S1024 (![] : Fin 0 → Fin S1024.rank)
  shapeCasts_S1024x1_S1024x1x1 : S1024x1.ShapeCasts S1024x1x1
  bcast_S_S1024x1x1 : S_.BroadcastsInDim S1024x1x1 (![] : Fin 0 → Fin S1024x1x1.rank)
  bcast_S1_S1x1x1_2 : S1.BroadcastsInDim S1x1x1 (![2] : Fin 1 → Fin S1x1x1.rank)
  bcast_S1x1x1_S1024x1x1_0_1_2 : S1x1x1.BroadcastsInDim S1024x1x1 (![0, 1, 2] : Fin 3 → Fin S1024x1x1.rank)
  reducesTo_S1024x1x1_S1024x1_d2 : S1024x1x1.ReducesTo [2] S1024x1
  shapeCasts_S1024x1_S1024 : S1024x1.ShapeCasts S1024
  reducesTo_S1024_S_d0 : S1024.ReducesTo [0] S_
  dot_S1024x512_S512x100000_S1024x100000_1_0_0_1_n_n_wf : DotDims.WF S1024x512 S512x100000 S1024x100000 [1] [0] [0] [1] [] []
  gather_S1024x100000_S1024x1x1_S1024x1_n_1_0_0_1_2_11_wf : GatherDims.WF S1024x100000 S1024x1x1 S1024x1 [] [1] [0] [1] [0] 2 ![1, 1]

variable [Facts₀]

def dot_S1024x512_S512x100000_S1024x100000_1_0_0_1_n_n : DotDims S1024x512 S512x100000 S1024x100000 where
  lhsContracting := [1]
  rhsContracting := [0]
  lhsNonContracting := [0]
  rhsNonContracting := [1]
  lhsBatch := []
  rhsBatch := []
  wf := dot_S1024x512_S512x100000_S1024x100000_1_0_0_1_n_n_wf
def gather_S1024x100000_S1024x1x1_S1024x1_n_1_0_0_1_2_11 : GatherDims S1024x100000 S1024x1x1 S1024x1 where
  offsetDims := []
  collapsedSliceDims := [1]
  operandBatchingDims := [0]
  startIndicesBatchingDims := [0]
  startIndexMap := [1]
  indexVectorDim := 2
  sliceSizes := ![1, 1]
  wf := gather_S1024x100000_S1024x1x1_S1024x1_n_1_0_0_1_2_11_wf

class Facts : Prop extends Facts₀ where

variable [Facts]
-- ==== Proof.Spec.lean ====
/-
  The mathematics both programs compute, stated once over the extended reals.

  For an embedding row x and a class row w, write u(v) = v / max(‖v‖, ε) for the row divided by its
  Euclidean norm (clamped below by ε), and c(x, w) = clip(⟨u(x), u(w)⟩, lo, hi) for the clipped cosine.
  With the label ℓ of the row and the margin map φ, the loss of a row is the negative log-softmax at ℓ of the
  logits  S·c_j (j ≠ ℓ),  S·φ(c_ℓ) (j = ℓ);  the result is the mean over the 1024 rows.

  The reference evaluates this directly (`rowR`).  The kernel streams the 100000 classes in 50 blocks of 2000
  and keeps a running maximum m and a running sum l of exp(S·c_j − m) started at m = S·φ(c_ℓ), l = 0
  (`runML`); after the last block it replaces the ℓ-th term exp(S·c_ℓ − m) by exp(S·φ(c_ℓ) − m)
  and takes m + log(·) − S·φ(c_ℓ) (`rowK`).
-/
import Idealize.ShloMosaic.PureOps.Ideal

noncomputable section

namespace Cert.Arc

open Idealize.ShloMosaic

/-! ## The literals, as the extended reals their words denote -/

def eps : EReal := Ideal.ofBits .f32 0x2B8CBCCC#32
def lo : EReal := Ideal.ofBits .f32 0xBF7FFFFE#32
def hi : EReal := Ideal.ofBits .f32 0x3F7FFFFE#32
def cosM : EReal := Ideal.ofBits .f32 0x3F60A940#32
def sinM : EReal := Ideal.ofBits .f32 0x3EF57744#32
def thr : EReal := Ideal.ofBits .f32 0xBF60A940#32
def mm : EReal := Ideal.ofBits .f32 0x3E757744#32
def sc : EReal := Ideal.ofBits .f32 0x42800000#32
def one : EReal := Ideal.ofBits .f32 0x3F800000#32
def tiny : EReal := Ideal.ofBits .f32 0x0DA24260#32
def nB : EReal := Ideal.ofBits .f32 0x44800000#32

/-! ## Cosines -/

/-- A row divided by the larger of its Euclidean norm and ε. -/
def unitRow (v : Fin 512 → EReal) (d : Fin 512) : EReal :=
  Ideal.div (v d) (max (Ideal.sqrt (∑ k : Fin 512, v k * v k)) eps)

/-- The clipped inner product of an (already normalised) row `e` with the normalised class row `w`. -/
def cosN (e : Fin 512 → EReal) (w : Fin 512 → EReal) : EReal :=
  min hi (max lo (∑ d : Fin 512, e d * unitRow w d))

/-- The clipped cosine of embedding row `b` and class row `j`. -/
def cosv (X : Fin 1024 → Fin 512 → EReal) (W : Fin 100000 → Fin 512 → EReal) (b : Fin 1024) (j : Fin 100000) : EReal :=
  cosN (unitRow (X b)) (W j)

/-! ## The margin -/

/-- The margin map as the kernel's host code spells it (the radicand clamped at zero). -/
def marginK (c : EReal) : EReal :=
  if thr < c then c * cosM - Ideal.sqrt (max (one - c * c) 0) * sinM else c - mm

/-- The margin map as the reference spells it. -/
def marginR (c : EReal) : EReal :=
  if thr < c then c * cosM - Ideal.sqrt (one - c * c) * sinM else c - mm

/-! ## The kernel's streamed log-sum-exp -/

/-- The scaled cosines of one row, as a sequence (junk past the last class; never read). -/
def sSeq (c : Fin 100000 → EReal) (k : ℕ) : EReal :=
  if h : k < 100000 then c ⟨k, h⟩ * sc else ⊥

/-- The largest scaled cosine in block `n` (2000 consecutive classes). -/
def blkSup (s : ℕ → EReal) (n : ℕ) : EReal :=
  Finset.univ.sup fun q : Fin 2000 => s (2000 * n + q.val)

/-- The block's sum of exponentials shifted by `m`. -/
def blkSum (s : ℕ → EReal) (m : EReal) (n : ℕ) : EReal :=
  ∑ q : Fin 2000, Ideal.exp (s (2000 * n + q.val) - m)

/-- One block of the streamed reduction: the new running maximum, and the running sum rescaled to it plus the block's. -/
def stepML (s : ℕ → EReal) (p : EReal × EReal) (n : ℕ) : EReal × EReal :=
  (max p.1 (blkSup s n), Ideal.exp (p.1 - max p.1 (blkSup s n)) * p.2 + blkSum s (max p.1 (blkSup s n)) n)

/-- The running maximum and running sum before block `n`, started at `(init, 0)`. -/
def runML (init : EReal) (s : ℕ → EReal) : ℕ → EReal × EReal
  | 0 => (init, 0)
  | n + 1 => stepML s (runML init s n) n

/-- The kernel's loss of one row from its clipped cosines `c` and its label `l`. -/
def rowK (c : Fin 100000 → EReal) (l : Fin 100000) : EReal :=
  (runML (sc * marginK (c l)) (sSeq c) 50).1
    + Ideal.log (max ((runML (sc * marginK (c l)) (sSeq c) 50).2
        - Ideal.exp (sc * c l - (runML (sc * marginK (c l)) (sSeq c) 50).1)
        + Ideal.exp (sc * marginK (c l) - (runML (sc * marginK (c l)) (sSeq c) 50).1)) tiny)
    - sc * marginK (c l)

/-! ## The reference's log-softmax -/

/-- The reference's logit of class `j` for a row with label `l`. -/
def logitR (c : Fin 100000 → EReal) (l j : Fin 100000) : EReal :=
  sc * ((if j = l then (1 : EReal) else 0) * marginR (c j) + (one - (if j = l then (1 : EReal) else 0)) * c j)

/-- The reference's loss of one row. -/
def rowR (c : Fin 100000 → EReal) (l : Fin 100000) : EReal :=
  -((logitR c l l - Finset.univ.sup (logitR c l))
      - Ideal.log (∑ j : Fin 100000, Ideal.exp (logitR c l j - Finset.univ.sup (logitR c l))))

/-! ## The two results -/

def resK (X : Fin 1024 → Fin 512 → EReal) (W : Fin 100000 → Fin 512 → EReal) (lab : Fin 1024 → Fin 100000) : EReal :=
  Ideal.div (∑ b : Fin 1024, rowK (cosv X W b) (lab b)) nB

def resR (X : Fin 1024 → Fin 512 → EReal) (W : Fin 100000 → Fin 512 → EReal) (lab : Fin 1024 → Fin 100000) : EReal :=
  Ideal.div (∑ b : Fin 1024, rowR (cosv X W b) (lab b)) nB

end Cert.Arc

end
-- ==== Proof.KDefs.lean ====
/-
  The kernel program's arguments as plain tables: the embeddings X[b, d], the class rows W[j, d], the label words L[b];
  the hypothesis that every label, read signed, is a class number; the labels as class numbers under it; and, for an
  embedding row b, the row of its clipped cosines against every class as the launched region's arrays give them.
-/
import proofs.«422797_j35029753266820_1_alg».proof.Proof.Gen.KernelIdeal.Frame
import proofs.«422797_j35029753266820_1_alg».proof.Proof.Spec
import Idealize.ShloMosaic.Lib.Pipeline.Value
import Idealize.ShloMosaic.Lib.ValueIdx

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.Arc

variable (m : (ℓ : Loc nD τ sig) → Buf (Elt Ideal) ℓ) (ρ : Dev nD → PrngReg)

/-- The embeddings. -/
def Xof (c : Dev nD) : Fin 1024 → Fin 512 → EReal :=
  fun b d => (m ((c : Thread nD τ).loc main_arg0) : S1024x512.Idx → EReal) (ix2 b d)

/-- The class rows. -/
def Wof (c : Dev nD) : Fin 100000 → Fin 512 → EReal :=
  fun j d => (m ((c : Thread nD τ).loc main_arg2) : S100000x512.Idx → EReal) (ix2 j d)

/-- The label words. -/
def Lof (c : Dev nD) : Fin 1024 → BitVec 32 :=
  fun b => (m ((c : Thread nD τ).loc main_arg1) : S1024.Idx → BitVec 32) (ix1 b)

/-- Every label, read signed, is a class number. -/
def InRange (c : Dev nD) : Prop := ∀ b : Fin 1024, 0 ≤ (Lof m c b).toInt ∧ (Lof m c b).toInt < 100000

/-- The labels as class numbers. -/
def labOf (c : Dev nD) (h : InRange m c) : Fin 1024 → Fin 100000 :=
  fun b => ⟨(Lof m c b).toInt.toNat, by have := h b; omega⟩

/-- The normalised embeddings the region is launched on (its first operand's array), as a table. -/
def Eof (c : Dev nD) : Fin 1024 → Fin 512 → EReal :=
  fun b d => (V m c main_v8 : S1024x512.Idx → EReal) (ix2 b d)

/-- The start values of the running maximum the region is launched on (its third operand's array), per row. -/
def Iof (c : Dev nD) : Fin 1024 → EReal :=
  fun b => (V m c main_v39 : S1024x1.Idx → EReal) (ix2 b 0)

/-- Row b's clipped cosines against every class, from the region's first operand and the class rows. -/
def cRow (c : Dev nD) (b : Fin 1024) : Fin 100000 → EReal :=
  fun j => cosN (Eof m c b) (Wof m c j)

end Cert.KernelIdeal.KV

end
-- ==== Proof.LibScatterSum.lean ====
/-
  THE HOST'S ACCUMULATING FLOAT SCATTER READ AT AN INDEX, at the ideal instance, for the two
  dimension-number patterns an indexed accumulation with ONE index per update row lowers to.

  The accumulating scatter at the ideal instance (PureOps/Ideal.lean, Ideal.hostScatterAdd) is, at each operand index, the
  operand element plus the sum of the update elements whose result index (ScatterDims.resultIdx?: the start index read
  signed and not clamped, plus the window coordinate, when that lies inside the operand) is that index. Here the scatter
  indices have shape [N, 1] with the index vector on axis 1, so update row n carries the single start index idx[n, 0].

  ROWS pattern: operand [P, C], updates [N, C], update window axes [1], inserted window axes [0], scatter axes to
  operand axes [0], index vector axis 1. Update element (n, ch) lands at (p, ch') exactly when idx[n, 0], read signed,
  is p and ch = ch' (resultIdx_rows); so the scatter at (p, ch) is the operand there plus the sum over the rows n with
  idx[n, 0] = p of the update at (n, ch) (scatterAdd_rows_apply).

  FLAT pattern: operand [P], updates [N], update window axes [], inserted window axes [0], scatter axes to operand axes
  [0], index vector axis 1. Update element n lands at p exactly when idx[n, 0], read signed, is p (resultIdx_flat); so
  the scatter at p is the operand there plus the sum over the n with idx[n, 0] = p of the update at n
  (scatterAdd_flat_apply).

  The extents P, C, N and the index width w are variables: nothing here evaluates a size. The dimension numbers are
  known only through the four equations on their lists. Before the two patterns, the general part: start and window by
  membership of the axis in the lists, the scatter-indices index of an update index by axis, and the result index as
  "start plus window is the coordinate, on every axis" (resultIdx?_eq_some_iff).
-/
import Idealize.ShloMosaic.PureOps.Ideal
import Idealize.ShloMosaic.Lib.ValueIdx
import Mathlib.Algebra.BigOperators.Group.Finset.Basic

noncomputable section

open scoped BigOperators

namespace Idealize.ShloMosaic.ScatterSum

open Idealize.ShloMosaic Idealize.ShloMosaic.ValueIdx

/-! ## A list with one entry -/

/-- Every entry of a one-entry list is that entry. -/
theorem getElem_of_eq_singleton {α : Type*} {l : List α} {a : α} (h : l = [a]) (k : Nat) (hk : k < l.length) :
    l[k] = a := by
  subst h
  have hk0 : k = 0 := by simpa using hk
  subst hk0
  rfl

/-- An axis is kept exactly when it is not among the removed ones. -/
theorem mem_kept {s : Shape} (axes : List (Fin s.rank)) (a : Fin s.rank) : a ∈ s.kept axes ↔ a ∉ axes := by
  unfold Shape.kept
  rw [List.mem_filter]
  constructor
  · intro h; simpa using h.2
  · intro h; exact ⟨List.mem_finRange a, by simpa using h⟩

/-! ## The general scatter: start, window, scatter-indices index and result index -/

section General
variable {s si u : Shape} (d : ScatterDims s si u)

/-- On an operand axis the map names, the start is the scatter index read signed at the update index's
    scatter-indices index. -/
theorem start_of_mem {w : Nat} (j : u.Idx) (idx : IVec si w) (a : Fin s.rank) (ha : a ∈ d.scatterDimsToOperandDims) :
    d.start j idx a
      = (idx (d.siIdx j ⟨d.scatterDimsToOperandDims.idxOf a, List.idxOf_lt_length_iff.2 ha⟩)).toInt := by
  unfold ScatterDims.start
  rw [dif_pos ha]

/-- On an operand axis the map does not name, the start is zero. -/
theorem start_of_not_mem {w : Nat} (j : u.Idx) (idx : IVec si w) (a : Fin s.rank)
    (ha : a ∉ d.scatterDimsToOperandDims) : d.start j idx a = 0 := by
  unfold ScatterDims.start
  rw [dif_neg ha]

/-- On an inserted operand axis the window coordinate is zero. -/
theorem window_of_not_mem (j : u.Idx) (a : Fin s.rank) (ha : a ∉ d.sKept) : d.window j a = 0 := by
  unfold ScatterDims.window
  rw [dif_neg ha]

/-- With one update window axis b, the window coordinate on a kept operand axis is the update index's coordinate
    on b. -/
theorem window_of_singleton (j : u.Idx) (a : Fin s.rank) (ha : a ∈ d.sKept) (b : Fin u.rank)
    (hb : d.updateWindowDims = [b]) : d.window j a = (j b).val := by
  unfold ScatterDims.window
  rw [dif_pos ha]
  exact congrArg (fun e => (j e).val) (getElem_of_eq_singleton hb _ _)

/-- On the index vector's axis the scatter-indices index has the component's number. -/
theorem siIdx_val_of_eq (j : u.Idx) (c : Fin d.scatterDimsToOperandDims.length) (b : Fin si.rank)
    (hb : b.val = d.indexVectorDim) : (d.siIdx j c b).val = c.val := by
  unfold ScatterDims.siIdx
  rw [dif_pos hb]

/-- With one update scatter axis a, the scatter-indices index has, off the index vector's axis, the update index's
    coordinate on a. -/
theorem siIdx_val_of_ne (j : u.Idx) (c : Fin d.scatterDimsToOperandDims.length) (b : Fin si.rank)
    (hb : ¬ b.val = d.indexVectorDim) (a : Fin u.rank) (ha : d.uScatter = [a]) :
    (d.siIdx j c b).val = (j a).val := by
  unfold ScatterDims.siIdx
  rw [dif_neg hb]
  unfold ScatterDims.siCoord
  exact congrArg (fun e => (j e).val) (getElem_of_eq_singleton ha _ _)

/-- The update index j lands at the operand index i exactly when, on every axis, start plus window coordinate is
    i's coordinate. -/
theorem resultIdx?_eq_some_iff {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · intro hf a
      have hv : (d.start j idx a + (d.window j a : Int)).toNat = (i a).val :=
        congrArg (fun f : s.Idx => (f a).val) hf
      have h0 := (h a).1
      omega
    · intro hf
      funext a
      refine Fin.ext ?_
      show (d.start j idx a + (d.window j a : Int)).toNat = (i a).val
      have := hf a
      omega
  · constructor
    · intro hn
      exact absurd hn (by simp)
    · intro hf
      exact absurd (fun a => by have := hf a; have := (i a).isLt; omega) h

end General

/-! ## Scatter indices of shape [N, 1], index vector on axis 1: one start index per update row -/

/-- With scatter indices [N, 1], the index vector on axis 1 and one update scatter axis a, the update index j reads
    its start index at [n, 0], n its coordinate on a. -/
theorem siIdx_one {s u : Shape} {N : Nat} (d : ScatterDims s (⟨2, ![N, 1]⟩ : Shape) u) (hiv : d.indexVectorDim = 1)
    (a : Fin u.rank) (ha : d.uScatter = [a]) (j : u.Idx) (c : Fin d.scatterDimsToOperandDims.length) (n : Fin N)
    (hn : (j a).val = n.val) : d.siIdx j c = ix2 n (0 : Fin 1) := by
  funext b
  refine Fin.ext ?_
  match b with
  | ⟨0, hb⟩ =>
    rw [siIdx_val_of_ne d j c ⟨0, hb⟩ (by rw [hiv]; exact Nat.zero_ne_one) a ha, hn]
  | ⟨1, hb⟩ =>
    have h1 : (d.siIdx j c ⟨1, hb⟩).val < 1 := (d.siIdx j c ⟨1, hb⟩).isLt
    show (d.siIdx j c ⟨1, hb⟩).val = 0
    omega

/-! ## The ROWS pattern: operand [P, C], updates [N, C] -/

section Rows
variable {P C N w : Nat}

/-- Update element (n, ch) lands at (p, ch') exactly when the row's start index is p and the channels agree. -/
theorem resultIdx_rows (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (idx : IVec (⟨2, ![N, 1]⟩ : Shape) w) (n : Fin N) (ch : Fin C) (p : Fin P)
    (ch' : Fin C) :
    d.resultIdx? (ix2 n ch) idx = some (ix2 p ch') ↔ ((idx (ix2 n (0 : Fin 1))).toInt = (p.val : Int) ∧ ch = ch') := by
  have huS : d.uScatter = [0] := by
    show Shape.kept _ d.updateWindowDims = [0]
    rw [huw]; rfl
  have h0mem : (0 : Fin 2) ∈ d.scatterDimsToOperandDims := by rw [hsd]; exact List.mem_singleton.2 rfl
  have h10 : ¬ (1 : Fin 2) = 0 := fun h => absurd (congrArg Fin.val h) Nat.one_ne_zero
  have h1nmem : (1 : Fin 2) ∉ d.scatterDimsToOperandDims := by
    rw [hsd]; exact fun h => h10 (List.mem_singleton.1 h)
  have h0k : (0 : Fin 2) ∉ d.sKept := by
    show _ ∉ Shape.kept _ d.insertedWindowDims
    rw [hiw, mem_kept]; exact fun h => h (List.mem_singleton.2 rfl)
  have h1k : (1 : Fin 2) ∈ d.sKept := by
    show _ ∈ Shape.kept _ d.insertedWindowDims
    rw [hiw, mem_kept]; exact fun h => h10 (List.mem_singleton.1 h)
  have hs0 : d.start (ix2 n ch) idx 0 = (idx (ix2 n (0 : Fin 1))).toInt := by
    rw [start_of_mem d _ _ _ h0mem, siIdx_one d hiv 0 huS (ix2 n ch) _ n rfl]
  have hs1 : d.start (ix2 n ch) idx 1 = 0 := start_of_not_mem d _ _ _ h1nmem
  have hw0 : d.window (ix2 n ch) 0 = 0 := window_of_not_mem d _ _ h0k
  have hw1 : d.window (ix2 n ch) 1 = ch.val := window_of_singleton d _ _ h1k 1 huw
  rw [resultIdx?_eq_some_iff]
  constructor
  · intro h
    have a0 : d.start (ix2 n ch) idx 0 + (d.window (ix2 n ch) 0 : Int) = (p.val : Int) := h 0
    have a1 : d.start (ix2 n ch) idx 1 + (d.window (ix2 n ch) 1 : Int) = (ch'.val : Int) := h 1
    rw [hs0, hw0] at a0
    rw [hs1, hw1] at a1
    refine ⟨by omega, Fin.ext (by omega)⟩
  · rintro ⟨h0, rfl⟩ a
    match a with
    | ⟨0, _⟩ =>
      show d.start (ix2 n ch) idx 0 + (d.window (ix2 n ch) 0 : Int) = (p.val : Int)
      rw [hs0, hw0, h0]; omega
    | ⟨1, _⟩ =>
      show d.start (ix2 n ch) idx 1 + (d.window (ix2 n ch) 1 : Int) = (ch.val : Int)
      rw [hs1, hw1]; omega

/-- THE SCATTER READ AT (p, ch): the operand there plus the updates at channel ch of the rows whose start index is
    p. -/
theorem scatterAdd_rows_apply (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1) (x : (⟨2, ![P, C]⟩ : Shape).Idx → EReal) (idx : IVec (⟨2, ![N, 1]⟩ : Shape) w)
    (upd : (⟨2, ![N, C]⟩ : Shape).Idx → EReal) (p : Fin P) (ch : Fin C) :
    Ideal.hostScatterAdd d x idx upd (ix2 p ch)
      = x (ix2 p ch)
        + ∑ n ∈ Finset.univ.filter (fun n : Fin N => (idx (ix2 n (0 : Fin 1))).toInt = (p.val : Int)),
            upd (ix2 n ch) := by
  unfold Ideal.hostScatterAdd
  congr 1
  rw [Finset.sum_filter, Finset.sum_filter, sum_idx2]
  refine Finset.sum_congr rfl fun n _ => ?_
  by_cases hA : (idx (ix2 n (0 : Fin 1))).toInt = (p.val : Int)
  · rw [if_pos hA, Finset.sum_eq_single ch]
    · rw [if_pos ((resultIdx_rows d huw hiw hsd hiv idx n ch p ch).2 ⟨hA, rfl⟩)]
    · intro c _ hc
      exact if_neg fun h => hc ((resultIdx_rows d huw hiw hsd hiv idx n c p ch).1 h).2
    · intro h
      exact absurd (Finset.mem_univ _) h
  · rw [if_neg hA]
    exact Finset.sum_eq_zero fun c _ =>
      if_neg fun h => hA ((resultIdx_rows d huw hiw hsd hiv idx n c p ch).1 h).1

end Rows

/-! ## The FLAT pattern: operand [P], updates [N] -/

section Flat
variable {P N w : Nat}

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- Update element n lands at p exactly when its start index is p. -/
theorem resultIdx_flat (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (idx : IVec (⟨2, ![N, 1]⟩ : Shape) w) (n : Fin N) (p : Fin P) :
    d.resultIdx? (ix1 n) idx = some (ix1 p) ↔ (idx (ix2 n (0 : Fin 1))).toInt = (p.val : Int) := by
  have huS : d.uScatter = [0] := by
    show Shape.kept _ d.updateWindowDims = [0]
    rw [huw]; rfl
  have h0mem : (0 : Fin 1) ∈ d.scatterDimsToOperandDims := by rw [hsd]; exact List.mem_singleton.2 rfl
  have h0k : (0 : Fin 1) ∉ d.sKept := by
    show _ ∉ Shape.kept _ d.insertedWindowDims
    rw [hiw, mem_kept]; exact fun h => h (List.mem_singleton.2 rfl)
  have hs0 : d.start (ix1 n) idx 0 = (idx (ix2 n (0 : Fin 1))).toInt := by
    rw [start_of_mem d _ _ _ h0mem, siIdx_one d hiv 0 huS (ix1 n) _ n rfl]
  have hw0 : d.window (ix1 n) 0 = 0 := window_of_not_mem d _ _ h0k
  rw [resultIdx?_eq_some_iff]
  constructor
  · intro h
    have a0 : d.start (ix1 n) idx 0 + (d.window (ix1 n) 0 : Int) = (p.val : Int) := h 0
    rw [hs0, hw0] at a0
    omega
  · intro h0 a
    match a with
    | ⟨0, _⟩ =>
      show d.start (ix1 n) idx 0 + (d.window (ix1 n) 0 : Int) = (p.val : Int)
      rw [hs0, hw0, h0]; omega

/-- THE SCATTER READ AT p: the operand there plus the updates whose start index is p. -/
theorem scatterAdd_flat_apply (d : ScatterDims (⟨1, ![P]⟩ : Shape) (⟨2, ![N, 1]⟩ : Shape) (⟨1, ![N]⟩ : Shape))
    (huw : d.updateWindowDims = []) (hiw : d.insertedWindowDims = [0]) (hsd : d.scatterDimsToOperandDims = [0])
    (hiv : d.indexVectorDim = 1) (x : (⟨1, ![P]⟩ : Shape).Idx → EReal) (idx : IVec (⟨2, ![N, 1]⟩ : Shape) w)
    (upd : (⟨1, ![N]⟩ : Shape).Idx → EReal) (p : Fin P) :
    Ideal.hostScatterAdd d x idx upd (ix1 p)
      = x (ix1 p)
        + ∑ n ∈ Finset.univ.filter (fun n : Fin N => (idx (ix2 n (0 : Fin 1))).toInt = (p.val : Int)),
            upd (ix1 n) := by
  unfold Ideal.hostScatterAdd
  congr 1
  rw [Finset.sum_filter, Finset.sum_filter]
  refine Fintype.sum_equiv idxEquiv1 _ _ fun j => ?_
  obtain ⟨n, rfl⟩ : ∃ n, j = ix1 n := ⟨j 0, eq_ix1 j⟩
  show _ = if (idx (ix2 n (0 : Fin 1))).toInt = (p.val : Int) then upd (ix1 n) else 0
  by_cases hA : (idx (ix2 n (0 : Fin 1))).toInt = (p.val : Int)
  · rw [if_pos hA, if_pos ((resultIdx_flat d huw hiw hsd hiv idx n p).2 hA)]
  · rw [if_neg hA, if_neg fun h => hA ((resultIdx_flat d huw hiw hsd hiv idx n p).1 h)]

end Flat

end Idealize.ShloMosaic.ScatterSum

end
-- ==== Proof.LibGatherRows.lean ====
/-
  THE HOST'S GATHER OF WHOLE ROWS READ AT AN INDEX.

  What x[idx] of a matrix x : [P, C] at a column idx : [N, 1] of row numbers lowers to: a gather with offset axes [1],
  collapsed slice axes [0], no batching axes, start index map [0], the index vector on axis 1 and slices of one row
  (slice sizes [1, C]). Result element (n, ch) is x at row idx[n, 0] — read signed and clamped into [0, P - 1], as
  the gather clamps every start index — and column ch (gather_rows_apply).

  The operand index of a gather is, on each operand axis, the clamped start plus the batching coordinate plus the
  offset coordinate. On axis 0 (collapsed, named by the start index map) only the start is there; on axis 1 (kept, not
  named) only the offset coordinate, which is the result index's coordinate on the one offset axis. The start index is
  read at the start-indices index [n, 0] (siIdx_rows): the result's one batch axis carries n, and the index vector's
  axis has extent one.

  The extents P, C, N and the index width w are variables; the dimension numbers are known only through the equations
  on their lists.
-/
import Idealize.ShloMosaic.PureOps.ShapeOps
import Idealize.ShloMosaic.Lib.ValueIdx
import proofs.«422797_j35029753266820_1_alg».proof.Proof.LibScatterSum

namespace Idealize.ShloMosaic.GatherRows

open Idealize.ShloMosaic Idealize.ShloMosaic.ValueIdx Idealize.ShloMosaic.ScatterSum

section Rows
variable {α : Type} {P C N w : Nat}

/-- Result index (n, ch) reads its start index at [n, 0]. -/
theorem siIdx_rows (d : GatherDims (⟨2, ![P, C]⟩ : Shape) (⟨2, ![N, 1]⟩ : Shape) (⟨2, ![N, C]⟩ : Shape))
    (hod : d.offsetDims = [1]) (hiv : d.indexVectorDim = 1) (n : Fin N) (ch : Fin C)
    (c : Fin d.startIndexMap.length) : d.siIdx (ix2 n ch) c = ix2 n (0 : Fin 1) := by
  have hbd : d.batchDims = [0] := by
    show Shape.kept _ d.offsetDims = [0]
    rw [hod]; rfl
  funext b
  refine Fin.ext ?_
  match b with
  | ⟨0, hb⟩ =>
    unfold GatherDims.siIdx
    rw [dif_neg (by rw [hiv]; exact Nat.zero_ne_one)]
    unfold GatherDims.siCoord
    exact congrArg (fun e => (ix2 n ch e).val) (getElem_of_eq_singleton hbd _ _)
  | ⟨1, hb⟩ =>
    have h1 : (d.siIdx (ix2 n ch) c ⟨1, hb⟩).val < 1 := (d.siIdx (ix2 n ch) c ⟨1, hb⟩).isLt
    show (d.siIdx (ix2 n ch) c ⟨1, hb⟩).val = 0
    omega

/-- THE GATHER READ AT (n, ch): the operand at the row idx[n, 0] names, read signed and clamped into [0, P - 1], and
    column ch. -/
theorem gather_rows_apply (hP : 0 < P)
    (d : GatherDims (⟨2, ![P, C]⟩ : Shape) (⟨2, ![N, 1]⟩ : Shape) (⟨2, ![N, C]⟩ : Shape))
    (hod : d.offsetDims = [1]) (hcd : d.collapsedSliceDims = [0]) (hob : d.operandBatchingDims = [])
    (hsm : d.startIndexMap = [0]) (hiv : d.indexVectorDim = 1) (hss : d.sliceSizes 0 = 1)
    (x : (⟨2, ![P, C]⟩ : Shape).Idx → α) (idx : IVec (⟨2, ![N, 1]⟩ : Shape) w) (n : Fin N) (ch : Fin C) :
    Host.gather d x idx (ix2 n ch)
      = x (ix2 (⟨min (idx (ix2 n (0 : Fin 1))).toInt.toNat (P - 1), by omega⟩ : Fin P) ch) := by
  have h10 : ¬ (1 : Fin 2) = 0 := fun h => absurd (congrArg Fin.val h) Nat.one_ne_zero
  have h0mem : (0 : Fin 2) ∈ d.startIndexMap := by rw [hsm]; exact List.mem_singleton.2 rfl
  have h1nmem : (1 : Fin 2) ∉ d.startIndexMap := by
    rw [hsm]; exact fun h => h10 (List.mem_singleton.1 h)
  have hnb : ∀ a : Fin 2, a ∉ d.operandBatchingDims := by
    intro a; rw [hob]; exact List.not_mem_nil
  have h0k : (0 : Fin 2) ∉ d.sKept := fun h =>
    ((d.mem_sKept _).1 h).1 (by rw [hcd]; exact List.mem_singleton.2 rfl)
  have h1k : (1 : Fin 2) ∈ d.sKept :=
    (d.mem_sKept _).2 ⟨by rw [hcd]; exact fun h => h10 (List.mem_singleton.1 h), hnb 1⟩
  unfold Host.gather
  congr 1
  funext a
  refine Fin.ext ?_
  match a with
  | ⟨0, _⟩ =>
    show d.start (ix2 n ch) idx 0 + d.batchCoord (ix2 n ch) 0 + d.offCoord (ix2 n ch) 0
      = min (idx (ix2 n (0 : Fin 1))).toInt.toNat (P - 1)
    rw [d.batchCoord_eq_zero _ _ (hnb 0), d.offCoord_eq_zero _ _ h0k]
    unfold GatherDims.start
    rw [dif_pos h0mem, siIdx_rows d hod hiv n ch, hss]
    rfl
  | ⟨1, _⟩ =>
    show d.start (ix2 n ch) idx 1 + d.batchCoord (ix2 n ch) 1 + d.offCoord (ix2 n ch) 1 = ch.val
    rw [d.batchCoord_eq_zero _ _ (hnb 1)]
    unfold GatherDims.start GatherDims.offCoord
    rw [dif_neg h1nmem, dif_pos h1k]
    show 0 + 0 + ((ix2 n ch) (d.offsetDims[d.sKept.idxOf 1]'_)).val = ch.val
    simp only [Nat.zero_add]
    exact congrArg (fun e => (ix2 n ch e).val) (getElem_of_eq_singleton hod _ _)

end Rows

end Idealize.ShloMosaic.GatherRows
-- ==== Proof.LibTakeFill.lean ====
/-
  THE FILL-MODE TAKE OF WHOLE ROWS READ AT AN INDEX, when every index is in range.

  What jnp.take(x, idx, axis=0) in fill mode of a matrix x : [P, C] at a vector idx : [N] of row numbers lowers to:
  a negative index is first wrapped by adding P (a select on idx < 0); the wrapped vector, laid as a column [N, 1],
  drives a gather of whole rows; the mask 0 ≤ column ≤ P - 1, reduced by "and" over the unit axis and laid along the
  rows of [N, C], selects the gathered element, and elsewhere a fill value.

  When 0 ≤ idx n < P for every n (read signed), the wrap returns the index itself, the mask is one everywhere, the
  gather's clamp is the identity, and element (n, ch) of the result is x at row idx n and column ch (take_fill_apply).

  Beside it, the other host idioms of an edge list's use, each read at an index: the accumulating scatter of rows into
  a zero matrix by a destination vector laid as a column (scatter_zero_rows_apply: zero plus the sum of the update rows
  whose destination is the row); one row of a two-row index table as a vector (row_apply); one member of a stack of
  matrices as a matrix (member3_apply) and of a stack of vectors as a one-row matrix (member2_row_apply).

  The extents are variables; the shape relations and the dimension numbers are hypotheses.
-/
import Idealize.ShloMosaic.PureOps.Ideal
import Idealize.ShloMosaic.PureOps.Contract
import Idealize.ShloMosaic.Lib.ValueIdx
import Idealize.ShloMosaic.Lib.ValueLayout
import Idealize.ShloMosaic.Lib.IdealHost
import Idealize.ShloMosaic.Lib.Pipeline.Value
import proofs.«422797_j35029753266820_1_alg».proof.Proof.LibGatherRows
import proofs.«422797_j35029753266820_1_alg».proof.Proof.LibScatterSum

namespace Idealize.ShloMosaic.TakeFill

open Idealize.ShloMosaic Idealize.ShloMosaic.ValueIdx Idealize.ShloMosaic.GatherRows Idealize.ShloMosaic.ScatterSum

open scoped BigOperators

/-! ## Words -/

/-- A word that is not negative is not below zero: the wrap's select returns it. -/
theorem wrap_select (w cP : BitVec 32) (h0 : 0 ≤ w.toInt) :
    Scalar.select (IntOp.cmpi .slt w 0#32) (IntOp.addi w cP) w = w := by
  have hlt : w.slt 0#32 = false := by
    rw [Bool.eq_false_iff]
    intro h
    have := BitVec.slt_iff_toInt_lt.mp h
    have h00 : (0#32 : BitVec 32).toInt = 0 := by decide
    omega
  have hc : IntOp.cmpi .slt w 0#32 = 0#1 := by
    show BitVec.ofBool (w.slt 0#32) = 0#1
    rw [hlt]; rfl
  rw [hc]
  exact select_zero _ _

/-- A word between zero and the cap passes both comparisons of the range mask. -/
theorem range_mask (w cM : BitVec 32) (h0 : 0 ≤ w.toInt) (h1 : w.toInt ≤ cM.toInt) :
    IntOp.andi (IntOp.cmpi .sge w 0#32) (IntOp.cmpi .sle w cM) = 1#1 := by
  have h00 : (0#32 : BitVec 32).toInt = 0 := by decide
  have ha : (0#32 : BitVec 32).sle w = true := BitVec.sle_iff_toInt_le.mpr (by omega)
  have hb : w.sle cM = true := BitVec.sle_iff_toInt_le.mpr h1
  show IntOp.andi (BitVec.ofBool ((0#32 : BitVec 32).sle w)) (BitVec.ofBool (w.sle cM)) = 1#1
  rw [ha, hb]
  decide

/-! ## An "and" reduction of ones -/

/-- A reduce by "and" from one of an array of ones is one. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize ((List.finRange s.numel).filter fun n => h.drop (s.rowMajor.symm n) = j) = l
  induction l with
  | nil => rfl
  | cons a l ih =>
    rw [List.foldl_cons, hx]
    have e : IntOp.andi (1#1 : BitVec 1) 1#1 = 1#1 := by decide
    rw [e]
    exact ih

/-! ## The take -/

section Take
variable {α : Type} {P C N : Nat}

/-- A vector laid as a column reads, at (n, 0), the vector at n. -/
theorem col_apply {β : Type} (bcol : (⟨1, ![N]⟩ : Shape).BroadcastsInDim ⟨2, ![N, 1]⟩ ![0])
    (v : (⟨1, ![N]⟩ : Shape).Idx → β) (n : Fin N) (z : Fin 1) :
    broadcastInDim ⟨2, ![N, 1]⟩ ![0] bcol v (ix2 n z) = v (ix1 n) := by
  refine broadcastInDim_apply _ bcol v (ix2 n z) (ix1 n) fun a => ?_
  match a with
  | ⟨0, _⟩ =>
    show n.val = if N = 1 then 0 else n.val
    have := n.isLt
    split <;> omega

/-- A vector laid along the rows of a matrix reads, at (n, ch), the vector at n. -/
theorem rows_apply {β : Type} (bm : (⟨1, ![N]⟩ : Shape).BroadcastsInDim ⟨2, ![N, C]⟩ ![0])
    (v : (⟨1, ![N]⟩ : Shape).Idx → β) (n : Fin N) (ch : Fin C) :
    broadcastInDim ⟨2, ![N, C]⟩ ![0] bm v (ix2 n ch) = v (ix1 n) := by
  refine broadcastInDim_apply _ bm v (ix2 n ch) (ix1 n) fun a => ?_
  match a with
  | ⟨0, _⟩ =>
    show n.val = if N = 1 then 0 else n.val
    have := n.isLt
    split <;> omega

/-- THE FILL-MODE TAKE READ AT (n, ch), every index in range: x at row idx n and column ch. -/
theorem take_fill_apply (hP : 0 < P)
    (d : GatherDims (⟨2, ![P, C]⟩ : Shape) (⟨2, ![N, 1]⟩ : Shape) (⟨2, ![N, C]⟩ : Shape))
    (hod : d.offsetDims = [1]) (hcd : d.collapsedSliceDims = [0]) (hob : d.operandBatchingDims = [])
    (hsm : d.startIndexMap = [0]) (hiv : d.indexVectorDim = 1) (hss : d.sliceSizes 0 = 1)
    (b0 : (⟨0, ![]⟩ : Shape).BroadcastsInDim ⟨1, ![N]⟩ ![])
    (bcol : (⟨1, ![N]⟩ : Shape).BroadcastsInDim ⟨2, ![N, 1]⟩ ![0])
    (b0c : (⟨0, ![]⟩ : Shape).BroadcastsInDim ⟨2, ![N, 1]⟩ ![])
    (b11 : (⟨1, ![1]⟩ : Shape).BroadcastsInDim ⟨2, ![1, 1]⟩ ![1])
    (b11c : (⟨2, ![1, 1]⟩ : Shape).BroadcastsInDim ⟨2, ![N, 1]⟩ ![0, 1])
    (red : (⟨2, ![N, 1]⟩ : Shape).ReducesTo [1] ⟨1, ![N]⟩) (hu : 0 < (⟨0, ![]⟩ : Shape).numel)
    (bm : (⟨1, ![N]⟩ : Shape).BroadcastsInDim ⟨2, ![N, C]⟩ ![0])
    (cP cM : BitVec 32) (hcM : cM.toInt = (P : Int) - 1)
    (src : IVec (⟨1, ![N]⟩ : Shape) 32) (x : (⟨2, ![P, C]⟩ : Shape).Idx → α) (y : (⟨2, ![N, C]⟩ : Shape).Idx → α)
    (hs : ∀ n : Fin N, 0 ≤ (src (ix1 n)).toInt ∧ (src (ix1 n)).toInt < (P : Int)) (n : Fin N) (ch : Fin C) :
    select
        (broadcastInDim ⟨2, ![N, C]⟩ ![0] bm
          (Host.reduce IntOp.andi
            (andi
              (cmpi .sge
                (broadcastInDim ⟨2, ![N, 1]⟩ ![0] bcol
                  (select (cmpi .slt src (broadcastInDim ⟨1, ![N]⟩ ![] b0 (constantI ⟨0, ![]⟩ 32 0#32)))
                    (addi src (broadcastInDim ⟨1, ![N]⟩ ![] b0 (constantI ⟨0, ![]⟩ 32 cP))) src))
                (broadcastInDim ⟨2, ![N, 1]⟩ ![] b0c (constantI ⟨0, ![]⟩ 32 0#32)))
              (cmpi .sle
                (broadcastInDim ⟨2, ![N, 1]⟩ ![0] bcol
                  (select (cmpi .slt src (broadcastInDim ⟨1, ![N]⟩ ![] b0 (constantI ⟨0, ![]⟩ 32 0#32)))
                    (addi src (broadcastInDim ⟨1, ![N]⟩ ![] b0 (constantI ⟨0, ![]⟩ 32 cP))) src))
                (broadcastInDim ⟨2, ![N, 1]⟩ ![0, 1] b11c
                  (broadcastInDim ⟨2, ![1, 1]⟩ ![1] b11 (constantI ⟨1, ![1]⟩ 32 cM)))))
            (constantI ⟨0, ![]⟩ 1 1#1) red hu))
        (Host.gather d x
          (broadcastInDim ⟨2, ![N, 1]⟩ ![0] bcol
            (select (cmpi .slt src (broadcastInDim ⟨1, ![N]⟩ ![] b0 (constantI ⟨0, ![]⟩ 32 0#32)))
              (addi src (broadcastInDim ⟨1, ![N]⟩ ![] b0 (constantI ⟨0, ![]⟩ 32 cP))) src)))
        y (ix2 n ch)
      = x (ix2 (⟨(src (ix1 n)).toInt.toNat, by have := hs n; omega⟩ : Fin P) ch) := by
  -- the wrapped index is the index
  have hidx : ∀ m : Fin N,
      (select (cmpi .slt src (broadcastInDim ⟨1, ![N]⟩ ![] b0 (constantI ⟨0, ![]⟩ 32 0#32)))
        (addi src (broadcastInDim ⟨1, ![N]⟩ ![] b0 (constantI ⟨0, ![]⟩ 32 cP))) src) (ix1 m) = src (ix1 m) :=
    fun m => wrap_select (src (ix1 m)) cP (hs m).1
  -- so is the column's entry
  have hcol : ∀ (m : Fin N) (z : Fin 1),
      (broadcastInDim ⟨2, ![N, 1]⟩ ![0] bcol
        (select (cmpi .slt src (broadcastInDim ⟨1, ![N]⟩ ![] b0 (constantI ⟨0, ![]⟩ 32 0#32)))
          (addi src (broadcastInDim ⟨1, ![N]⟩ ![] b0 (constantI ⟨0, ![]⟩ 32 cP))) src)) (ix2 m z) = src (ix1 m) :=
    fun m z => (col_apply bcol _ m z).trans (hidx m)
  -- the mask is one everywhere
  have hmask : ∀ i : (⟨2, ![N, 1]⟩ : Shape).Idx,
      (andi
        (cmpi .sge
          (broadcastInDim ⟨2, ![N, 1]⟩ ![0] bcol
            (select (cmpi .slt src (broadcastInDim ⟨1, ![N]⟩ ![] b0 (constantI ⟨0, ![]⟩ 32 0#32)))
              (addi src (broadcastInDim ⟨1, ![N]⟩ ![] b0 (constantI ⟨0, ![]⟩ 32 cP))) src))
          (broadcastInDim ⟨2, ![N, 1]⟩ ![] b0c (constantI ⟨0, ![]⟩ 32 0#32)))
        (cmpi .sle
          (broadcastInDim ⟨2, ![N, 1]⟩ ![0] bcol
            (select (cmpi .slt src (broadcastInDim ⟨1, ![N]⟩ ![] b0 (constantI ⟨0, ![]⟩ 32 0#32)))
              (addi src (broadcastInDim ⟨1, ![N]⟩ ![] b0 (constantI ⟨0, ![]⟩ 32 cP))) src))
          (broadcastInDim ⟨2, ![N, 1]⟩ ![0, 1] b11c
            (broadcastInDim ⟨2, ![1, 1]⟩ ![1] b11 (constantI ⟨1, ![1]⟩ 32 cM))))) i = 1#1 := by
    intro i
    obtain ⟨m, z, rfl⟩ : ∃ m z, i = ix2 m z := ⟨i 0, i 1, eq_ix2 i⟩
    show IntOp.andi (IntOp.cmpi .sge (_ : BitVec 32) _) (IntOp.cmpi .sle (_ : BitVec 32) _) = 1#1
    rw [hcol m z]
    exact range_mask (src (ix1 m)) cM (hs m).1 (by have := (hs m).2; omega)
  rw [select_apply, rows_apply bm _ n ch,
    reduce_andi_ones _ (constantI ⟨0, ![]⟩ 1 1#1) red hu hmask (fun _ => rfl) (ix1 n), select_one,
    gather_rows_apply hP d hod hcd hob hsm hiv hss x _ n ch]
  congr 2
  refine Fin.ext ?_
  show min (_ : BitVec 32).toInt.toNat (P - 1) = (src (ix1 n)).toInt.toNat
  rw [hcol n 0]
  have := hs n
  omega

end Take

/-! ## The scatter of rows into zeros -/

section Scatter
variable {P C N : Nat}

/-- THE ACCUMULATING SCATTER INTO ZEROS READ AT (p, ch): zero plus the updates at channel ch of the rows whose
    destination, read signed, is p. -/
theorem scatter_zero_rows_apply
    (d : ScatterDims (⟨2, ![P, C]⟩ : Shape) (⟨2, ![N, 1]⟩ : Shape) (⟨2, ![N, C]⟩ : Shape))
    (huw : d.updateWindowDims = [1]) (hiw : d.insertedWindowDims = [0]) (hsd : d.scatterDimsToOperandDims = [0])
    (hiv : d.indexVectorDim = 1)
    (bz : (⟨0, ![]⟩ : Shape).BroadcastsInDim ⟨2, ![P, C]⟩ ![])
    (bcol : (⟨1, ![N]⟩ : Shape).BroadcastsInDim ⟨2, ![N, 1]⟩ ![0])
    (dst : IVec (⟨1, ![N]⟩ : Shape) 32) (upd : (⟨2, ![N, C]⟩ : Shape).Idx → EReal) (p : Fin P) (ch : Fin C) :
    Host.scatterAdd (F := Ideal) (φ := .f32) d
        (broadcastInDim ⟨2, ![P, C]⟩ ![] bz (constant (F := Ideal) ⟨0, ![]⟩ .f32 0x00000000#32))
        (broadcastInDim ⟨2, ![N, 1]⟩ ![0] bcol dst) upd (ix2 p ch)
      = 0 + ∑ n ∈ Finset.univ.filter (fun n : Fin N => (dst (ix1 n)).toInt = (p.val : Int)), upd (ix2 n ch) := by
  show Ideal.hostScatterAdd d _ _ upd (ix2 p ch) = _
  rw [scatterAdd_rows_apply d huw hiw hsd hiv]
  congr 1
  · rw [broadcastInDim_scalar_apply, constant_apply]
    exact Ideal.ofBits_zero_f32
  · refine Finset.sum_congr (Finset.filter_congr fun n _ => ?_) fun _ _ => rfl
    rw [col_apply bcol dst n 0]

end Scatter

/-! ## Rows and members -/

section Members
variable {α : Type}

/-- Row r of a [R, N] table, cut out and cast to a vector, reads at n the table at (r, n). -/
theorem row_apply {R N : Nat} (r : Nat) (X : (⟨2, ![R, N]⟩ : Shape).Idx → α)
    (hs : (⟨2, ![R, N]⟩ : Shape).Slices ![r, 0] ⟨2, ![1, N]⟩) (hc : (⟨2, ![1, N]⟩ : Shape).ShapeCasts ⟨1, ![N]⟩)
    (l : Fin R) (hl : l.val = r) (n : Fin N) :
    shapeCast ⟨1, ![N]⟩ (extractStridedSlice ⟨2, ![1, N]⟩ ![r, 0] X hs) hc (ix1 n) = X (ix2 l n) := by
  rw [shapeCast_1a_a_apply]
  exact slice2_axis0_apply r X hs 0 n l (by rw [hl]; rfl)

/-- Member l of a stack [L, A, B], cut out and cast to a matrix, reads at (i, j) the stack at (l, i, j). -/
theorem member3_apply {L A B : Nat} (r : Nat) (X : (⟨3, ![L, A, B]⟩ : Shape).Idx → α)
    (hs : (⟨3, ![L, A, B]⟩ : Shape).Slices ![r, 0, 0] ⟨3, ![1, A, B]⟩)
    (hc : (⟨3, ![1, A, B]⟩ : Shape).ShapeCasts ⟨2, ![A, B]⟩) (l : Fin L) (hl : l.val = r) (i : Fin A) (j : Fin B) :
    shapeCast ⟨2, ![A, B]⟩ (extractStridedSlice ⟨3, ![1, A, B]⟩ ![r, 0, 0] X hs) hc (ix2 i j) = X (ix3 l i j) := by
  rw [shapeCast_1ab_ab_apply]
  refine extractStridedSlice_apply _ X hs _ (ix3 l i j) fun a => ?_
  match a with
  | ⟨0, _⟩ => show l.val = r + 0; rw [hl]; rfl
  | ⟨1, _⟩ => exact (Nat.zero_add _).symm
  | ⟨2, _⟩ => exact (Nat.zero_add _).symm

/-- Member l of a stack [L, B] of vectors, cut out, cast to a vector and back to a one-row matrix, reads at (0, j) the
    stack at (l, j). -/
theorem member2_row_apply {L B : Nat} (r : Nat) (X : (⟨2, ![L, B]⟩ : Shape).Idx → α)
    (hs : (⟨2, ![L, B]⟩ : Shape).Slices ![r, 0] ⟨2, ![1, B]⟩) (hc : (⟨2, ![1, B]⟩ : Shape).ShapeCasts ⟨1, ![B]⟩)
    (hc' : (⟨1, ![B]⟩ : Shape).ShapeCasts ⟨2, ![1, B]⟩) (l : Fin L) (hl : l.val = r) (u : Fin 1) (j : Fin B) :
    shapeCast ⟨2, ![1, B]⟩ (shapeCast ⟨1, ![B]⟩ (extractStridedSlice ⟨2, ![1, B]⟩ ![r, 0] X hs) hc) hc' (ix2 u j)
      = X (ix2 l j) := by
  rw [shapeCast_a_1a_apply]
  exact row_apply r X hs hc l hl j

end Members

end Idealize.ShloMosaic.TakeFill
-- ==== Proof.KHost.lean ====
/-
  The host operations before the launch, read at an index: the first operand of the launch is the embeddings row by row
  divided by the clamped norm; the label's class row is taken out of the class rows (every label a class number), normalised
  the same way, and its clipped inner product with the embedding row is the clipped cosine at the label; the margin map of it,
  scaled, is the start value of the running maximum, laid as a column.
-/
import proofs.«422797_j35029753266820_1_alg».proof.Proof.KDefs
import proofs.«422797_j35029753266820_1_alg».proof.Proof.LibTakeFill
import Idealize.ShloMosaic.Lib.StableHlo.Run
import Idealize.ShloMosaic.Lib.IdealHost
import Idealize.ShloMosaic.PureOps.Ideal.Laws

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.Arc

namespace HostTerms

/-! ## The host's arrays as terms of the three arguments

The operations before the launch compose to five functions of the arguments: the row normalisation (used twice: on the
embeddings and on the taken class rows), the fill-mode take of the class rows at the labels, the clipped row-wise inner
product of the two normalised matrices, the margin map on a vector of cosines, and its scaling. -/

section Terms
variable {F : FTy → Type} [FloatOps F]

/-- The rows of a matrix divided by the larger of their Euclidean norm and the small constant. -/
def nrm (X : (⟨S1024x512, .f32⟩ : BufTy).Contents (Elt F)) : (⟨S1024x512, .f32⟩ : BufTy).Contents (Elt F) :=
  Host.divf X (broadcastInDim S1024x512 ![0, 1] bcast_S1024x1_S1024x512_0_1
    (maximumf (Host.sqrt (broadcastInDim S1024x1 ![0] bcast_S1024_S1024x1_0
        (Host.reduceAdd (mulf X X) (constant S_ .f32 0x00000000#32) reducesTo_S1024x512_S1024_d1 h_S_)))
      (broadcastInDim S1024x1 ![] bcast_S_S1024x1 (constant S_ .f32 0x2B8CBCCC#32))))

/-- The label words with the negative ones wrapped by the number of classes. -/
def wrapL (L : (⟨S1024, .i32⟩ : BufTy).Contents (Elt F)) : (⟨S1024, .i32⟩ : BufTy).Contents (Elt F) :=
  select (cmpi .slt L (broadcastInDim S1024 ![] bcast_S_S1024 (constantI S_ 32 0#32)))
    (addi L (broadcastInDim S1024 ![] bcast_S_S1024 (constantI S_ 32 100000#32))) L

/-- The class rows taken at the labels, in fill mode. -/
def tk (L : (⟨S1024, .i32⟩ : BufTy).Contents (Elt F)) (W : (⟨S100000x512, .f32⟩ : BufTy).Contents (Elt F)) :
    (⟨S1024x512, .f32⟩ : BufTy).Contents (Elt F) :=
  select
    (broadcastInDim S1024x512 ![0] bcast_S1024_S1024x512_0
      (Host.reduce IntOp.andi
        (andi
          (cmpi .sge (broadcastInDim S1024x1 ![0] bcast_S1024_S1024x1_0 (wrapL (F := F) L))
            (broadcastInDim S1024x1 ![] bcast_S_S1024x1 (constantI S_ 32 0#32)))
          (cmpi .sle (broadcastInDim S1024x1 ![0] bcast_S1024_S1024x1_0 (wrapL (F := F) L))
            (broadcastInDim S1024x1 ![0, 1] bcast_S1x1_S1024x1_0_1
              (broadcastInDim S1x1 ![1] bcast_S1_S1x1_1 (constantI S1 32 99999#32)))))
        (constantI S_ 1 1#1) reducesTo_S1024x1_S1024_d1 h_S_))
    (Host.gather gather_S100000x512_S1024x1_S1024x512_1_0_n_n_0_1_1512 W
      (broadcastInDim S1024x1 ![0] bcast_S1024_S1024x1_0 (wrapL (F := F) L)))
    (broadcastInDim S1024x512 ![] bcast_S_S1024x512 (constant S_ .f32 0x7FC00000#32))

/-- The clipped inner products of the normalised embedding rows with the normalised taken rows. -/
def cosl (X : (⟨S1024x512, .f32⟩ : BufTy).Contents (Elt F)) (L : (⟨S1024, .i32⟩ : BufTy).Contents (Elt F))
    (W : (⟨S100000x512, .f32⟩ : BufTy).Contents (Elt F)) : (⟨S1024, .f32⟩ : BufTy).Contents (Elt F) :=
  minimumf (broadcastInDim S1024 ![] bcast_S_S1024 (constant S_ .f32 0x3F7FFFFE#32))
    (maximumf (broadcastInDim S1024 ![] bcast_S_S1024 (constant S_ .f32 0xBF7FFFFE#32))
      (Host.reduceAdd (mulf (nrm X) (nrm (tk L W))) (constant S_ .f32 0x00000000#32) reducesTo_S1024x512_S1024_d1 h_S_))

/-- The margin map applied to a vector of cosines. -/
def marg (c : (⟨S1024, .f32⟩ : BufTy).Contents (Elt F)) : (⟨S1024, .f32⟩ : BufTy).Contents (Elt F) :=
  select (cmpf .ogt c (broadcastInDim S1024 ![] bcast_S_S1024 (constant S_ .f32 0xBF60A940#32)))
    (subf (mulf c (broadcastInDim S1024 ![] bcast_S_S1024 (constant S_ .f32 0x3F60A940#32)))
      (mulf (Host.sqrt (maximumf (subf (broadcastInDim S1024 ![] bcast_S_S1024 (constant S_ .f32 0x3F800000#32)) (mulf c c))
          (broadcastInDim S1024 ![] bcast_S_S1024 (constant S_ .f32 0x00000000#32))))
        (broadcastInDim S1024 ![] bcast_S_S1024 (constant S_ .f32 0x3EF57744#32))))
    (subf c (broadcastInDim S1024 ![] bcast_S_S1024 (constant S_ .f32 0x3E757744#32)))

/-- The scaled margins. -/
def smarg (c : (⟨S1024, .f32⟩ : BufTy).Contents (Elt F)) : (⟨S1024, .f32⟩ : BufTy).Contents (Elt F) :=
  mulf (broadcastInDim S1024 ![] bcast_S_S1024 (constant S_ .f32 0x42800000#32)) (marg c)

end Terms

/-! ## The buffers the launch finds, as those terms

Each buffer's contents after the operations before the launch is the composition of the functions of the operations it
depends on, applied to the arguments; the two last are stated over the buffer they are computed from. -/

section Runs
variable {F : FTy → Type} [FloatOps F] (mF : (ℓ : Loc nD τ sig) → Buf (Elt F) ℓ)

/-- The first operand is the normalised embeddings, narrowed. -/
theorem v8_eq (c : Dev nD) :
    (V mF c main_v8 : (⟨S1024x512, .bf16⟩ : BufTy).Contents (Elt F))
      = truncf .bf16 (nrm (mF ((c : Thread nD τ).loc main_arg0))) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

/-- The cosines at the labels. -/
theorem v20_eq (c : Dev nD) :
    (V mF c main_v20 : (⟨S1024, .f32⟩ : BufTy).Contents (Elt F))
      = cosl (mF ((c : Thread nD τ).loc main_arg0)) (mF ((c : Thread nD τ).loc main_arg1)) (mF ((c : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

/-- The scaled margins are computed from the cosines at the labels. -/
theorem v38_rel (c : Dev nD) :
    (V mF c main_v38 : (⟨S1024, .f32⟩ : BufTy).Contents (Elt F)) = smarg (V mF c main_v20) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

/-- The third operand is the scaled margins laid as a column. -/
theorem v39_rel (c : Dev nD) :
    (V mF c main_v39 : (⟨S1024x1, .f32⟩ : BufTy).Contents (Elt F))
      = broadcastInDim S1024x1 ![0] bcast_S1024_S1024x1_0 (V mF c main_v38) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

end Runs

/-! ## Those terms read at an index -/

section Reads

/-- The host's square root at an index. -/
theorem hostSqrt_apply {s : Shape} (x : FVec Ideal s .f32) (i : s.Idx) : Host.sqrt x i = Ideal.sqrt (x i) := rfl

/-- "Greater than" as a bit, when it holds … -/
theorem cmp_ogt_pos {x y : EReal} (h : y < x) : Ideal.cmp .ogt x y = 1#1 := by
  show BitVec.ofBool (decide (y < x)) = 1#1
  rw [decide_eq_true h]; rfl
/-- … and when it does not. -/
theorem cmp_ogt_neg {x y : EReal} (h : ¬ y < x) : Ideal.cmp .ogt x y = 0#1 := by
  show BitVec.ofBool (decide (y < x)) = 0#1
  rw [decide_eq_false h]; rfl

/-- A scalar laid along a vector reads the scalar. -/
theorem bc_apply {α : Type} (x : S_.Idx → α) (j : S1024.Idx) : broadcastInDim S1024 ![] bcast_S_S1024 x j = x ix0 :=
  broadcastInDim_scalar_apply _ x j

/-- The sum over a row, from zero. -/
theorem rowsum_apply (Y : FVec Ideal S1024x512 .f32) (b : Fin 1024) :
    Host.reduceAdd (F := Ideal) Y (constant S_ .f32 0x00000000#32) reducesTo_S1024x512_S1024_d1 h_S_ (ix1 b)
      = ∑ k : Fin 512, Y (ix2 b k) := by
  rw [hostReduceAdd_apply, Ideal.hostReduceAdd_single reducesTo_S1024x512_S1024_d1 (by decide), constant_apply,
    Ideal.ofBits_zero_f32, zero_add]
  refine Finset.sum_congr rfl fun k _ => ?_
  exact congrArg Y (funext fun a => Fin.ext (by match a with | ⟨0, _⟩ => rfl | ⟨1, _⟩ => rfl))

/-- A normalised row at an index. -/
theorem nrm_apply (X : FVec Ideal S1024x512 .f32) (b : Fin 1024) (d : Fin 512) :
    nrm (F := Ideal) X (ix2 b d) = unitRow (fun k => X (ix2 b k)) d := by
  unfold nrm unitRow
  rw [hostDivf_apply, broadcastInDim_apply _ bcast_S1024x1_S1024x512_0_1 _ (ix2 b d) (ix2 b (0 : Fin 1)) (fun a => match a with
      | ⟨0, _⟩ => by show b.val = if (1024 : Nat) = 1 then 0 else b.val; rw [if_neg (by decide)]
      | ⟨1, _⟩ => by show 0 = if (1 : Nat) = 1 then 0 else d.val; rw [if_pos rfl]),
    maximumf_apply, hostSqrt_apply, TakeFill.col_apply bcast_S1024_S1024x1_0 _ b 0, rowsum_apply,
    broadcastInDim_scalar_apply, constant_apply] <;> rfl

/-- The taken rows at an index, every label a class number: the class row of the label. -/
theorem tk_apply (L : IVec S1024 32) (W : FVec Ideal S100000x512 .f32)
    (hs : ∀ n : Fin 1024, 0 ≤ (L (ix1 n)).toInt ∧ (L (ix1 n)).toInt < 100000) (n : Fin 1024) (ch : Fin 512) :
    tk (F := Ideal) L W (ix2 n ch) = W (ix2 (⟨(L (ix1 n)).toInt.toNat, by have := hs n; omega⟩ : Fin 100000) ch) := by
  unfold tk wrapL
  exact TakeFill.take_fill_apply (P := 100000) (C := 512) (N := 1024) (by decide)
    gather_S100000x512_S1024x1_S1024x512_1_0_n_n_0_1_1512 rfl rfl rfl rfl rfl rfl
    bcast_S_S1024 bcast_S1024_S1024x1_0 bcast_S_S1024x1 bcast_S1_S1x1_1 bcast_S1x1_S1024x1_0_1
    reducesTo_S1024x1_S1024_d1 h_S_ bcast_S1024_S1024x512_0 100000#32 99999#32 (by decide) L W _
    (fun k => ⟨(hs k).1, by have := (hs k).2; omega⟩) n ch

/-- The clipped inner products at an index. -/
theorem cosl_apply (X : FVec Ideal S1024x512 .f32) (L : IVec S1024 32) (W : FVec Ideal S100000x512 .f32) (b : Fin 1024) :
    cosl (F := Ideal) X L W (ix1 b)
      = min hi (max lo (∑ d : Fin 512, nrm (F := Ideal) X (ix2 b d) * nrm (F := Ideal) (tk (F := Ideal) L W) (ix2 b d))) := by
  unfold cosl
  rw [minimumf_apply, maximumf_apply, rowsum_apply, broadcastInDim_scalar_apply, broadcastInDim_scalar_apply,
    constant_apply, constant_apply] <;> rfl

/-- The margin map at an index. -/
theorem marg_apply (c : FVec Ideal S1024 .f32) (b : Fin 1024) : marg (F := Ideal) c (ix1 b) = marginK (c (ix1 b)) := by
  unfold marg marginK thr cosM sinM one mm
  simp only [select_apply, cmpf_apply, Ideal.cmpf_def, subf_apply, mulf_apply, hostSqrt_apply, maximumf_apply]
  rw [bc_apply, bc_apply, bc_apply, bc_apply, bc_apply, bc_apply]
  simp only [constant_apply, Ideal.ofBits_zero_f32]
  by_cases h : Ideal.ofBits .f32 0xBF60A940#32 < c (ix1 b)
  · rw [if_pos h, cmp_ogt_pos h, select_one]
  · rw [if_neg h, cmp_ogt_neg h, select_zero]

/-- The scaled margins at an index. -/
theorem smarg_apply (c : FVec Ideal S1024 .f32) (b : Fin 1024) : smarg (F := Ideal) c (ix1 b) = sc * marginK (c (ix1 b)) := by
  unfold smarg
  rw [mulf_apply, broadcastInDim_scalar_apply, constant_apply, marg_apply] <;> rfl

end Reads

end HostTerms

open HostTerms

variable (m : (ℓ : Loc nD τ sig) → Buf (Elt Ideal) ℓ) (ρ : Dev nD → PrngReg)

/-- The launch's first operand: the embedding rows divided by their clamped norms. -/
theorem Eof_eq (c : Dev nD) (b : Fin 1024) (d : Fin 512) : Eof m c b d = unitRow (Xof m c b) d := by
  unfold Eof
  rw [v8_eq m c, truncf_apply, nrm_apply] <;> rfl

/-- Row b of the taken rows is the class row of b's label, every label a class number. -/
private theorem taken_row (c : Dev nD) (h : InRange m c) (b : Fin 1024) :
    (fun k => tk (F := Ideal) (m ((c : Thread nD τ).loc main_arg1)) (m ((c : Thread nD τ).loc main_arg2)) (ix2 b k))
      = Wof m c (labOf m c h b) := by
  funext k
  exact tk_apply _ _ h b k

/-- The clipped cosine of each row at its label, as the host computes it before the launch. -/
theorem V_v20 (c : Dev nD) (h : InRange m c) (b : Fin 1024) :
    (V m c main_v20 : S1024.Idx → EReal) (ix1 b) = cosv (Xof m c) (Wof m c) b (labOf m c h b) := by
  rw [v20_eq m c, cosl_apply]
  unfold cosv cosN
  refine congrArg (fun s => min hi (max lo s)) (Finset.sum_congr rfl fun d _ => ?_)
  rw [nrm_apply, nrm_apply, taken_row m c h b] <;> rfl

/-- The scaled margin of each row's label. -/
theorem V_v38 (c : Dev nD) (h : InRange m c) (b : Fin 1024) :
    (V m c main_v38 : S1024.Idx → EReal) (ix1 b) = sc * marginK (cosv (Xof m c) (Wof m c) b (labOf m c h b)) := by
  rw [v38_rel m c, smarg_apply, V_v20 m c h b]

/-- The launch's third operand: the scaled margins as a column. -/
theorem Iof_eq (c : Dev nD) (h : InRange m c) (b : Fin 1024) :
    Iof m c b = sc * marginK (cosv (Xof m c) (Wof m c) b (labOf m c h b)) := by
  unfold Iof
  rw [v39_rel m c, TakeFill.col_apply bcast_S1024_S1024x1_0 _ b 0]
  exact V_v38 m c h b

end Cert.KernelIdeal.KV

end
-- ==== Proof.KBody.lean ====
/-
  One grid point of the kernel as values. What the body leaves in the two output blocks, by case: at the first class
  block of a row block it starts from the start column and zero, elsewhere from what the point before left; in both it
  then stores the new running maximum and the rescaled running sum. And those two payloads read at a row p of the block:
  the new maximum is the old one against the block's largest scaled clipped cosine; the new sum is the old one times
  exp(old maximum − new maximum) plus the block's sum of exp(scaled clipped cosine − new maximum).
-/
import proofs.«422797_j35029753266820_1_alg».proof.Proof.KDefs
import Idealize.ShloMosaic.Lib.Tactic
import Idealize.ShloMosaic.Lib.ValueLayout
import Idealize.ShloMosaic.PureOps.Ideal.Laws

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.Arc

variable (m : (ℓ : Loc nD τ sig) → Buf (Elt Ideal) ℓ) (ρ : Dev nD → PrngReg)

variable {F : FTy → Type} [FloatOps F]

/-- The zero offsets of a whole block's rectangle, however spelt. -/
private theorem hz : (![0, 0] : Fin 2 → Nat) = fun _ => 0 := funext fun a => by fin_cases a <;> rfl

/-! ## What each case leaves in each output block: a payload of the loaded blocks -/

/-- Case A (first class block), running maximum: the update from the start column. -/
theorem out_A_3 (c : Dev nD) (i : grid0.Coords) (arg2 : Memref sig .tc .vmem S512x512 .bf16) (harg2 : arg2.IsWhole) (arg3 : Memref sig .tc .vmem S2000x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S512x512 .bf16) (x1 : Vec F S2000x512 .f32) (x2 : Vec F S512x1 .f32) :
    out0_A_3 c i arg2 harg2 arg3 harg3 arg4 harg4 arg5 harg5 arg6 harg6 hc0 x0 x1 x2 = k0_pay5 x1 x0 (k0_pay1 x2) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S512x1) hz]
  simp only [View.readAt_eq_ld, harg2.read_unread, harg3.read_unread, harg4.read_unread,
    View.readCov_unit_zero (S := S512x1) _ hz, View.ld_unit_zero (S := S512x1) hz,
    View.ld_unit_zero (S := S512x512) hz, View.ld_unit_zero (S := S2000x512) hz]

/-- Case A, running sum: the update from the start column and zero. -/
theorem out_A_4 (c : Dev nD) (i : grid0.Coords) (arg2 : Memref sig .tc .vmem S512x512 .bf16) (harg2 : arg2.IsWhole) (arg3 : Memref sig .tc .vmem S2000x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : cond0_0 i)
    (x0 : Vec F S512x512 .bf16) (x1 : Vec F S2000x512 .f32) (x2 : Vec F S512x1 .f32) :
    out0_A_4 c i arg2 harg2 arg3 harg3 arg4 harg4 arg5 harg5 arg6 harg6 hc0 x0 x1 x2 = k0_pay6 x1 x0 (k0_pay1 x2) (k0_pay2 (F := F)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S512x1) hz]
  simp only [View.readAt_eq_ld, harg2.read_unread, harg3.read_unread, harg4.read_unread,
    View.readCov_unit_zero (S := S512x1) _ hz, View.ld_unit_zero (S := S512x1) hz,
    View.ld_unit_zero (S := S512x512) hz, View.ld_unit_zero (S := S2000x512) hz]

/-- Case B (later class blocks), running maximum: the update from what the point before left. -/
theorem out_B_3 (c : Dev nD) (i : grid0.Coords) (arg2 : Memref sig .tc .vmem S512x512 .bf16) (harg2 : arg2.IsWhole) (arg3 : Memref sig .tc .vmem S2000x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S512x512 .bf16) (x1 : Vec F S2000x512 .f32) (x2 : Vec F S512x1 .f32) (xo3 : Vec F S512x1 .f32) (xo4 : Vec F S512x1 .f32) :
    out0_B_3 c i arg2 harg2 arg3 harg3 arg4 harg4 arg5 harg5 arg6 harg6 hc0 x0 x1 x2 xo3 xo4 = k0_pay5 x1 x0 xo3 := by
  unfold out0_B_3
  rw [View.read_writes_eq_canon _ _ _ (cover0_B_3 c i arg2 harg2 arg3 harg3 arg4 harg4 arg5 harg5 arg6 harg6 hc0 x0 x1 x2 xo3 xo4)]
  unfold kernelRun0_B
  dsimp only
  sl_unfold_words
  rw [View.canon_unit_zero hz]
  simp only [View.readAt_eq_ld, harg2.read_unread, harg3.read_unread, harg5.read_unread,
    View.ld_unit_zero (S := S512x1) hz, View.ld_unit_zero (S := S512x512) hz, View.ld_unit_zero (S := S2000x512) hz]

/-- Case B, running sum. -/
theorem out_B_4 (c : Dev nD) (i : grid0.Coords) (arg2 : Memref sig .tc .vmem S512x512 .bf16) (harg2 : arg2.IsWhole) (arg3 : Memref sig .tc .vmem S2000x512 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (hc0 : ¬cond0_0 i)
    (x0 : Vec F S512x512 .bf16) (x1 : Vec F S2000x512 .f32) (x2 : Vec F S512x1 .f32) (xo3 : Vec F S512x1 .f32) (xo4 : Vec F S512x1 .f32) :
    out0_B_4 c i arg2 harg2 arg3 harg3 arg4 harg4 arg5 harg5 arg6 harg6 hc0 x0 x1 x2 xo3 xo4 = k0_pay6 x1 x0 xo3 xo4 := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  sl_unfold_words
  rw [View.canon_unit_zero hz]
  simp only [View.readAt_eq_ld, harg2.read_unread, harg3.read_unread, harg5.read_unread, harg6.read_unread,
    View.ld_unit_zero (S := S512x1) hz, View.ld_unit_zero (S := S512x512) hz, View.ld_unit_zero (S := S2000x512) hz]

/-! ## Layout readings the body needs: a vector as a column, a column along its rows, a row's coordinates put back -/

section Layout
variable {α : Type}

/-- A vector cast to a column reads, at row `i`, the vector at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its rows reads, at `(p, c)`, the column at row `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- Row `q` of the class block with column `k` put back. -/
private theorem lift_w (h : S2000x512.Reduces [1] S2000) (q : Fin 2000) (k : Fin 512) : h.lift (ix1 q) k = ix2 q k :=
  funext fun c => Fin.ext (match c with | ⟨0, _⟩ => rfl | ⟨1, _⟩ => rfl)

/-- Row `p` of the cosine block with column `k` put back. -/
private theorem lift_s (h : S512x2000.Reduces [1] S512) (p : Fin 512) (k : Fin 2000) : h.lift (ix1 p) k = ix2 p k :=
  funext fun c => Fin.ext (match c with | ⟨0, _⟩ => rfl | ⟨1, _⟩ => rfl)

/-! ## The product of the embedding block with the transposed normalised class block, at an index

At result index `(p, q)` and contraction coordinate `d` the left operand is read at `(p, d)` and the right at `(d, q)`:
the four lemmas below say so one axis at a time. -/

private theorem lhs_ax0 (i : S512x2000.Idx) (k : dot_S512x512_S512x2000_S512x2000_1_0_0_1_n_n.contr.Idx) :
    (dot_S512x512_S512x2000_S512x2000_1_0_0_1_n_n.lhsIdx i k 0).val = (i 0).val := by
  unfold DotDims.lhsIdx
  rw [dif_neg (show ¬(0 : Fin S512x512.rank) ∈ dot_S512x512_S512x2000_S512x2000_1_0_0_1_n_n.lhsBatch by decide),
    dif_pos (show (0 : Fin S512x512.rank) ∈ dot_S512x512_S512x2000_S512x2000_1_0_0_1_n_n.lhsNonContracting by decide)]
  rfl

private theorem lhs_ax1 (i : S512x2000.Idx) (k : dot_S512x512_S512x2000_S512x2000_1_0_0_1_n_n.contr.Idx) :
    (dot_S512x512_S512x2000_S512x2000_1_0_0_1_n_n.lhsIdx i k 1).val = (k ⟨0, by decide⟩).val :=
  dot_S512x512_S512x2000_S512x2000_1_0_0_1_n_n.lhsIdx_val_of_single rfl i k

private theorem rhs_ax0 (i : S512x2000.Idx) (k : dot_S512x512_S512x2000_S512x2000_1_0_0_1_n_n.contr.Idx) :
    (dot_S512x512_S512x2000_S512x2000_1_0_0_1_n_n.rhsIdx i k 0).val = (k ⟨0, by decide⟩).val :=
  dot_S512x512_S512x2000_S512x2000_1_0_0_1_n_n.rhsIdx_val_of_single rfl i k

private theorem rhs_ax1 (i : S512x2000.Idx) (k : dot_S512x512_S512x2000_S512x2000_1_0_0_1_n_n.contr.Idx) :
    (dot_S512x512_S512x2000_S512x2000_1_0_0_1_n_n.rhsIdx i k 1).val = (i 1).val := by
  unfold DotDims.rhsIdx
  rw [dif_neg (show ¬(1 : Fin S512x2000.rank) ∈ dot_S512x512_S512x2000_S512x2000_1_0_0_1_n_n.rhsBatch by decide),
    dif_pos (show (1 : Fin S512x2000.rank) ∈ dot_S512x512_S512x2000_S512x2000_1_0_0_1_n_n.rhsNonContracting by decide)]
  rfl

/-- Into a zero accumulator the product at `(p, q)` is the inner product of the left operand's row `p` and the right
    operand's column `q`. -/
theorem matmul_rows_apply (l : FVec Ideal S512x512 .bf16) (r : FVec Ideal S512x2000 .bf16) (p : Fin 512) (q : Fin 2000) :
    matmul dot_S512x512_S512x2000_S512x2000_1_0_0_1_n_n none l r (constant S512x2000 .f32 0x00000000#32) (ix2 p q)
      = ∑ d : Fin 512, l (ix2 p d) * r (ix2 d q) := by
  simp only [matmul]
  rw [Ideal.matmul_constant_zero_apply, ← Equiv.sum_comp (contrEquiv1 dot_S512x512_S512x2000_S512x2000_1_0_0_1_n_n 512 rfl rfl).symm]
  refine Finset.sum_congr rfl fun k _ => ?_
  have hk := contrEquiv1_symm_val dot_S512x512_S512x2000_S512x2000_1_0_0_1_n_n 512 rfl rfl k
  have el : dot_S512x512_S512x2000_S512x2000_1_0_0_1_n_n.lhsIdx (ix2 p q) ((contrEquiv1 dot_S512x512_S512x2000_S512x2000_1_0_0_1_n_n 512 rfl rfl).symm k) = ix2 p k :=
    funext fun a => Fin.ext (by
      match a with
      | ⟨0, _⟩ => exact lhs_ax0 _ _
      | ⟨1, _⟩ => exact (lhs_ax1 _ _).trans hk)
  have er : dot_S512x512_S512x2000_S512x2000_1_0_0_1_n_n.rhsIdx (ix2 p q) ((contrEquiv1 dot_S512x512_S512x2000_S512x2000_1_0_0_1_n_n 512 rfl rfl).symm k) = ix2 k q :=
    funext fun a => Fin.ext (by
      match a with
      | ⟨0, _⟩ => exact (rhs_ax0 _ _).trans hk
      | ⟨1, _⟩ => exact rhs_ax1 _ _)
  rw [el, er]

/-! ## The payloads read at a row -/

/-- The start column passes through unchanged. -/
theorem pay1_apply (x : Vec Ideal S512x1 .f32) (i : S512x1.Idx) : k0_pay1 (F := Ideal) x i = x i := by
  unfold k0_pay1
  exact congrFun (shapeCast_self x _) i

/-- The reset stores zero. -/
theorem pay2_apply (i : S512x1.Idx) : k0_pay2 (F := Ideal) i = 0 := by
  unfold k0_pay2
  exact Ideal.ofBits_zero_f32

/-- The block's scaled clipped cosines: row p of the embedding block against row q of the class block. -/
def sBlk (w : Vec Ideal S2000x512 .f32) (e : Vec Ideal S512x512 .bf16) (p : Fin 512) (q : Fin 2000) : EReal :=
  cosN (fun d => e (ix2 p d)) (fun d => w (ix2 q d)) * sc

/-- The block of scaled clipped cosines, entry by entry: the class rows are divided by their clamped norms, transposed,
    multiplied with the embedding block, clipped and scaled. -/
theorem pay3_apply (w : Vec Ideal S2000x512 .f32) (e : Vec Ideal S512x512 .bf16) (p : Fin 512) (q : Fin 2000) :
    k0_pay3 (F := Ideal) w e (ix2 p q) = sBlk w e p q := by
  unfold k0_pay3 sBlk cosN
  refine (congrArg (fun z => min hi (max lo z) * sc) (matmul_rows_apply _ _ p q)).trans ?_
  refine congrArg (fun z => min hi (max lo z) * sc) (Finset.sum_congr rfl fun d _ => ?_)
  refine congrArg₂ (· * ·) (congrFun (shapeCast_self e _) (ix2 p d)) ?_
  refine (transpose_ix2_apply _ _ d q).trans ?_
  unfold unitRow
  refine congrArg (Ideal.div (w (ix2 q d))) ?_
  refine (broadcastTo_a1_ab_apply _ _ q d).trans ?_
  refine congrArg (fun z => max (Ideal.sqrt z) eps) ?_
  refine (shapeCast_a_a1_apply _ _ q 0).trans ?_
  refine (Ideal.multiReduction_add_single _ _ _ _ _ (ix1 q)).trans (Finset.sum_congr rfl fun k _ => ?_)
  exact congrArg (fun i => w i * w i) (lift_w _ q k)

/-- The word the row maximum starts from denotes the least extended real. -/
private theorem ofBits_neg_inf_f32 : Ideal.ofBits .f32 0xFF800000#32 = ⊥ := by simp [Ideal.ofBits, Ideal.ieee]

/-- A fold of `max` from the least element is the supremum. -/
private theorem fold_max_bot_eq_sup {ι : Type} [DecidableEq ι] (s : Finset ι) (f : ι → EReal) : s.fold max ⊥ f = s.sup f := by
  induction s using Finset.induction_on with
  | empty => rw [Finset.fold_empty, Finset.sup_empty]
  | insert a s ha ih => rw [Finset.fold_insert ha, Finset.sup_insert, ih]

/-- The largest entry of row `p` of the block of scaled clipped cosines. -/
theorem rowmax_apply (w : Vec Ideal S2000x512 .f32) (e : Vec Ideal S512x512 .bf16) (h : S512x2000.Reduces [1] S512)
    (hφ : FKind.Formats .f32) (hacc : (0xFF800000#32 : BitVec 32) = FKind.maximumf.neutral .f32 hφ) (p : Fin 512) :
    multiReduction .maximumf [1] S512 (k0_pay3 (F := Ideal) w e) 0xFF800000#32 h hφ hacc (ix1 p)
      = Finset.univ.sup fun q : Fin 2000 => sBlk w e p q := by
  refine (Ideal.multiReduction_maximumf_single _ _ h hφ hacc (ix1 p)).trans ?_
  refine (congrArg (fun b => (Finset.univ : Finset (Fin 2000)).fold max b (k0_pay3 (F := Ideal) w e ∘ h.lift (ix1 p)))
    ofBits_neg_inf_f32).trans ?_
  refine (fold_max_bot_eq_sup _ _).trans ?_
  exact congrArg (Finset.univ : Finset (Fin 2000)).sup (funext fun q => (congrArg (k0_pay3 (F := Ideal) w e) (lift_s h p q)).trans (pay3_apply w e p q))

/-- The new running maximum at row p: the old one against the block's largest scaled clipped cosine. -/
theorem pay5_apply (w : Vec Ideal S2000x512 .f32) (e : Vec Ideal S512x512 .bf16) (mp : Vec Ideal S512x1 .f32) (p : Fin 512) :
    k0_pay5 (F := Ideal) w e mp (ix2 p 0) = max (mp (ix2 p 0)) (Finset.univ.sup fun q : Fin 2000 => sBlk w e p q) := by
  unfold k0_pay5 k0_pay4
  refine congrArg₂ max (congrFun (shapeCast_self mp _) (ix2 p 0)) ?_
  refine (shapeCast_a_a1_apply _ _ p 0).trans ?_
  exact rowmax_apply w e _ _ _ p

/-- The new running sum at row p: the old one rescaled to the new maximum plus the block's sum of exponentials. -/
theorem pay6_apply (w : Vec Ideal S2000x512 .f32) (e : Vec Ideal S512x512 .bf16) (mp lp : Vec Ideal S512x1 .f32) (p : Fin 512) :
    k0_pay6 (F := Ideal) w e mp lp (ix2 p 0)
      = Ideal.exp (mp (ix2 p 0) - max (mp (ix2 p 0)) (Finset.univ.sup fun q : Fin 2000 => sBlk w e p q)) * lp (ix2 p 0)
        + ∑ q : Fin 2000, Ideal.exp (sBlk w e p q - max (mp (ix2 p 0)) (Finset.univ.sup fun q : Fin 2000 => sBlk w e p q)) := by
  unfold k0_pay6 k0_pay4
  refine congrArg₂ (· + ·) (congrArg₂ (· * ·) (congrArg Ideal.exp (congrArg₂ (· - ·) (congrFun (shapeCast_self mp _) (ix2 p 0)) (pay5_apply w e mp p)))
    (congrFun (shapeCast_self lp _) (ix2 p 0))) ?_
  refine (shapeCast_a_a1_apply _ _ p 0).trans ?_
  refine (Ideal.multiReduction_add_single _ _ _ _ _ (ix1 p)).trans (Finset.sum_congr rfl fun q _ => ?_)
  refine (congrArg (fun i => Ideal.exp (k0_pay3 (F := Ideal) w e i - broadcastTo S512x2000 (k0_pay5 (F := Ideal) w e mp) broadcasts_S512x1_S512x2000 i)) (lift_s _ p q)).trans ?_
  exact congrArg Ideal.exp (congrArg₂ (· - ·) (pay3_apply w e p q) ((broadcastTo_a1_ab_apply _ _ p q).trans (pay5_apply w e mp p)))

end Cert.KernelIdeal.KV

end
-- ==== Proof.KRun.lean ====
/-
  The kernel's two result arrays. The grid is 2 row blocks by 50 class blocks, the class block moving fastest; the two
  output blocks of a row block stay in place over its 50 points and are written back after the last. By induction on the
  point, after class block n of row block i the outputs hold, at row p, the streamed maximum and sum of embedding row
  512·i + p after n + 1 blocks; the two write-backs tile the arrays, so the arrays end at the state after all 50 blocks.
-/
import proofs.«422797_j35029753266820_1_alg».proof.Proof.KBody
import Idealize.ShloMosaic.Lib.Tactic

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.Arc

variable (m : (ℓ : Loc nD τ sig) → Buf (Elt Ideal) ℓ) (ρ : Dev nD → PrngReg)

/-- The embedding block of a point. -/
abbrev eblk (c : Dev nD) (t : Fin cfg0.N) : Vec Ideal S512x512 .bf16 := iblk m c 0 t
/-- The class block of a point. -/
abbrev wblk (c : Dev nD) (t : Fin cfg0.N) : Vec Ideal S2000x512 .f32 := iblk m c 1 t
/-- The start-column block of a point. -/
abbrev iblk2 (c : Dev nD) (t : Fin cfg0.N) : Vec Ideal S512x1 .f32 := iblk m c 2 t

/-- The block indices of the five windows over the grid: the point t has coordinates (t / 50, t % 50); the embedding,
    start-column and the two output windows sit at row block t / 50, the class window at class block t % 50. -/
theorem blockIdx : ∀ t : Fin cfg0.N,
    win0_0.index t (0 : Fin 2) = t.val / 50 ∧ win0_0.index t (1 : Fin 2) = 0
    ∧ win0_1.index t (0 : Fin 2) = t.val % 50 ∧ win0_1.index t (1 : Fin 2) = 0
    ∧ win0_2.index t (0 : Fin 2) = t.val / 50 ∧ win0_2.index t (1 : Fin 2) = 0
    ∧ win0_3.index t (0 : Fin 2) = t.val / 50 ∧ win0_3.index t (1 : Fin 2) = 0
    ∧ win0_4.index t (0 : Fin 2) = t.val / 50 ∧ win0_4.index t (1 : Fin 2) = 0 :=
  (by decide +kernel : ∀ t : Fin grid0.N, _)

/-- The embedding block at row p is embedding row 512 · (t / 50) + p. -/
theorem eblk_apply (c : Dev nD) (t : Fin cfg0.N) (p d : Fin 512) (b : Fin 1024) (hb : b.val = 512 * (t.val / 50) + p.val) :
    eblk m c t (ix2 p d) = Eof m c b d := by
  obtain ⟨e0, e1, -⟩ := blockIdx t
  unfold eblk iblk Eof
  rw [View.read_apply]
  show V m c main_v8 (((cfg0.win 0).blk t).view.emb (ix2 p d)) = V m c main_v8 (ix2 b d)
  congr 1
  funext a
  apply Fin.ext
  match a with
  | ⟨0, _⟩ => show win0_0.index t (0 : Fin 2) * 512 + 1 * p.val = b.val; omega
  | ⟨1, _⟩ => show win0_0.index t (1 : Fin 2) * 512 + 1 * d.val = d.val; omega

/-- The class block at row q is class row 2000 · (t % 50) + q, the class rows being as launched. -/
theorem wblk_apply (c : Dev nD) (t : Fin cfg0.N) (q : Fin 2000) (d : Fin 512) (j : Fin 100000) (hj : j.val = 2000 * (t.val % 50) + q.val) :
    wblk m c t (ix2 q d) = Wof m c j d := by
  obtain ⟨-, -, e0, e1, -⟩ := blockIdx t
  unfold wblk iblk Wof
  rw [View.read_apply, ← V_main_arg2 m c]
  show V m c main_arg2 (((cfg0.win 1).blk t).view.emb (ix2 q d)) = V m c main_arg2 (ix2 j d)
  congr 1
  funext a
  apply Fin.ext
  match a with
  | ⟨0, _⟩ => show win0_1.index t (0 : Fin 2) * 2000 + 1 * q.val = j.val; omega
  | ⟨1, _⟩ => show win0_1.index t (1 : Fin 2) * 512 + 1 * d.val = d.val; omega

/-- The start-column block at row p is the start value of row 512 · (t / 50) + p. -/
theorem iblk2_apply (c : Dev nD) (t : Fin cfg0.N) (p : Fin 512) (b : Fin 1024) (hb : b.val = 512 * (t.val / 50) + p.val) :
    iblk2 m c t (ix2 p 0) = Iof m c b := by
  obtain ⟨-, -, -, -, e0, e1, -⟩ := blockIdx t
  unfold iblk2 iblk Iof
  rw [View.read_apply]
  show V m c main_v39 (((cfg0.win 2).blk t).view.emb (ix2 p 0)) = V m c main_v39 (ix2 b 0)
  congr 1
  funext a
  apply Fin.ext
  match a with
  | ⟨0, _⟩ => show win0_2.index t (0 : Fin 2) * 512 + 1 * p.val = b.val; omega
  | ⟨1, _⟩ => show win0_2.index t (1 : Fin 2) * 1 + 1 * 0 = 0; omega

/-- The block's scaled clipped cosines are the row's, at the block's place in the stream. -/
theorem sBlk_eq (c : Dev nD) (t : Fin cfg0.N) (p : Fin 512) (q : Fin 2000) (b : Fin 1024) (hb : b.val = 512 * (t.val / 50) + p.val) :
    sBlk (wblk m c t) (eblk m c t) p q = sSeq (cRow m c b) (2000 * (t.val % 50) + q.val) := by
  have hN : t.val < 100 := lt_of_lt_of_eq t.isLt N_0
  have hlt : 2000 * (t.val % 50) + q.val < 100000 := by have := q.isLt; omega
  have e1 : (fun d => eblk m c t (ix2 p d)) = Eof m c b := funext fun d => eblk_apply m c t p d b hb
  have e2 : (fun d => wblk m c t (ix2 q d)) = Wof m c ⟨2000 * (t.val % 50) + q.val, hlt⟩ := funext fun d => wblk_apply m c t q d ⟨2000 * (t.val % 50) + q.val, hlt⟩ rfl
  unfold sBlk sSeq
  rw [dif_pos hlt, e1, e2]
  rfl

/-- One more block, the running maximum. -/
theorem runML_succ_fst (init : EReal) (s : ℕ → EReal) (k : ℕ) (sb : Fin 2000 → EReal)
    (hs : ∀ q : Fin 2000, sb q = s (2000 * k + q.val)) (mp : EReal) (hmp : mp = (runML init s k).1) :
    max mp (Finset.univ.sup sb) = (runML init s (k + 1)).1 := by
  obtain rfl : sb = fun q : Fin 2000 => s (2000 * k + q.val) := funext hs
  subst hmp
  rfl

/-- One more block, the running sum. -/
theorem runML_succ_snd (init : EReal) (s : ℕ → EReal) (k : ℕ) (sb : Fin 2000 → EReal)
    (hs : ∀ q : Fin 2000, sb q = s (2000 * k + q.val)) (mp lp : EReal) (hmp : mp = (runML init s k).1) (hlp : lp = (runML init s k).2) :
    Ideal.exp (mp - max mp (Finset.univ.sup sb)) * lp + ∑ q : Fin 2000, Ideal.exp (sb q - max mp (Finset.univ.sup sb))
      = (runML init s (k + 1)).2 := by
  obtain rfl : sb = fun q : Fin 2000 => s (2000 * k + q.val) := funext hs
  subst hmp hlp
  rfl

/-- At the first class block of a row block the outputs hold the stream after one block. -/
theorem stream_first (c : Dev nD) (t : Fin cfg0.N) (h0 : t.val % 50 = 0) (p : Fin 512) (b : Fin 1024)
    (hb : b.val = 512 * (t.val / 50) + p.val) :
    (outsAt0 m c t.val t.isLt).1 (ix2 p 0) = (runML (Iof m c b) (sSeq (cRow m c b)) (t.val % 50 + 1)).1
    ∧ (outsAt0 m c t.val t.isLt).2 (ix2 p 0) = (runML (Iof m c b) (sSeq (cRow m c b)) (t.val % 50 + 1)).2 := by
  have hs : ∀ q : Fin 2000, sBlk (wblk m c t) (eblk m c t) p q = sSeq (cRow m c b) (2000 * (t.val % 50) + q.val) :=
    fun q => sBlk_eq m c t p q b hb
  have hmp : k0_pay1 (F := Ideal) (iblk2 m c t) (ix2 p 0) = (runML (Iof m c b) (sSeq (cRow m c b)) (t.val % 50)).1 := by
    rw [h0]; exact (pay1_apply (iblk2 m c t) (ix2 p 0)).trans (iblk2_apply m c t p b hb)
  have hlp : k0_pay2 (F := Ideal) (ix2 p 0) = (runML (Iof m c b) (sSeq (cRow m c b)) (t.val % 50)).2 := by
    rw [h0]; exact pay2_apply (ix2 p 0)
  rw [outsAt0_A m c t h0]
  dsimp only
  constructor
  · refine (congrFun (out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (eblk m c t) (wblk m c t) (iblk2 m c t)) (ix2 p 0)).trans ?_
    refine (pay5_apply (wblk m c t) (eblk m c t) (k0_pay1 (iblk2 m c t)) p).trans ?_
    exact runML_succ_fst _ _ _ _ hs _ hmp
  · refine (congrFun (out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (eblk m c t) (wblk m c t) (iblk2 m c t)) (ix2 p 0)).trans ?_
    refine (pay6_apply (wblk m c t) (eblk m c t) (k0_pay1 (iblk2 m c t)) (k0_pay2 (F := Ideal)) p).trans ?_
    exact runML_succ_snd _ _ _ _ hs _ _ hmp hlp

/-- At a later class block the outputs hold one block more than the point before left. -/
theorem stream_next (c : Dev nD) (t : Fin cfg0.N) (h0 : ¬t.val % 50 = 0) (p : Fin 512) (b : Fin 1024)
    (hb : b.val = 512 * (t.val / 50) + p.val) (hlt : t.val - 1 < cfg0.N)
    (ih1 : (outsAt0 m c (t.val - 1) hlt).1 (ix2 p 0) = (runML (Iof m c b) (sSeq (cRow m c b)) (t.val % 50)).1)
    (ih2 : (outsAt0 m c (t.val - 1) hlt).2 (ix2 p 0) = (runML (Iof m c b) (sSeq (cRow m c b)) (t.val % 50)).2) :
    (outsAt0 m c t.val t.isLt).1 (ix2 p 0) = (runML (Iof m c b) (sSeq (cRow m c b)) (t.val % 50 + 1)).1
    ∧ (outsAt0 m c t.val t.isLt).2 (ix2 p 0) = (runML (Iof m c b) (sSeq (cRow m c b)) (t.val % 50 + 1)).2 := by
  have hs : ∀ q : Fin 2000, sBlk (wblk m c t) (eblk m c t) p q = sSeq (cRow m c b) (2000 * (t.val % 50) + q.val) :=
    fun q => sBlk_eq m c t p q b hb
  rw [outsAt0_B m c t h0]
  dsimp only
  constructor
  · refine (congrFun (out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (eblk m c t) (wblk m c t) (iblk2 m c t) (outsAt0 m c (t.val - 1) hlt).1 (outsAt0 m c (t.val - 1) hlt).2) (ix2 p 0)).trans ?_
    refine (pay5_apply (wblk m c t) (eblk m c t) (outsAt0 m c (t.val - 1) hlt).1 p).trans ?_
    exact runML_succ_fst _ _ _ _ hs _ ih1
  · refine (congrFun (out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (eblk m c t) (wblk m c t) (iblk2 m c t) (outsAt0 m c (t.val - 1) hlt).1 (outsAt0 m c (t.val - 1) hlt).2) (ix2 p 0)).trans ?_
    refine (pay6_apply (wblk m c t) (eblk m c t) (outsAt0 m c (t.val - 1) hlt).1 (outsAt0 m c (t.val - 1) hlt).2 p).trans ?_
    exact runML_succ_snd _ _ _ _ hs _ _ ih1 ih2

/-- After class block n % 50 of row block n / 50 the outputs hold, at row p, the streamed maximum and sum of embedding
    row 512 · (n / 50) + p after n % 50 + 1 blocks: by induction on the point. -/
theorem stream_inv (c : Dev nD) : ∀ (n : ℕ) (hn : n < cfg0.N) (p : Fin 512) (b : Fin 1024), b.val = 512 * (n / 50) + p.val →
    (outsAt0 m c n hn).1 (ix2 p 0) = (runML (Iof m c b) (sSeq (cRow m c b)) (n % 50 + 1)).1
    ∧ (outsAt0 m c n hn).2 (ix2 p 0) = (runML (Iof m c b) (sSeq (cRow m c b)) (n % 50 + 1)).2 := by
  intro n
  induction n using Nat.strong_induction_on with
  | _ n ih =>
    intro hn p b hb
    have hN : n < 100 := lt_of_lt_of_eq hn N_0
    by_cases h0 : n % 50 = 0
    · exact stream_first m c ⟨n, hn⟩ h0 p b hb
    · have hlt : n - 1 < cfg0.N := Nat.lt_of_le_of_lt (Nat.sub_le _ _) hn
      obtain ⟨i1, i2⟩ := ih (n - 1) (by omega) hlt p b (by omega)
      have hk : (n - 1) % 50 + 1 = n % 50 := by omega
      rw [hk] at i1 i2
      exact stream_next m c ⟨n, hn⟩ h0 p b hb hlt i1 i2

/-- The running-maximum array as one function of the row: the streamed maximum after all 50 class blocks. -/
def maxArr (c : Dev nD) : S1024x1.Idx → EReal := fun i => (runML (Iof m c (i 0)) (sSeq (cRow m c (i 0))) 50).1

/-- The running-sum array as one function of the row: the streamed sum after all 50 class blocks. -/
def sumArr (c : Dev nD) : S1024x1.Idx → EReal := fun i => (runML (Iof m c (i 0)) (sSeq (cRow m c (i 0))) 50).2

/-- After the last class block of a row block, the maximum block at row j is the array's function at row 512 · i + j. -/
theorem maxBlk_last (c : Dev nD) (t : Fin cfg0.N) (h49 : t.val % 50 = 49) (j : S512x1.Idx) (i : S1024x1.Idx)
    (hi : (i 0).val = 512 * (t.val / 50) + (j 0).val) :
    (outsAt0 m c t.val t.isLt).1 j = maxArr m c i := by
  obtain ⟨p, z, rfl⟩ : ∃ (p : Fin 512) (z : Fin 1), j = ix2 p z := ⟨j 0, j 1, eq_ix2 j⟩
  obtain rfl : z = 0 := Subsingleton.elim _ _
  have h := (stream_inv m c t.val t.isLt p (i 0) hi).1
  rw [h49] at h
  exact h

/-- The same for the sum block. -/
theorem sumBlk_last (c : Dev nD) (t : Fin cfg0.N) (h49 : t.val % 50 = 49) (j : S512x1.Idx) (i : S1024x1.Idx)
    (hi : (i 0).val = 512 * (t.val / 50) + (j 0).val) :
    (outsAt0 m c t.val t.isLt).2 j = sumArr m c i := by
  obtain ⟨p, z, rfl⟩ : ∃ (p : Fin 512) (z : Fin 1), j = ix2 p z := ⟨j 0, j 1, eq_ix2 j⟩
  obtain rfl : z = 0 := Subsingleton.elim _ _
  have h := (stream_inv m c t.val t.isLt p (i 0) hi).2
  rw [h49] at h
  exact h

/-- What a writing-back point writes to the maximum array is its block of the array's function. -/
theorem writeback_max (c : Dev nD) (t : Fin cfg0.N) (hf : (cfg0.win 3).flush t = true) :
    (dats m 0 c).flushed 3 t = ((cfg0.win 3).blk t).view.read (Elt Ideal) (maxArr m c) := by
  have h49 : t.val % 50 = 49 := (flush0_3 t).mp hf
  obtain ⟨-, -, -, -, -, -, e0, e1, -⟩ := blockIdx t
  show (cfg0.win 3).cut (grid0.coords t) ((dats m 0 c).after 3 t) = _
  rw [after0_3]
  funext j
  rw [View.read_apply]
  exact maxBlk_last m c t h49 j _ (by show win0_3.index t (0 : Fin 2) * 512 + 1 * (j 0).val = 512 * (t.val / 50) + (j 0).val; omega)

/-- The same for the sum array. -/
theorem writeback_sum (c : Dev nD) (t : Fin cfg0.N) (hf : (cfg0.win 4).flush t = true) :
    (dats m 0 c).flushed 4 t = ((cfg0.win 4).blk t).view.read (Elt Ideal) (sumArr m c) := by
  have h49 : t.val % 50 = 49 := (flush0_4 t).mp hf
  obtain ⟨-, -, -, -, -, -, -, -, e0, e1⟩ := blockIdx t
  show (cfg0.win 4).cut (grid0.coords t) ((dats m 0 c).after 4 t) = _
  rw [after0_4]
  funext j
  rw [View.read_apply]
  exact sumBlk_last m c t h49 j _ (by show win0_4.index t (0 : Fin 2) * 512 + 1 * (j 0).val = 512 * (t.val / 50) + (j 0).val; omega)

/-- A row of the maximum array is in a point's block iff each coordinate is in the block's range on its axis. -/
theorem mem_maxBlk (t : Fin cfg0.N) (i : S1024x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v40_0).slice (win0_3.rect t)).set ↔ _
  rw [View.set_slice_whole, Rect.mem_set_unit]
  exact Iff.rfl

/-- The same for the sum array. -/
theorem mem_sumBlk (t : Fin cfg0.N) (i : S1024x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v40_1).slice (win0_4.rect t)).set ↔ _
  rw [View.set_slice_whole, Rect.mem_set_unit]
  exact Iff.rfl

/-- Row r of the maximum array is written back by the last point of its row block, 50 · (r / 512) + 49. -/
theorem maxArr_covered (i : S1024x1.Idx) : ∃ t : Fin cfg0.N, (cfg0.win 3).flush t = true ∧ i ∈ ((cfg0.win 3).blk t).view.set := by
  have hi0 : (i 0).val < 1024 := idx2_lt0 i
  have hi1 : (i 1).val < 1 := idx2_lt1 i
  have hlt : 50 * ((i 0).val / 512) + 49 < cfg0.N := lt_of_lt_of_eq (by omega : 50 * ((i 0).val / 512) + 49 < 100) N_0.symm
  refine ⟨⟨50 * ((i 0).val / 512) + 49, hlt⟩, (flush0_3 _).mpr (by dsimp only; omega), ?_⟩
  obtain ⟨-, -, -, -, -, -, e0, e1, -⟩ := blockIdx ⟨50 * ((i 0).val / 512) + 49, hlt⟩
  dsimp only at e0 e1
  rw [mem_maxBlk]
  intro a
  match a with
  | ⟨0, _⟩ => show win0_3.index _ (0 : Fin 2) * 512 ≤ (i 0).val ∧ (i 0).val < win0_3.index _ (0 : Fin 2) * 512 + 512; omega
  | ⟨1, _⟩ => show win0_3.index _ (1 : Fin 2) * 1 ≤ (i 1).val ∧ (i 1).val < win0_3.index _ (1 : Fin 2) * 1 + 1; omega

/-- The same for the sum array. -/
theorem sumArr_covered (i : S1024x1.Idx) : ∃ t : Fin cfg0.N, (cfg0.win 4).flush t = true ∧ i ∈ ((cfg0.win 4).blk t).view.set := by
  have hi0 : (i 0).val < 1024 := idx2_lt0 i
  have hi1 : (i 1).val < 1 := idx2_lt1 i
  have hlt : 50 * ((i 0).val / 512) + 49 < cfg0.N := lt_of_lt_of_eq (by omega : 50 * ((i 0).val / 512) + 49 < 100) N_0.symm
  refine ⟨⟨50 * ((i 0).val / 512) + 49, hlt⟩, (flush0_4 _).mpr (by dsimp only; omega), ?_⟩
  obtain ⟨-, -, -, -, -, -, -, -, e0, e1⟩ := blockIdx ⟨50 * ((i 0).val / 512) + 49, hlt⟩
  dsimp only at e0 e1
  rw [mem_sumBlk]
  intro a
  match a with
  | ⟨0, _⟩ => show win0_4.index _ (0 : Fin 2) * 512 ≤ (i 0).val ∧ (i 0).val < win0_4.index _ (0 : Fin 2) * 512 + 512; omega
  | ⟨1, _⟩ => show win0_4.index _ (1 : Fin 2) * 1 ≤ (i 1).val ∧ (i 1).val < win0_4.index _ (1 : Fin 2) * 1 + 1; omega

/-- The two write-backs tile the maximum array, so it ends at its function of the row. -/
theorem maxArr_eq (c : Dev nD) : (dats m 0 c).arrAt 3 cfg0.N = maxArr m c :=
  (dats m 0 c).arrAt_eq_of_cover 3 (maxArr m c) (writeback_max m c) maxArr_covered

/-- The same for the sum array. -/
theorem sumArr_eq (c : Dev nD) : (dats m 0 c).arrAt 4 cfg0.N = sumArr m c :=
  (dats m 0 c).arrAt_eq_of_cover 4 (sumArr m c) (writeback_sum m c) sumArr_covered

/-- The running-maximum array after the run: row b holds the streamed maximum after all 50 class blocks. -/
theorem final3 (c : Dev nD) (b : Fin 1024) :
    ((dats m 0 c).arrAt 3 cfg0.N : S1024x1.Idx → EReal) (ix2 b 0) = (runML (Iof m c b) (sSeq (cRow m c b)) 50).1 :=
  congrFun (maxArr_eq m c) (ix2 b 0)

/-- The running-sum array after the run: row b holds the streamed sum after all 50 class blocks. -/
theorem final4 (c : Dev nD) (b : Fin 1024) :
    ((dats m 0 c).arrAt 4 cfg0.N : S1024x1.Idx → EReal) (ix2 b 0) = (runML (Iof m c b) (sSeq (cRow m c b)) 50).2 :=
  congrFun (sumArr_eq m c) (ix2 b 0)

end Cert.KernelIdeal.KV

end
-- ==== Proof.KArr.lean ====
/-
  The four per-row quantities the host tail reads, as plain tables: the two result arrays of the launch (the running
  maximum and the running sum, columns) and the two host values computed before the launch and kept across it (the
  clipped cosine at the label and the scaled margin).
-/
import proofs.«422797_j35029753266820_1_alg».proof.Proof.KDefs

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.Arc

variable (m : (ℓ : Loc nD τ sig) → Buf (Elt Ideal) ℓ) (ρ : Dev nD → PrngReg)

/-- Row b of the running-maximum array after the run. -/
def M3 (c : Dev nD) : Fin 1024 → EReal :=
  fun b => ((dats m 0 c).arrAt 3 cfg0.N : S1024x1.Idx → EReal) (ix2 b 0)

/-- Row b of the running-sum array after the run. -/
def L4 (c : Dev nD) : Fin 1024 → EReal :=
  fun b => ((dats m 0 c).arrAt 4 cfg0.N : S1024x1.Idx → EReal) (ix2 b 0)

/-- The clipped cosine of row b at its label, as the host computed it before the launch. -/
def C20 (c : Dev nD) : Fin 1024 → EReal :=
  fun b => (V m c main_v20 : S1024.Idx → EReal) (ix1 b)

/-- The scaled margin of row b's label, as the host computed it before the launch. -/
def P38 (c : Dev nD) : Fin 1024 → EReal :=
  fun b => (V m c main_v38 : S1024.Idx → EReal) (ix1 b)

end Cert.KernelIdeal.KV

end
-- ==== Proof.KTail.lean ====
/-
  The host operations after the launch, read back: from the two result arrays m and l (as columns), the clipped cosine at
  the label c and the scaled margin p computed before the launch, row b contributes
  m_b + log(max(l_b − exp(64·c_b − m_b) + exp(p_b − m_b), tiny)) − p_b, and the result is the sum over the rows divided by 1024.
-/
import proofs.«422797_j35029753266820_1_alg».proof.Proof.KArr
import Idealize.ShloMosaic.Lib.StableHlo.Run
import Idealize.ShloMosaic.PureOps.Ideal.Laws
import Idealize.ShloMosaic.Lib.ValueLayout
import Idealize.ShloMosaic.Lib.IdealHost
import Idealize.ShloMosaic.Lib.ValueIdxRank1
import Idealize.ShloMosaic.Lib.Pipeline.Value

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.Arc

variable (m : (ℓ : Loc nD τ sig) → Buf (Elt Ideal) ℓ) (ρ : Dev nD → PrngReg)

/-- A column cast to a row vector reads, at `i`, the column at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- The host operations after the launch, as one function of the four arrays they read: the two result columns, the
    clipped cosine at the label and the scaled margin. -/
def tailFn (A3 A4 : (⟨S1024x1, .f32⟩ : BufTy).Contents (Elt Ideal)) (C P : (⟨S1024, .f32⟩ : BufTy).Contents (Elt Ideal)) :
    (⟨S_, .f32⟩ : BufTy).Contents (Elt Ideal) :=
  Host.divf (F := Ideal)
    (Host.reduceAdd (F := Ideal)
      (subf (F := Ideal)
        (addf (F := Ideal) (fun i => shapeCast S1024 A3 shapeCasts_S1024x1_S1024 i)
          (Host.log (F := Ideal) (maximumf (F := Ideal)
            (addf (F := Ideal)
              (subf (F := Ideal) (fun i => shapeCast S1024 A4 shapeCasts_S1024x1_S1024 i)
                (Host.exp (F := Ideal) (subf (F := Ideal)
                  (mulf (F := Ideal) (broadcastInDim S1024 ![] bcast_S_S1024 (constant (F := Ideal) S_ .f32 0x42800000#32)) C)
                  (fun i => shapeCast S1024 A3 shapeCasts_S1024x1_S1024 i))))
              (Host.exp (F := Ideal) (subf (F := Ideal) P (fun i => shapeCast S1024 A3 shapeCasts_S1024x1_S1024 i))))
            (broadcastInDim S1024 ![] bcast_S_S1024 (constant (F := Ideal) S_ .f32 0x0DA24260#32)))))
        P)
      (constant (F := Ideal) S_ .f32 0x00000000#32) reducesTo_S1024_S_d0 h_S_)
    (constant (F := Ideal) S_ .f32 0x44800000#32)

/-- The tail at its one index: the sum over the rows of the row's term, divided by the number of rows. -/
theorem tailFn_apply (A3 A4 : S1024x1.Idx → EReal) (C P : S1024.Idx → EReal) :
    tailFn A3 A4 C P ix0
      = Ideal.div (∑ b : Fin 1024,
          (A3 (ix2 b 0) + Ideal.log (max (A4 (ix2 b 0) - Ideal.exp (sc * C (ix1 b) - A3 (ix2 b 0)) + Ideal.exp (P (ix1 b) - A3 (ix2 b 0))) tiny)
            - P (ix1 b))) nB := by
  have h3 : ∀ b : Fin 1024, shapeCast S1024 A3 shapeCasts_S1024x1_S1024 (ix1 b) = A3 (ix2 b 0) :=
    fun b => shapeCast_a1_a_apply A3 _ b
  have h4 : ∀ b : Fin 1024, shapeCast S1024 A4 shapeCasts_S1024x1_S1024 (ix1 b) = A4 (ix2 b 0) :=
    fun b => shapeCast_a1_a_apply A4 _ b
  have hs : ∀ b : Fin 1024,
      broadcastInDim S1024 ![] bcast_S_S1024 (constant (F := Ideal) S_ .f32 0x42800000#32) (ix1 b) = sc :=
    fun b => broadcastInDim_scalar_apply _ _ _
  have ht : ∀ b : Fin 1024,
      broadcastInDim S1024 ![] bcast_S_S1024 (constant (F := Ideal) S_ .f32 0x0DA24260#32) (ix1 b) = tiny :=
    fun b => broadcastInDim_scalar_apply _ _ _
  unfold tailFn
  rw [hostDivf_apply, hostReduceAdd_apply, Ideal.hostReduceAdd_total _ (fun b => b.elim0),
    constant_apply, constant_apply, Ideal.ofBits_zero_f32, zero_add,
    ← Equiv.sum_comp (idxEquiv1 (n := 1024)).symm]
  refine congrArg (fun s => Ideal.div s nB) (Finset.sum_congr rfl fun b _ => ?_)
  show shapeCast S1024 A3 shapeCasts_S1024x1_S1024 (ix1 b)
      + Ideal.log (max (shapeCast S1024 A4 shapeCasts_S1024x1_S1024 (ix1 b)
          - Ideal.exp (broadcastInDim S1024 ![] bcast_S_S1024 (constant (F := Ideal) S_ .f32 0x42800000#32) (ix1 b) * C (ix1 b)
              - shapeCast S1024 A3 shapeCasts_S1024x1_S1024 (ix1 b))
          + Ideal.exp (P (ix1 b) - shapeCast S1024 A3 shapeCasts_S1024x1_S1024 (ix1 b)))
        (broadcastInDim S1024 ![] bcast_S_S1024 (constant (F := Ideal) S_ .f32 0x0DA24260#32) (ix1 b)))
      - P (ix1 b) = _
  rw [h3, h4, hs, ht]

set_option maxHeartbeats 400000 in
/-- The result buffer after the host tail is the tail's function of the two result arrays of the launch and the two
    host values kept across it. -/
theorem tail_buf (c : Dev nD) :
    Pipeline.afterTail₀ cfgs (dats m) 0 (V0 m) [hostOps1] c main_v57
      = tailFn ((dats m 0 c).arrAt 3 cfg0.N) ((dats m 0 c).arrAt 4 cfg0.N) (V m c main_v20) (V m c main_v38) := by
  have e3 : Pipeline.withArrays (cfgs 0).spec c (V0 m c) (fun w => (dats m 0 c).arrAt w (cfgs 0).N) (Proc.devRef .tc main_v40_0)
      = (dats m 0 c).arrAt 3 cfg0.N :=
    Pipeline.withArrays_arr spec0 launch0.win.arr_inj c _ _ 3
  have e4 : Pipeline.withArrays (cfgs 0).spec c (V0 m c) (fun w => (dats m 0 c).arrAt w (cfgs 0).N) (Proc.devRef .tc main_v40_1)
      = (dats m 0 c).arrAt 4 cfg0.N :=
    Pipeline.withArrays_arr spec0 launch0.win.arr_inj c _ _ 4
  have e20 : Pipeline.withArrays (cfgs 0).spec c (V0 m c) (fun w => (dats m 0 c).arrAt w (cfgs 0).N) (Proc.devRef .tc main_v20)
      = V m c main_v20 :=
    Pipeline.withArrays_of_ne _ c (V0 m c) _ main_v20 (by exact (by decide : ∀ w, Pipeline.arrRef spec0 w ≠ main_v20))
  have e38 : Pipeline.withArrays (cfgs 0).spec c (V0 m c) (fun w => (dats m 0 c).arrAt w (cfgs 0).N) (Proc.devRef .tc main_v38)
      = V m c main_v38 :=
    Pipeline.withArrays_of_ne _ c (V0 m c) _ main_v38 (by exact (by decide : ∀ w, Pipeline.arrRef spec0 w ≠ main_v38))
  unfold Pipeline.afterTail₀
  show StableHlo.after hostOps1 _ (Proc.devRef .tc main_v57) = _
  after_results_simp
  rw [e3, e4, e20, e38]
  rfl

/-- The program's result after the host tail, from the region's two result arrays and the host values kept across it. -/
theorem tail_result (c : Dev nD) :
    (Pipeline.afterTail₀ cfgs (dats m) 0 (V0 m) [hostOps1] c main_v57 : S_.Idx → EReal) ix0
      = Ideal.div (∑ b : Fin 1024,
          (M3 m c b + Ideal.log (max (L4 m c b - Ideal.exp (sc * C20 m c b - M3 m c b) + Ideal.exp (P38 m c b - M3 m c b)) tiny)
            - P38 m c b)) nB := by
  refine (congrFun (tail_buf m c) ix0).trans ((tailFn_apply _ _ _ _).trans ?_)
  rfl

end Cert.KernelIdeal.KV

end
-- ==== Proof.KValue.lean ====
/-
  The kernel program's result: under the label range, the mean over the rows of the streamed row loss of the clipped
  cosines (Spec.lean's resK) of the program's own arguments, with the arguments unchanged.
-/
import proofs.«422797_j35029753266820_1_alg».proof.Proof.KHost
import proofs.«422797_j35029753266820_1_alg».proof.Proof.KRun
import proofs.«422797_j35029753266820_1_alg».proof.Proof.KTail

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.Arc

variable (m : (ℓ : Loc nD τ sig) → Buf (Elt Ideal) ℓ) (ρ : Dev nD → PrngReg)

/-- Row b's cosines as the region sees them are the clipped cosines of the arguments. -/
theorem cRow_eq (c : Dev nD) (b : Fin 1024) : cRow m c b = cosv (Xof m c) (Wof m c) b := by
  funext j
  unfold cRow cosv
  exact congrArg (cosN · (Wof m c j)) (funext fun d => Eof_eq m c b d)

/-- The result buffer after the run. -/
theorem result (c : Dev nD) (h : InRange m c) :
    (Pipeline.afterTail₀ cfgs (dats m) 0 (V0 m) [hostOps1] c main_v57 : S_.Idx → EReal) ix0
      = resK (Xof m c) (Wof m c) (labOf m c h) := by
  rw [tail_result]
  unfold resK
  refine congrArg (Ideal.div · nB) (Finset.sum_congr rfl fun b _ => ?_)
  have e3 : M3 m c b = (runML (Iof m c b) (sSeq (cRow m c b)) 50).1 := final3 m c b
  have e4 : L4 m c b = (runML (Iof m c b) (sSeq (cRow m c b)) 50).2 := final4 m c b
  have e20 : C20 m c b = cosv (Xof m c) (Wof m c) b (labOf m c h b) := V_v20 m c h b
  have e38 : P38 m c b = sc * marginK (cosv (Xof m c) (Wof m c) b (labOf m c h b)) := V_v38 m c h b
  rw [e3, e4, e20, e38, Iof_eq m c h, cRow_eq]
  rfl

/-- The run: every weakly fair execution ends with the result at `resK` of the arguments, the arguments unchanged. -/
theorem run (hIn : ∀ c, InRange m c) :
    θ_run defs (onTc (τ := τ) (main (F := Ideal))) ⟨m, fun _ => 0, ρ⟩ fun r => ∀ c : Dev nD,
      r.2.mem ((c.tc : Thread nD τ).loc main_v57) = (fun _ => resK (Xof m c) (Wof m c) (labOf m c (hIn c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v57 (Pipeline.mem_restRefs_of main_v57 (by decide) (by decide))).trans
        (funext fun i => by rw [eq_ix0 i]; exact result m c (hIn c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.KV

end
-- ==== Proof.RefStagesA.lean ====
/-
  The first 64 operations of the reference program (the two normalisations, the product, the clip, the margin, the
  one-hot, the logits), applied in order to a valuation that holds the three arguments, leave the logits' stage in the
  logits' buffer. Each operation writes one buffer that only later operations read, so the contents are followed a
  stretch of operations at a time: after each stretch every buffer still to be read holds its stage of the arguments.
-/
import proofs.«422797_j35029753266820_1_alg».proof.Proof.RefRead
import Idealize.ShloMosaic.Lib.Pipeline.Frame
import Idealize.ShloMosaic.Lib.StableHlo.Run

noncomputable section

namespace Cert.ReferenceIdeal.RV

open Idealize.ShloMosaic Idealize.ShloMosaic.TcCoe Idealize.SL.Sem Idealize.ShloMosaic.StableHlo
open Cert.ReferenceIdeal Cert.ReferenceIdeal.Gen Cert.ReferenceIdeal.ReadP Cert.ReferenceIdeal.ValueP

variable {F : FTy → Type} [FloatOps F]

/-- The first 64 operations, in order. -/
abbrev opsA : List (HloOp τ sig (Elt F)) :=
  [ binary main_arg0 main_arg0 main_v0 (mulf : (⟨S1024x512, .f32⟩ : BufTy).Contents (Elt F) → (⟨S1024x512, .f32⟩ : BufTy).Contents (Elt F) → (⟨S1024x512, .f32⟩ : BufTy).Contents (Elt F)),
        nullary main_cst (constant S_ .f32 0x00000000#32),
        binary main_v0 main_cst main_v1 ((fun x v => Host.reduceAdd x v reducesTo_S1024x512_S1024_d1 h_S_) : (⟨S1024x512, .f32⟩ : BufTy).Contents (Elt F) → (⟨S_, .f32⟩ : BufTy).Contents (Elt F) → (⟨S1024, .f32⟩ : BufTy).Contents (Elt F)),
        unary main_v1 main_v2 (broadcastInDim S1024x1 ![0] bcast_S1024_S1024x1_0 : (⟨S1024, .f32⟩ : BufTy).Contents (Elt F) → (⟨S1024x1, .f32⟩ : BufTy).Contents (Elt F)),
        unary main_v2 main_v3 (Host.sqrt : (⟨S1024x1, .f32⟩ : BufTy).Contents (Elt F) → (⟨S1024x1, .f32⟩ : BufTy).Contents (Elt F)),
        nullary main_cst_0 (constant S_ .f32 0x2B8CBCCC#32),
        unary main_cst_0 main_v4 (broadcastInDim S1024x1 ![] bcast_S_S1024x1 : (⟨S_, .f32⟩ : BufTy).Contents (Elt F) → (⟨S1024x1, .f32⟩ : BufTy).Contents (Elt F)),
        binary main_v3 main_v4 main_v5 (maximumf : (⟨S1024x1, .f32⟩ : BufTy).Contents (Elt F) → (⟨S1024x1, .f32⟩ : BufTy).Contents (Elt F) → (⟨S1024x1, .f32⟩ : BufTy).Contents (Elt F)),
        unary main_v5 main_v6 (broadcastInDim S1024x512 ![0, 1] bcast_S1024x1_S1024x512_0_1 : (⟨S1024x1, .f32⟩ : BufTy).Contents (Elt F) → (⟨S1024x512, .f32⟩ : BufTy).Contents (Elt F)),
        binary main_arg0 main_v6 main_v7 (Host.divf : (⟨S1024x512, .f32⟩ : BufTy).Contents (Elt F) → (⟨S1024x512, .f32⟩ : BufTy).Contents (Elt F) → (⟨S1024x512, .f32⟩ : BufTy).Contents (Elt F)),
        binary main_arg2 main_arg2 main_v8 (mulf : (⟨S100000x512, .f32⟩ : BufTy).Contents (Elt F) → (⟨S100000x512, .f32⟩ : BufTy).Contents (Elt F) → (⟨S100000x512, .f32⟩ : BufTy).Contents (Elt F)),
        nullary main_cst_1 (constant S_ .f32 0x00000000#32),
        binary main_v8 main_cst_1 main_v9 ((fun x v => Host.reduceAdd x v reducesTo_S100000x512_S100000_d1 h_S_) : (⟨S100000x512, .f32⟩ : BufTy).Contents (Elt F) → (⟨S_, .f32⟩ : BufTy).Contents (Elt F) → (⟨S100000, .f32⟩ : BufTy).Contents (Elt F)),
        unary main_v9 main_v10 (broadcastInDim S100000x1 ![0] bcast_S100000_S100000x1_0 : (⟨S100000, .f32⟩ : BufTy).Contents (Elt F) → (⟨S100000x1, .f32⟩ : BufTy).Contents (Elt F)),
        unary main_v10 main_v11 (Host.sqrt : (⟨S100000x1, .f32⟩ : BufTy).Contents (Elt F) → (⟨S100000x1, .f32⟩ : BufTy).Contents (Elt F)),
        nullary main_cst_2 (constant S_ .f32 0x2B8CBCCC#32),
        unary main_cst_2 main_v12 (broadcastInDim S100000x1 ![] bcast_S_S100000x1 : (⟨S_, .f32⟩ : BufTy).Contents (Elt F) → (⟨S100000x1, .f32⟩ : BufTy).Contents (Elt F)),
        binary main_v11 main_v12 main_v13 (maximumf : (⟨S100000x1, .f32⟩ : BufTy).Contents (Elt F) → (⟨S100000x1, .f32⟩ : BufTy).Contents (Elt F) → (⟨S100000x1, .f32⟩ : BufTy).Contents (Elt F)),
        unary main_v13 main_v14 (broadcastInDim S100000x512 ![0, 1] bcast_S100000x1_S100000x512_0_1 : (⟨S100000x1, .f32⟩ : BufTy).Contents (Elt F) → (⟨S100000x512, .f32⟩ : BufTy).Contents (Elt F)),
        binary main_arg2 main_v14 main_v15 (Host.divf : (⟨S100000x512, .f32⟩ : BufTy).Contents (Elt F) → (⟨S100000x512, .f32⟩ : BufTy).Contents (Elt F) → (⟨S100000x512, .f32⟩ : BufTy).Contents (Elt F)),
        unary main_v15 main_v16 ((transpose S512x100000 [1, 0] · transposes_S100000x512_S512x100000_1_0) : (⟨S100000x512, .f32⟩ : BufTy).Contents (Elt F) → (⟨S512x100000, .f32⟩ : BufTy).Contents (Elt F)),
        binary main_v7 main_v16 main_v17 ((fun l r => Host.dotGeneral dot_S1024x512_S512x100000_S1024x100000_1_0_0_1_n_n none l r) : (⟨S1024x512, .f32⟩ : BufTy).Contents (Elt F) → (⟨S512x100000, .f32⟩ : BufTy).Contents (Elt F) → (⟨S1024x100000, .f32⟩ : BufTy).Contents (Elt F)),
        nullary main_cst_3 (constant S_ .f32 0xBF7FFFFE#32),
        nullary main_cst_4 (constant S_ .f32 0x3F7FFFFE#32),
        TRef.unary (TRef.of (T := ⟨S_, .f32⟩) main_cst_3) (TRef.of (T := ⟨S_, .f32⟩) main_call0_v0) id,
        TRef.unary (TRef.of (T := ⟨S_, .f32⟩) main_call0_v0) (TRef.of (T := ⟨S1024x100000, .f32⟩) main_call0_v1) (broadcastInDim S1024x100000 ![] bcast_S_S1024x100000),
        TRef.binary (TRef.of (T := ⟨S1024x100000, .f32⟩) main_call0_v1) (TRef.of (T := ⟨S1024x100000, .f32⟩) main_v17) (TRef.of (T := ⟨S1024x100000, .f32⟩) main_call0_v2) maximumf,
        TRef.unary (TRef.of (T := ⟨S_, .f32⟩) main_cst_4) (TRef.of (T := ⟨S_, .f32⟩) main_call0_v3) id,
        TRef.unary (TRef.of (T := ⟨S_, .f32⟩) main_call0_v3) (TRef.of (T := ⟨S1024x100000, .f32⟩) main_call0_v4) (broadcastInDim S1024x100000 ![] bcast_S_S1024x100000),
        TRef.binary (TRef.of (T := ⟨S1024x100000, .f32⟩) main_call0_v4) (TRef.of (T := ⟨S1024x100000, .f32⟩) main_call0_v2) (TRef.of (T := ⟨S1024x100000, .f32⟩) main_v18) minimumf,
        binary main_v18 main_v18 main_v19 (mulf : (⟨S1024x100000, .f32⟩ : BufTy).Contents (Elt F) → (⟨S1024x100000, .f32⟩ : BufTy).Contents (Elt F) → (⟨S1024x100000, .f32⟩ : BufTy).Contents (Elt F)),
        nullary main_cst_5 (constant S_ .f32 0x3F800000#32),
        unary main_cst_5 main_v20 (broadcastInDim S1024x100000 ![] bcast_S_S1024x100000 : (⟨S_, .f32⟩ : BufTy).Contents (Elt F) → (⟨S1024x100000, .f32⟩ : BufTy).Contents (Elt F)),
        binary main_v20 main_v19 main_v21 (subf : (⟨S1024x100000, .f32⟩ : BufTy).Contents (Elt F) → (⟨S1024x100000, .f32⟩ : BufTy).Contents (Elt F) → (⟨S1024x100000, .f32⟩ : BufTy).Contents (Elt F)),
        unary main_v21 main_v22 (Host.sqrt : (⟨S1024x100000, .f32⟩ : BufTy).Contents (Elt F) → (⟨S1024x100000, .f32⟩ : BufTy).Contents (Elt F)),
        nullary main_cst_6 (constant S_ .f32 0x3F60A940#32),
        unary main_cst_6 main_v23 (broadcastInDim S1024x100000 ![] bcast_S_S1024x100000 : (⟨S_, .f32⟩ : BufTy).Contents (Elt F) → (⟨S1024x100000, .f32⟩ : BufTy).Contents (Elt F)),
        binary main_v18 main_v23 main_v24 (mulf : (⟨S1024x100000, .f32⟩ : BufTy).Contents (Elt F) → (⟨S1024x100000, .f32⟩ : BufTy).Contents (Elt F) → (⟨S1024x100000, .f32⟩ : BufTy).Contents (Elt F)),
        nullary main_cst_7 (constant S_ .f32 0x3EF57744#32),
        unary main_cst_7 main_v25 (broadcastInDim S1024x100000 ![] bcast_S_S1024x100000 : (⟨S_, .f32⟩ : BufTy).Contents (Elt F) → (⟨S1024x100000, .f32⟩ : BufTy).Contents (Elt F)),
        binary main_v22 main_v25 main_v26 (mulf : (⟨S1024x100000, .f32⟩ : BufTy).Contents (Elt F) → (⟨S1024x100000, .f32⟩ : BufTy).Contents (Elt F) → (⟨S1024x100000, .f32⟩ : BufTy).Contents (Elt F)),
        binary main_v24 main_v26 main_v27 (subf : (⟨S1024x100000, .f32⟩ : BufTy).Contents (Elt F) → (⟨S1024x100000, .f32⟩ : BufTy).Contents (Elt F) → (⟨S1024x100000, .f32⟩ : BufTy).Contents (Elt F)),
        nullary main_cst_8 (constant S_ .f32 0xBF60A940#32),
        unary main_cst_8 main_v28 (broadcastInDim S1024x100000 ![] bcast_S_S1024x100000 : (⟨S_, .f32⟩ : BufTy).Contents (Elt F) → (⟨S1024x100000, .f32⟩ : BufTy).Contents (Elt F)),
        binary main_v18 main_v28 main_v29 (cmpf .ogt : (⟨S1024x100000, .f32⟩ : BufTy).Contents (Elt F) → (⟨S1024x100000, .f32⟩ : BufTy).Contents (Elt F) → (⟨S1024x100000, .i1⟩ : BufTy).Contents (Elt F)),
        nullary main_cst_9 (constant S_ .f32 0x3E757744#32),
        unary main_cst_9 main_v30 (broadcastInDim S1024x100000 ![] bcast_S_S1024x100000 : (⟨S_, .f32⟩ : BufTy).Contents (Elt F) → (⟨S1024x100000, .f32⟩ : BufTy).Contents (Elt F)),
        binary main_v18 main_v30 main_v31 (subf : (⟨S1024x100000, .f32⟩ : BufTy).Contents (Elt F) → (⟨S1024x100000, .f32⟩ : BufTy).Contents (Elt F) → (⟨S1024x100000, .f32⟩ : BufTy).Contents (Elt F)),
        TRef.ternary (TRef.of (T := ⟨S1024x100000, .i1⟩) main_v29) (TRef.of (T := ⟨S1024x100000, .f32⟩) main_v27) (TRef.of (T := ⟨S1024x100000, .f32⟩) main_v31) (TRef.of (T := ⟨S1024x100000, .f32⟩) main_v32) select,
        TRef.unary (TRef.of (T := ⟨S1024, .i32⟩) main_arg1) (TRef.of (T := ⟨S1024x1, .i32⟩) main_call2_v0) (broadcastInDim S1024x1 ![0] bcast_S1024_S1024x1_0),
        TRef.nullary (TRef.of (T := ⟨S1x100000, .i32⟩) main_call2_v1) (iotaInDim S1x100000 32 1),
        TRef.unary (TRef.of (T := ⟨S1024x1, .i32⟩) main_call2_v0) (TRef.of (T := ⟨S1024x100000, .i32⟩) main_call2_v2) (broadcastInDim S1024x100000 ![0, 1] bcast_S1024x1_S1024x100000_0_1),
        TRef.unary (TRef.of (T := ⟨S1x100000, .i32⟩) main_call2_v1) (TRef.of (T := ⟨S1024x100000, .i32⟩) main_call2_v3) (broadcastInDim S1024x100000 ![0, 1] bcast_S1x100000_S1024x100000_0_1),
        TRef.binary (TRef.of (T := ⟨S1024x100000, .i32⟩) main_call2_v2) (TRef.of (T := ⟨S1024x100000, .i32⟩) main_call2_v3) (TRef.of (T := ⟨S1024x100000, .i1⟩) main_call2_v4) (cmpi .eq),
        TRef.unary (TRef.of (T := ⟨S1024x100000, .i1⟩) main_call2_v4) (TRef.of (T := ⟨S1024x100000, .f32⟩) main_v33) (uitofp .f32),
        binary main_v33 main_v32 main_v34 (mulf : (⟨S1024x100000, .f32⟩ : BufTy).Contents (Elt F) → (⟨S1024x100000, .f32⟩ : BufTy).Contents (Elt F) → (⟨S1024x100000, .f32⟩ : BufTy).Contents (Elt F)),
        nullary main_cst_10 (constant S_ .f32 0x3F800000#32),
        unary main_cst_10 main_v35 (broadcastInDim S1024x100000 ![] bcast_S_S1024x100000 : (⟨S_, .f32⟩ : BufTy).Contents (Elt F) → (⟨S1024x100000, .f32⟩ : BufTy).Contents (Elt F)),
        binary main_v35 main_v33 main_v36 (subf : (⟨S1024x100000, .f32⟩ : BufTy).Contents (Elt F) → (⟨S1024x100000, .f32⟩ : BufTy).Contents (Elt F) → (⟨S1024x100000, .f32⟩ : BufTy).Contents (Elt F)),
        binary main_v36 main_v18 main_v37 (mulf : (⟨S1024x100000, .f32⟩ : BufTy).Contents (Elt F) → (⟨S1024x100000, .f32⟩ : BufTy).Contents (Elt F) → (⟨S1024x100000, .f32⟩ : BufTy).Contents (Elt F)),
        binary main_v34 main_v37 main_v38 (addf : (⟨S1024x100000, .f32⟩ : BufTy).Contents (Elt F) → (⟨S1024x100000, .f32⟩ : BufTy).Contents (Elt F) → (⟨S1024x100000, .f32⟩ : BufTy).Contents (Elt F)),
        nullary main_cst_11 (constant S_ .f32 0x42800000#32),
        unary main_cst_11 main_v39 (broadcastInDim S1024x100000 ![] bcast_S_S1024x100000 : (⟨S_, .f32⟩ : BufTy).Contents (Elt F) → (⟨S1024x100000, .f32⟩ : BufTy).Contents (Elt F)),
        binary main_v39 main_v38 main_v40 (mulf : (⟨S1024x100000, .f32⟩ : BufTy).Contents (Elt F) → (⟨S1024x100000, .f32⟩ : BufTy).Contents (Elt F) → (⟨S1024x100000, .f32⟩ : BufTy).Contents (Elt F)) ]

/-- The first stretch: the embeddings' row norms and the normalised embeddings. -/
abbrev opsA1 : List (HloOp τ sig (Elt F)) :=
  [ binary main_arg0 main_arg0 main_v0 (mulf : (⟨S1024x512, .f32⟩ : BufTy).Contents (Elt F) → (⟨S1024x512, .f32⟩ : BufTy).Contents (Elt F) → (⟨S1024x512, .f32⟩ : BufTy).Contents (Elt F)),
    nullary main_cst (constant S_ .f32 0x00000000#32),
    binary main_v0 main_cst main_v1 ((fun x v => Host.reduceAdd x v reducesTo_S1024x512_S1024_d1 h_S_) : (⟨S1024x512, .f32⟩ : BufTy).Contents (Elt F) → (⟨S_, .f32⟩ : BufTy).Contents (Elt F) → (⟨S1024, .f32⟩ : BufTy).Contents (Elt F)),
    unary main_v1 main_v2 (broadcastInDim S1024x1 ![0] bcast_S1024_S1024x1_0 : (⟨S1024, .f32⟩ : BufTy).Contents (Elt F) → (⟨S1024x1, .f32⟩ : BufTy).Contents (Elt F)),
    unary main_v2 main_v3 (Host.sqrt : (⟨S1024x1, .f32⟩ : BufTy).Contents (Elt F) → (⟨S1024x1, .f32⟩ : BufTy).Contents (Elt F)),
    nullary main_cst_0 (constant S_ .f32 0x2B8CBCCC#32),
    unary main_cst_0 main_v4 (broadcastInDim S1024x1 ![] bcast_S_S1024x1 : (⟨S_, .f32⟩ : BufTy).Contents (Elt F) → (⟨S1024x1, .f32⟩ : BufTy).Contents (Elt F)),
    binary main_v3 main_v4 main_v5 (maximumf : (⟨S1024x1, .f32⟩ : BufTy).Contents (Elt F) → (⟨S1024x1, .f32⟩ : BufTy).Contents (Elt F) → (⟨S1024x1, .f32⟩ : BufTy).Contents (Elt F)),
    unary main_v5 main_v6 (broadcastInDim S1024x512 ![0, 1] bcast_S1024x1_S1024x512_0_1 : (⟨S1024x1, .f32⟩ : BufTy).Contents (Elt F) → (⟨S1024x512, .f32⟩ : BufTy).Contents (Elt F)),
    binary main_arg0 main_v6 main_v7 (Host.divf : (⟨S1024x512, .f32⟩ : BufTy).Contents (Elt F) → (⟨S1024x512, .f32⟩ : BufTy).Contents (Elt F) → (⟨S1024x512, .f32⟩ : BufTy).Contents (Elt F)) ]

/-- The second stretch: the class rows' norms, the normalised class rows and their transpose. -/
abbrev opsA2 : List (HloOp τ sig (Elt F)) :=
  [ binary main_arg2 main_arg2 main_v8 (mulf : (⟨S100000x512, .f32⟩ : BufTy).Contents (Elt F) → (⟨S100000x512, .f32⟩ : BufTy).Contents (Elt F) → (⟨S100000x512, .f32⟩ : BufTy).Contents (Elt F)),
    nullary main_cst_1 (constant S_ .f32 0x00000000#32),
    binary main_v8 main_cst_1 main_v9 ((fun x v => Host.reduceAdd x v reducesTo_S100000x512_S100000_d1 h_S_) : (⟨S100000x512, .f32⟩ : BufTy).Contents (Elt F) → (⟨S_, .f32⟩ : BufTy).Contents (Elt F) → (⟨S100000, .f32⟩ : BufTy).Contents (Elt F)),
    unary main_v9 main_v10 (broadcastInDim S100000x1 ![0] bcast_S100000_S100000x1_0 : (⟨S100000, .f32⟩ : BufTy).Contents (Elt F) → (⟨S100000x1, .f32⟩ : BufTy).Contents (Elt F)),
    unary main_v10 main_v11 (Host.sqrt : (⟨S100000x1, .f32⟩ : BufTy).Contents (Elt F) → (⟨S100000x1, .f32⟩ : BufTy).Contents (Elt F)),
    nullary main_cst_2 (constant S_ .f32 0x2B8CBCCC#32),
    unary main_cst_2 main_v12 (broadcastInDim S100000x1 ![] bcast_S_S100000x1 : (⟨S_, .f32⟩ : BufTy).Contents (Elt F) → (⟨S100000x1, .f32⟩ : BufTy).Contents (Elt F)),
    binary main_v11 main_v12 main_v13 (maximumf : (⟨S100000x1, .f32⟩ : BufTy).Contents (Elt F) → (⟨S100000x1, .f32⟩ : BufTy).Contents (Elt F) → (⟨S100000x1, .f32⟩ : BufTy).Contents (Elt F)),
    unary main_v13 main_v14 (broadcastInDim S100000x512 ![0, 1] bcast_S100000x1_S100000x512_0_1 : (⟨S100000x1, .f32⟩ : BufTy).Contents (Elt F) → (⟨S100000x512, .f32⟩ : BufTy).Contents (Elt F)),
    binary main_arg2 main_v14 main_v15 (Host.divf : (⟨S100000x512, .f32⟩ : BufTy).Contents (Elt F) → (⟨S100000x512, .f32⟩ : BufTy).Contents (Elt F) → (⟨S100000x512, .f32⟩ : BufTy).Contents (Elt F)),
    unary main_v15 main_v16 ((transpose S512x100000 [1, 0] · transposes_S100000x512_S512x100000_1_0) : (⟨S100000x512, .f32⟩ : BufTy).Contents (Elt F) → (⟨S512x100000, .f32⟩ : BufTy).Contents (Elt F)) ]

/-- The third stretch: the product of the two normalised matrices and its clip. -/
abbrev opsA3 : List (HloOp τ sig (Elt F)) :=
  [ binary main_v7 main_v16 main_v17 ((fun l r => Host.dotGeneral dot_S1024x512_S512x100000_S1024x100000_1_0_0_1_n_n none l r) : (⟨S1024x512, .f32⟩ : BufTy).Contents (Elt F) → (⟨S512x100000, .f32⟩ : BufTy).Contents (Elt F) → (⟨S1024x100000, .f32⟩ : BufTy).Contents (Elt F)),
    nullary main_cst_3 (constant S_ .f32 0xBF7FFFFE#32),
    nullary main_cst_4 (constant S_ .f32 0x3F7FFFFE#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S1024x100000, .f32⟩) main_call0_v1) (broadcastInDim S1024x100000 ![] bcast_S_S1024x100000),
    TRef.binary (TRef.of (T := ⟨S1024x100000, .f32⟩) main_call0_v1) (TRef.of (T := ⟨S1024x100000, .f32⟩) main_v17) (TRef.of (T := ⟨S1024x100000, .f32⟩) main_call0_v2) maximumf,
    TRef.unary (TRef.of (T := ⟨S_, .f32⟩) main_cst_4) (TRef.of (T := ⟨S_, .f32⟩) main_call0_v3) id,
    TRef.unary (TRef.of (T := ⟨S_, .f32⟩) main_call0_v3) (TRef.of (T := ⟨S1024x100000, .f32⟩) main_call0_v4) (broadcastInDim S1024x100000 ![] bcast_S_S1024x100000),
    TRef.binary (TRef.of (T := ⟨S1024x100000, .f32⟩) main_call0_v4) (TRef.of (T := ⟨S1024x100000, .f32⟩) main_call0_v2) (TRef.of (T := ⟨S1024x100000, .f32⟩) main_v18) minimumf ]

/-- The fourth stretch: the sine of the angle and the cosine of the angle plus the margin. -/
abbrev opsA4 : List (HloOp τ sig (Elt F)) :=
  [ binary main_v18 main_v18 main_v19 (mulf : (⟨S1024x100000, .f32⟩ : BufTy).Contents (Elt F) → (⟨S1024x100000, .f32⟩ : BufTy).Contents (Elt F) → (⟨S1024x100000, .f32⟩ : BufTy).Contents (Elt F)),
    nullary main_cst_5 (constant S_ .f32 0x3F800000#32),
    unary main_cst_5 main_v20 (broadcastInDim S1024x100000 ![] bcast_S_S1024x100000 : (⟨S_, .f32⟩ : BufTy).Contents (Elt F) → (⟨S1024x100000, .f32⟩ : BufTy).Contents (Elt F)),
    binary main_v20 main_v19 main_v21 (subf : (⟨S1024x100000, .f32⟩ : BufTy).Contents (Elt F) → (⟨S1024x100000, .f32⟩ : BufTy).Contents (Elt F) → (⟨S1024x100000, .f32⟩ : BufTy).Contents (Elt F)),
    unary main_v21 main_v22 (Host.sqrt : (⟨S1024x100000, .f32⟩ : BufTy).Contents (Elt F) → (⟨S1024x100000, .f32⟩ : BufTy).Contents (Elt F)),
    nullary main_cst_6 (constant S_ .f32 0x3F60A940#32),
    unary main_cst_6 main_v23 (broadcastInDim S1024x100000 ![] bcast_S_S1024x100000 : (⟨S_, .f32⟩ : BufTy).Contents (Elt F) → (⟨S1024x100000, .f32⟩ : BufTy).Contents (Elt F)),
    binary main_v18 main_v23 main_v24 (mulf : (⟨S1024x100000, .f32⟩ : BufTy).Contents (Elt F) → (⟨S1024x100000, .f32⟩ : BufTy).Contents (Elt F) → (⟨S1024x100000, .f32⟩ : BufTy).Contents (Elt F)),
    nullary main_cst_7 (constant S_ .f32 0x3EF57744#32),
    unary main_cst_7 main_v25 (broadcastInDim S1024x100000 ![] bcast_S_S1024x100000 : (⟨S_, .f32⟩ : BufTy).Contents (Elt F) → (⟨S1024x100000, .f32⟩ : BufTy).Contents (Elt F)),
    binary main_v22 main_v25 main_v26 (mulf : (⟨S1024x100000, .f32⟩ : BufTy).Contents (Elt F) → (⟨S1024x100000, .f32⟩ : BufTy).Contents (Elt F) → (⟨S1024x100000, .f32⟩ : BufTy).Contents (Elt F)),
    binary main_v24 main_v26 main_v27 (subf : (⟨S1024x100000, .f32⟩ : BufTy).Contents (Elt F) → (⟨S1024x100000, .f32⟩ : BufTy).Contents (Elt F) → (⟨S1024x100000, .f32⟩ : BufTy).Contents (Elt F)) ]

/-- The fifth stretch: the threshold test and the margin's value. -/
abbrev opsA5 : List (HloOp τ sig (Elt F)) :=
  [ nullary main_cst_8 (constant S_ .f32 0xBF60A940#32),
    unary main_cst_8 main_v28 (broadcastInDim S1024x100000 ![] bcast_S_S1024x100000 : (⟨S_, .f32⟩ : BufTy).Contents (Elt F) → (⟨S1024x100000, .f32⟩ : BufTy).Contents (Elt F)),
    binary main_v18 main_v28 main_v29 (cmpf .ogt : (⟨S1024x100000, .f32⟩ : BufTy).Contents (Elt F) → (⟨S1024x100000, .f32⟩ : BufTy).Contents (Elt F) → (⟨S1024x100000, .i1⟩ : BufTy).Contents (Elt F)),
    nullary main_cst_9 (constant S_ .f32 0x3E757744#32),
    unary main_cst_9 main_v30 (broadcastInDim S1024x100000 ![] bcast_S_S1024x100000 : (⟨S_, .f32⟩ : BufTy).Contents (Elt F) → (⟨S1024x100000, .f32⟩ : BufTy).Contents (Elt F)),
    binary main_v18 main_v30 main_v31 (subf : (⟨S1024x100000, .f32⟩ : BufTy).Contents (Elt F) → (⟨S1024x100000, .f32⟩ : BufTy).Contents (Elt F) → (⟨S1024x100000, .f32⟩ : BufTy).Contents (Elt F)),
    TRef.ternary (TRef.of (T := ⟨S1024x100000, .i1⟩) main_v29) (TRef.of (T := ⟨S1024x100000, .f32⟩) main_v27) (TRef.of (T := ⟨S1024x100000, .f32⟩) main_v31) (TRef.of (T := ⟨S1024x100000, .f32⟩) main_v32) select ]

/-- The sixth stretch: the one-hot matrix of the labels. -/
abbrev opsA6 : List (HloOp τ sig (Elt F)) :=
  [ TRef.unary (TRef.of (T := ⟨S1024, .i32⟩) main_arg1) (TRef.of (T := ⟨S1024x1, .i32⟩) main_call2_v0) (broadcastInDim S1024x1 ![0] bcast_S1024_S1024x1_0),
    TRef.nullary (TRef.of (T := ⟨S1x100000, .i32⟩) main_call2_v1) (iotaInDim S1x100000 32 1),
    TRef.unary (TRef.of (T := ⟨S1024x1, .i32⟩) main_call2_v0) (TRef.of (T := ⟨S1024x100000, .i32⟩) main_call2_v2) (broadcastInDim S1024x100000 ![0, 1] bcast_S1024x1_S1024x100000_0_1),
    TRef.unary (TRef.of (T := ⟨S1x100000, .i32⟩) main_call2_v1) (TRef.of (T := ⟨S1024x100000, .i32⟩) main_call2_v3) (broadcastInDim S1024x100000 ![0, 1] bcast_S1x100000_S1024x100000_0_1),
    TRef.binary (TRef.of (T := ⟨S1024x100000, .i32⟩) main_call2_v2) (TRef.of (T := ⟨S1024x100000, .i32⟩) main_call2_v3) (TRef.of (T := ⟨S1024x100000, .i1⟩) main_call2_v4) (cmpi .eq),
    TRef.unary (TRef.of (T := ⟨S1024x100000, .i1⟩) main_call2_v4) (TRef.of (T := ⟨S1024x100000, .f32⟩) main_v33) (uitofp .f32) ]

/-- The seventh stretch: the logits. -/
abbrev opsA7 : List (HloOp τ sig (Elt F)) :=
  [ binary main_v33 main_v32 main_v34 (mulf : (⟨S1024x100000, .f32⟩ : BufTy).Contents (Elt F) → (⟨S1024x100000, .f32⟩ : BufTy).Contents (Elt F) → (⟨S1024x100000, .f32⟩ : BufTy).Contents (Elt F)),
    nullary main_cst_10 (constant S_ .f32 0x3F800000#32),
    unary main_cst_10 main_v35 (broadcastInDim S1024x100000 ![] bcast_S_S1024x100000 : (⟨S_, .f32⟩ : BufTy).Contents (Elt F) → (⟨S1024x100000, .f32⟩ : BufTy).Contents (Elt F)),
    binary main_v35 main_v33 main_v36 (subf : (⟨S1024x100000, .f32⟩ : BufTy).Contents (Elt F) → (⟨S1024x100000, .f32⟩ : BufTy).Contents (Elt F) → (⟨S1024x100000, .f32⟩ : BufTy).Contents (Elt F)),
    binary main_v36 main_v18 main_v37 (mulf : (⟨S1024x100000, .f32⟩ : BufTy).Contents (Elt F) → (⟨S1024x100000, .f32⟩ : BufTy).Contents (Elt F) → (⟨S1024x100000, .f32⟩ : BufTy).Contents (Elt F)),
    binary main_v34 main_v37 main_v38 (addf : (⟨S1024x100000, .f32⟩ : BufTy).Contents (Elt F) → (⟨S1024x100000, .f32⟩ : BufTy).Contents (Elt F) → (⟨S1024x100000, .f32⟩ : BufTy).Contents (Elt F)),
    nullary main_cst_11 (constant S_ .f32 0x42800000#32),
    unary main_cst_11 main_v39 (broadcastInDim S1024x100000 ![] bcast_S_S1024x100000 : (⟨S_, .f32⟩ : BufTy).Contents (Elt F) → (⟨S1024x100000, .f32⟩ : BufTy).Contents (Elt F)),
    binary main_v39 main_v38 main_v40 (mulf : (⟨S1024x100000, .f32⟩ : BufTy).Contents (Elt F) → (⟨S1024x100000, .f32⟩ : BufTy).Contents (Elt F) → (⟨S1024x100000, .f32⟩ : BufTy).Contents (Elt F)) ]

/-- The 64 operations are the seven stretches in a row. -/
theorem opsA_split : (opsA (F := F)) = opsA1 ++ (opsA2 ++ (opsA3 ++ (opsA4 ++ (opsA5 ++ (opsA6 ++ opsA7))))) := rfl

/-- After the first stretch the normalised embeddings' buffer holds its stage. -/
theorem stretchA1_v7 (W : Valuation τ sig (Elt F)) (x0 : (⟨S1024x512, .f32⟩ : BufTy).Contents (Elt F)) (h0 : W (Proc.devRef .tc main_arg0) = x0) :
    after (opsA1 (F := F)) W (Proc.devRef .tc main_v7) = val_main_v7 (F := F) x0 := by
  after_results_simp
  rw [h0]
  rfl

/-- The first stretch does not write the labels. -/
theorem stretchA1_arg1 (W : Valuation τ sig (Elt F)) :
    after (opsA1 (F := F)) W (Proc.devRef .tc main_arg1) = W (Proc.devRef .tc main_arg1) := by
  after_results_simp

/-- The first stretch does not write the class rows. -/
theorem stretchA1_arg2 (W : Valuation τ sig (Elt F)) :
    after (opsA1 (F := F)) W (Proc.devRef .tc main_arg2) = W (Proc.devRef .tc main_arg2) := by
  after_results_simp

/-- After the second stretch the transposed normalised class rows' buffer holds its stage. -/
theorem stretchA2_v16 (W : Valuation τ sig (Elt F)) (x2 : (⟨S100000x512, .f32⟩ : BufTy).Contents (Elt F)) (h2 : W (Proc.devRef .tc main_arg2) = x2) :
    after (opsA2 (F := F)) W (Proc.devRef .tc main_v16) = val_main_v16 (F := F) x2 := by
  after_results_simp
  rw [h2]
  rfl

/-- The second stretch does not write the labels. -/
theorem stretchA2_arg1 (W : Valuation τ sig (Elt F)) :
    after (opsA2 (F := F)) W (Proc.devRef .tc main_arg1) = W (Proc.devRef .tc main_arg1) := by
  after_results_simp

/-- The second stretch does not write the normalised embeddings. -/
theorem stretchA2_v7 (W : Valuation τ sig (Elt F)) :
    after (opsA2 (F := F)) W (Proc.devRef .tc main_v7) = W (Proc.devRef .tc main_v7) := by
  after_results_simp

/-- After the third stretch the clipped cosines' buffer holds its stage. -/
theorem stretchA3_v18 (W : Valuation τ sig (Elt F)) (x0 : (⟨S1024x512, .f32⟩ : BufTy).Contents (Elt F)) (x2 : (⟨S100000x512, .f32⟩ : BufTy).Contents (Elt F))
    (h7 : W (Proc.devRef .tc main_v7) = val_main_v7 (F := F) x0) (h16 : W (Proc.devRef .tc main_v16) = val_main_v16 (F := F) x2) :
    after (opsA3 (F := F)) W (Proc.devRef .tc main_v18) = val_main_v18 (F := F) x0 x2 := by
  after_results_simp
  rw [h7, h16]
  (try simp only [TRef.ofBuf, TRef.toBuf, cast_eq])
  rfl

/-- The third stretch does not write the labels. -/
theorem stretchA3_arg1 (W : Valuation τ sig (Elt F)) :
    after (opsA3 (F := F)) W (Proc.devRef .tc main_arg1) = W (Proc.devRef .tc main_arg1) := by
  after_results_simp

/-- After the fourth stretch the buffer of the cosine of the angle plus the margin holds its stage. -/
theorem stretchA4_v27 (W : Valuation τ sig (Elt F)) (x0 : (⟨S1024x512, .f32⟩ : BufTy).Contents (Elt F)) (x2 : (⟨S100000x512, .f32⟩ : BufTy).Contents (Elt F))
    (h18 : W (Proc.devRef .tc main_v18) = val_main_v18 (F := F) x0 x2) :
    after (opsA4 (F := F)) W (Proc.devRef .tc main_v27) = val_main_v27 (F := F) x0 x2 := by
  after_results_simp
  rw [h18]
  rfl

/-- The fourth stretch does not write the labels. -/
theorem stretchA4_arg1 (W : Valuation τ sig (Elt F)) :
    after (opsA4 (F := F)) W (Proc.devRef .tc main_arg1) = W (Proc.devRef .tc main_arg1) := by
  after_results_simp

/-- The fourth stretch does not write the clipped cosines. -/
theorem stretchA4_v18 (W : Valuation τ sig (Elt F)) :
    after (opsA4 (F := F)) W (Proc.devRef .tc main_v18) = W (Proc.devRef .tc main_v18) := by
  after_results_simp

/-- After the fifth stretch the margin's buffer holds its stage. -/
theorem stretchA5_v32 (W : Valuation τ sig (Elt F)) (x0 : (⟨S1024x512, .f32⟩ : BufTy).Contents (Elt F)) (x2 : (⟨S100000x512, .f32⟩ : BufTy).Contents (Elt F))
    (h18 : W (Proc.devRef .tc main_v18) = val_main_v18 (F := F) x0 x2) (h27 : W (Proc.devRef .tc main_v27) = val_main_v27 (F := F) x0 x2) :
    after (opsA5 (F := F)) W (Proc.devRef .tc main_v32) = val_main_v32 (F := F) x0 x2 := by
  after_results_simp
  rw [h18, h27]
  (try simp only [TRef.ofBuf, TRef.toBuf, cast_eq])
  rfl

/-- The fifth stretch does not write the labels. -/
theorem stretchA5_arg1 (W : Valuation τ sig (Elt F)) :
    after (opsA5 (F := F)) W (Proc.devRef .tc main_arg1) = W (Proc.devRef .tc main_arg1) := by
  after_results_simp

/-- The fifth stretch does not write the clipped cosines. -/
theorem stretchA5_v18 (W : Valuation τ sig (Elt F)) :
    after (opsA5 (F := F)) W (Proc.devRef .tc main_v18) = W (Proc.devRef .tc main_v18) := by
  after_results_simp

/-- After the sixth stretch the one-hot matrix's buffer holds its stage. -/
theorem stretchA6_v33 (W : Valuation τ sig (Elt F)) (x1 : (⟨S1024, .i32⟩ : BufTy).Contents (Elt F)) (h1 : W (Proc.devRef .tc main_arg1) = x1) :
    after (opsA6 (F := F)) W (Proc.devRef .tc main_v33) = val_main_v33 (F := F) x1 := by
  after_results_simp
  rw [h1]
  (try simp only [TRef.ofBuf, TRef.toBuf, cast_eq])
  rfl

/-- The sixth stretch does not write the labels. -/
theorem stretchA6_arg1 (W : Valuation τ sig (Elt F)) :
    after (opsA6 (F := F)) W (Proc.devRef .tc main_arg1) = W (Proc.devRef .tc main_arg1) := by
  after_results_simp

/-- The sixth stretch does not write the clipped cosines. -/
theorem stretchA6_v18 (W : Valuation τ sig (Elt F)) :
    after (opsA6 (F := F)) W (Proc.devRef .tc main_v18) = W (Proc.devRef .tc main_v18) := by
  after_results_simp

/-- The sixth stretch does not write the margin's value. -/
theorem stretchA6_v32 (W : Valuation τ sig (Elt F)) :
    after (opsA6 (F := F)) W (Proc.devRef .tc main_v32) = W (Proc.devRef .tc main_v32) := by
  after_results_simp

/-- After the seventh stretch the logits' buffer holds its stage. -/
theorem stretchA7_v40 (W : Valuation τ sig (Elt F)) (x0 : (⟨S1024x512, .f32⟩ : BufTy).Contents (Elt F)) (x1 : (⟨S1024, .i32⟩ : BufTy).Contents (Elt F)) (x2 : (⟨S100000x512, .f32⟩ : BufTy).Contents (Elt F))
    (h18 : W (Proc.devRef .tc main_v18) = val_main_v18 (F := F) x0 x2) (h32 : W (Proc.devRef .tc main_v32) = val_main_v32 (F := F) x0 x2)
    (h33 : W (Proc.devRef .tc main_v33) = val_main_v33 (F := F) x1) :
    after (opsA7 (F := F)) W (Proc.devRef .tc main_v40) = val_main_v40 (F := F) x0 x1 x2 := by
  after_results_simp
  rw [h18, h32, h33]
  rfl

/-- The seventh stretch does not write the labels. -/
theorem stretchA7_arg1 (W : Valuation τ sig (Elt F)) :
    after (opsA7 (F := F)) W (Proc.devRef .tc main_arg1) = W (Proc.devRef .tc main_arg1) := by
  after_results_simp

/-- They leave the logits' stage of the arguments in the logits' buffer. -/
theorem afterA_v40 (U : Valuation τ sig (Elt F)) :
    after (opsA (F := F)) U (Proc.devRef .tc main_v40)
      = val_main_v40 (F := F) (U (Proc.devRef .tc main_arg0)) (U (Proc.devRef .tc main_arg1)) (U (Proc.devRef .tc main_arg2)) := by
  rw [opsA_split, after_append, after_append, after_append, after_append, after_append, after_append]
  -- the valuations after one, two, … six stretches
  generalize hW1 : after (opsA1 (F := F)) U = W1
  generalize hW2 : after (opsA2 (F := F)) W1 = W2
  generalize hW3 : after (opsA3 (F := F)) W2 = W3
  generalize hW4 : after (opsA4 (F := F)) W3 = W4
  generalize hW5 : after (opsA5 (F := F)) W4 = W5
  generalize hW6 : after (opsA6 (F := F)) W5 = W6
  -- the first stretch: the normalised embeddings; the labels and the class rows are kept
  have e1_v7 : W1 (Proc.devRef .tc main_v7) = val_main_v7 (F := F) (U (Proc.devRef .tc main_arg0)) :=
    hW1 ▸ stretchA1_v7 U _ rfl
  have e1_arg1 : W1 (Proc.devRef .tc main_arg1) = U (Proc.devRef .tc main_arg1) := hW1 ▸ stretchA1_arg1 U
  have e1_arg2 : W1 (Proc.devRef .tc main_arg2) = U (Proc.devRef .tc main_arg2) := hW1 ▸ stretchA1_arg2 U
  -- the second: the transposed normalised class rows
  have e2_v16 : W2 (Proc.devRef .tc main_v16) = val_main_v16 (F := F) (U (Proc.devRef .tc main_arg2)) :=
    hW2 ▸ stretchA2_v16 W1 _ e1_arg2
  have e2_v7 : W2 (Proc.devRef .tc main_v7) = val_main_v7 (F := F) (U (Proc.devRef .tc main_arg0)) :=
    (hW2 ▸ stretchA2_v7 W1).trans e1_v7
  have e2_arg1 : W2 (Proc.devRef .tc main_arg1) = U (Proc.devRef .tc main_arg1) := (hW2 ▸ stretchA2_arg1 W1).trans e1_arg1
  -- the third: the clipped cosines
  have e3_v18 : W3 (Proc.devRef .tc main_v18)
      = val_main_v18 (F := F) (U (Proc.devRef .tc main_arg0)) (U (Proc.devRef .tc main_arg2)) :=
    hW3 ▸ stretchA3_v18 W2 _ _ e2_v7 e2_v16
  have e3_arg1 : W3 (Proc.devRef .tc main_arg1) = U (Proc.devRef .tc main_arg1) := (hW3 ▸ stretchA3_arg1 W2).trans e2_arg1
  -- the fourth: the cosine of the angle plus the margin
  have e4_v27 : W4 (Proc.devRef .tc main_v27)
      = val_main_v27 (F := F) (U (Proc.devRef .tc main_arg0)) (U (Proc.devRef .tc main_arg2)) :=
    hW4 ▸ stretchA4_v27 W3 _ _ e3_v18
  have e4_v18 : W4 (Proc.devRef .tc main_v18)
      = val_main_v18 (F := F) (U (Proc.devRef .tc main_arg0)) (U (Proc.devRef .tc main_arg2)) :=
    (hW4 ▸ stretchA4_v18 W3).trans e3_v18
  have e4_arg1 : W4 (Proc.devRef .tc main_arg1) = U (Proc.devRef .tc main_arg1) := (hW4 ▸ stretchA4_arg1 W3).trans e3_arg1
  -- the fifth: the margin's value
  have e5_v32 : W5 (Proc.devRef .tc main_v32)
      = val_main_v32 (F := F) (U (Proc.devRef .tc main_arg0)) (U (Proc.devRef .tc main_arg2)) :=
    hW5 ▸ stretchA5_v32 W4 _ _ e4_v18 e4_v27
  have e5_v18 : W5 (Proc.devRef .tc main_v18)
      = val_main_v18 (F := F) (U (Proc.devRef .tc main_arg0)) (U (Proc.devRef .tc main_arg2)) :=
    (hW5 ▸ stretchA5_v18 W4).trans e4_v18
  have e5_arg1 : W5 (Proc.devRef .tc main_arg1) = U (Proc.devRef .tc main_arg1) := (hW5 ▸ stretchA5_arg1 W4).trans e4_arg1
  -- the sixth: the one-hot matrix
  have e6_v33 : W6 (Proc.devRef .tc main_v33) = val_main_v33 (F := F) (U (Proc.devRef .tc main_arg1)) :=
    hW6 ▸ stretchA6_v33 W5 _ e5_arg1
  have e6_v32 : W6 (Proc.devRef .tc main_v32)
      = val_main_v32 (F := F) (U (Proc.devRef .tc main_arg0)) (U (Proc.devRef .tc main_arg2)) :=
    (hW6 ▸ stretchA6_v32 W5).trans e5_v32
  have e6_v18 : W6 (Proc.devRef .tc main_v18)
      = val_main_v18 (F := F) (U (Proc.devRef .tc main_arg0)) (U (Proc.devRef .tc main_arg2)) :=
    (hW6 ▸ stretchA6_v18 W5).trans e5_v18
  -- the seventh: the logits
  exact stretchA7_v40 W6 _ _ _ e6_v18 e6_v32 e6_v33

/-- They do not write the labels. -/
theorem afterA_arg1 (U : Valuation τ sig (Elt F)) :
    after (opsA (F := F)) U (Proc.devRef .tc main_arg1) = U (Proc.devRef .tc main_arg1) := by
  rw [opsA_split, after_append, after_append, after_append, after_append, after_append, after_append,
    stretchA7_arg1, stretchA6_arg1, stretchA5_arg1, stretchA4_arg1, stretchA3_arg1, stretchA2_arg1, stretchA1_arg1]

end Cert.ReferenceIdeal.RV

end
-- ==== Proof.RefStagesB.lean ====
/-
  The last 44 operations of the reference program (the log-softmax, the entry at the label, the negation, the mean),
  applied in order to a valuation that holds the logits and the labels, leave the result's stage in the result buffer;
  followed a stretch of operations at a time.
-/
import proofs.«422797_j35029753266820_1_alg».proof.Proof.RefRead
import Idealize.ShloMosaic.Lib.Pipeline.Frame
import Idealize.ShloMosaic.Lib.StableHlo.Run

noncomputable section

namespace Cert.ReferenceIdeal.RV

open Idealize.ShloMosaic Idealize.ShloMosaic.TcCoe Idealize.SL.Sem Idealize.ShloMosaic.StableHlo
open Cert.ReferenceIdeal Cert.ReferenceIdeal.Gen Cert.ReferenceIdeal.ReadP Cert.ReferenceIdeal.ValueP

variable {F : FTy → Type} [FloatOps F]

/-- The last 44 operations, in order. -/
abbrev opsB : List (HloOp τ sig (Elt F)) :=
  [     TRef.nullary (TRef.of (T := ⟨S_, .f32⟩) main_call3_cst) (constant S_ .f32 0xFF800000#32),
        TRef.binary (TRef.of (T := ⟨S1024x100000, .f32⟩) main_v40) (TRef.of (T := ⟨S_, .f32⟩) main_call3_cst) (TRef.of (T := ⟨S1024, .f32⟩) main_call3_v0) (fun x v => Host.reduce FloatOps.maximumf x v reducesTo_S1024x100000_S1024_d1 h_S_),
        TRef.nullary (TRef.of (T := ⟨S_, .f32⟩) main_call3_cst_0) (constant S_ .f32 0xFF800000#32),
        TRef.unary (TRef.of (T := ⟨S_, .f32⟩) main_call3_cst_0) (TRef.of (T := ⟨S1024, .f32⟩) main_call3_v1) (broadcastInDim S1024 ![] bcast_S_S1024),
        TRef.binary (TRef.of (T := ⟨S1024, .f32⟩) main_call3_v1) (TRef.of (T := ⟨S1024, .f32⟩) main_call3_v0) (TRef.of (T := ⟨S1024, .f32⟩) main_call3_v2) maximumf,
        TRef.unary (TRef.of (T := ⟨S1024, .f32⟩) main_call3_v2) (TRef.of (T := ⟨S1024x1, .f32⟩) main_call3_v3) (broadcastInDim S1024x1 ![0] bcast_S1024_S1024x1_0),
        TRef.unary (TRef.of (T := ⟨S1024x1, .f32⟩) main_call3_v3) (TRef.of (T := ⟨S1024x100000, .f32⟩) main_call3_v4) (broadcastInDim S1024x100000 ![0, 1] bcast_S1024x1_S1024x100000_0_1),
        TRef.binary (TRef.of (T := ⟨S1024x100000, .f32⟩) main_v40) (TRef.of (T := ⟨S1024x100000, .f32⟩) main_call3_v4) (TRef.of (T := ⟨S1024x100000, .f32⟩) main_call3_v5) subf,
        TRef.unary (TRef.of (T := ⟨S1024x100000, .f32⟩) main_call3_v5) (TRef.of (T := ⟨S1024x100000, .f32⟩) main_call3_v6) Host.exp,
        TRef.nullary (TRef.of (T := ⟨S_, .f32⟩) main_call3_cst_1) (constant S_ .f32 0x00000000#32),
        TRef.binary (TRef.of (T := ⟨S1024x100000, .f32⟩) main_call3_v6) (TRef.of (T := ⟨S_, .f32⟩) main_call3_cst_1) (TRef.of (T := ⟨S1024, .f32⟩) main_call3_v7) (fun x v => Host.reduceAdd x v reducesTo_S1024x100000_S1024_d1 h_S_),
        TRef.unary (TRef.of (T := ⟨S1024, .f32⟩) main_call3_v7) (TRef.of (T := ⟨S1024x1, .f32⟩) main_call3_v8) (broadcastInDim S1024x1 ![0] bcast_S1024_S1024x1_0),
        TRef.unary (TRef.of (T := ⟨S1024x1, .f32⟩) main_call3_v8) (TRef.of (T := ⟨S1024x1, .f32⟩) main_call3_v9) Host.log,
        TRef.unary (TRef.of (T := ⟨S1024x1, .f32⟩) main_call3_v9) (TRef.of (T := ⟨S1024x100000, .f32⟩) main_call3_v10) (broadcastInDim S1024x100000 ![0, 1] bcast_S1024x1_S1024x100000_0_1),
        TRef.binary (TRef.of (T := ⟨S1024x100000, .f32⟩) main_call3_v5) (TRef.of (T := ⟨S1024x100000, .f32⟩) main_call3_v10) (TRef.of (T := ⟨S1024x100000, .f32⟩) main_v41) subf,
        unary main_arg1 main_v42 (broadcastInDim S1024x1 ![0] bcast_S1024_S1024x1_0 : (⟨S1024, .i32⟩ : BufTy).Contents (Elt F) → (⟨S1024x1, .i32⟩ : BufTy).Contents (Elt F)),
        TRef.nullary (TRef.of (T := ⟨S_, .i32⟩) main_call4_c) (constantI S_ 32 0#32),
        TRef.unary (TRef.of (T := ⟨S_, .i32⟩) main_call4_c) (TRef.of (T := ⟨S1024x1, .i32⟩) main_call4_v0) (broadcastInDim S1024x1 ![] bcast_S_S1024x1),
        TRef.binary (TRef.of (T := ⟨S1024x1, .i32⟩) main_v42) (TRef.of (T := ⟨S1024x1, .i32⟩) main_call4_v0) (TRef.of (T := ⟨S1024x1, .i1⟩) main_call4_v1) (cmpi .slt),
        TRef.nullary (TRef.of (T := ⟨S_, .i32⟩) main_call4_c_0) (constantI S_ 32 100000#32),
        TRef.unary (TRef.of (T := ⟨S_, .i32⟩) main_call4_c_0) (TRef.of (T := ⟨S1024x1, .i32⟩) main_call4_v2) (broadcastInDim S1024x1 ![] bcast_S_S1024x1),
        TRef.binary (TRef.of (T := ⟨S1024x1, .i32⟩) main_v42) (TRef.of (T := ⟨S1024x1, .i32⟩) main_call4_v2) (TRef.of (T := ⟨S1024x1, .i32⟩) main_call4_v3) addi,
        TRef.ternary (TRef.of (T := ⟨S1024x1, .i1⟩) main_call4_v1) (TRef.of (T := ⟨S1024x1, .i32⟩) main_call4_v3) (TRef.of (T := ⟨S1024x1, .i32⟩) main_v42) (TRef.of (T := ⟨S1024x1, .i32⟩) main_call4_v4) select,
        TRef.reshape (TRef.of (T := ⟨S1024x1, .i32⟩) main_call4_v4) (TRef.of (T := ⟨S1024x1x1, .i32⟩) main_call4_v5) rfl shapeCasts_S1024x1_S1024x1x1,
        TRef.nullary (TRef.of (T := ⟨S1, .i32⟩) main_call4_c_1) (constantI S1 32 99999#32),
        TRef.nullary (TRef.of (T := ⟨S_, .i32⟩) main_call4_c_2) (constantI S_ 32 0#32),
        TRef.unary (TRef.of (T := ⟨S_, .i32⟩) main_call4_c_2) (TRef.of (T := ⟨S1024x1x1, .i32⟩) main_call4_v6) (broadcastInDim S1024x1x1 ![] bcast_S_S1024x1x1),
        TRef.binary (TRef.of (T := ⟨S1024x1x1, .i32⟩) main_call4_v5) (TRef.of (T := ⟨S1024x1x1, .i32⟩) main_call4_v6) (TRef.of (T := ⟨S1024x1x1, .i1⟩) main_call4_v7) (cmpi .sge),
        TRef.unary (TRef.of (T := ⟨S1, .i32⟩) main_call4_c_1) (TRef.of (T := ⟨S1x1x1, .i32⟩) main_call4_v8) (broadcastInDim S1x1x1 ![2] bcast_S1_S1x1x1_2),
        TRef.unary (TRef.of (T := ⟨S1x1x1, .i32⟩) main_call4_v8) (TRef.of (T := ⟨S1024x1x1, .i32⟩) main_call4_v9) (broadcastInDim S1024x1x1 ![0, 1, 2] bcast_S1x1x1_S1024x1x1_0_1_2),
        TRef.binary (TRef.of (T := ⟨S1024x1x1, .i32⟩) main_call4_v5) (TRef.of (T := ⟨S1024x1x1, .i32⟩) main_call4_v9) (TRef.of (T := ⟨S1024x1x1, .i1⟩) main_call4_v10) (cmpi .sle),
        TRef.binary (TRef.of (T := ⟨S1024x1x1, .i1⟩) main_call4_v7) (TRef.of (T := ⟨S1024x1x1, .i1⟩) main_call4_v10) (TRef.of (T := ⟨S1024x1x1, .i1⟩) main_call4_v11) andi,
        TRef.nullary (TRef.of (T := ⟨S_, .i1⟩) main_call4_c_3) (constantI S_ 1 1#1),
        TRef.binary (TRef.of (T := ⟨S1024x1x1, .i1⟩) main_call4_v11) (TRef.of (T := ⟨S_, .i1⟩) main_call4_c_3) (TRef.of (T := ⟨S1024x1, .i1⟩) main_call4_v12) (fun x v => Host.reduce IntOp.andi x v reducesTo_S1024x1x1_S1024x1_d2 h_S_),
        TRef.binary (TRef.of (T := ⟨S1024x100000, .f32⟩) main_v41) (TRef.of (T := ⟨S1024x1x1, .i32⟩) main_call4_v5) (TRef.of (T := ⟨S1024x1, .f32⟩) main_call4_v13) (fun x i => Host.gather gather_S1024x100000_S1024x1x1_S1024x1_n_1_0_0_1_2_11 x i),
        TRef.nullary (TRef.of (T := ⟨S_, .f32⟩) main_call4_cst) (constant S_ .f32 0x7FC00000#32),
        TRef.unary (TRef.of (T := ⟨S_, .f32⟩) main_call4_cst) (TRef.of (T := ⟨S1024x1, .f32⟩) main_call4_v14) (broadcastInDim S1024x1 ![] bcast_S_S1024x1),
        TRef.ternary (TRef.of (T := ⟨S1024x1, .i1⟩) main_call4_v12) (TRef.of (T := ⟨S1024x1, .f32⟩) main_call4_v13) (TRef.of (T := ⟨S1024x1, .f32⟩) main_call4_v14) (TRef.of (T := ⟨S1024x1, .f32⟩) main_v43) select,
        reshape main_v43 main_v44 rfl shapeCasts_S1024x1_S1024,
        unary main_v44 main_v45 (Host.negf : (⟨S1024, .f32⟩ : BufTy).Contents (Elt F) → (⟨S1024, .f32⟩ : BufTy).Contents (Elt F)),
        nullary main_cst_12 (constant S_ .f32 0x00000000#32),
        binary main_v45 main_cst_12 main_v46 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
        nullary main_cst_13 (constant S_ .f32 0x44800000#32),
        binary main_v46 main_cst_13 main_v47 (Host.divf : (⟨S_, .f32⟩ : BufTy).Contents (Elt F) → (⟨S_, .f32⟩ : BufTy).Contents (Elt F) → (⟨S_, .f32⟩ : BufTy).Contents (Elt F)) ]

/-! ## The first stretch, in three parts -/

/-- The row maximum of the logits, broadcast back over the row and subtracted: the shifted logits. -/
abbrev opsB1 : List (HloOp τ sig (Elt F)) :=
  [ TRef.nullary (TRef.of (T := ⟨S_, .f32⟩) main_call3_cst) (constant S_ .f32 0xFF800000#32),
    TRef.binary (TRef.of (T := ⟨S1024x100000, .f32⟩) main_v40) (TRef.of (T := ⟨S_, .f32⟩) main_call3_cst) (TRef.of (T := ⟨S1024, .f32⟩) main_call3_v0) (fun x v => Host.reduce FloatOps.maximumf x v reducesTo_S1024x100000_S1024_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S1024, .f32⟩) main_call3_v1) (broadcastInDim S1024 ![] bcast_S_S1024),
    TRef.binary (TRef.of (T := ⟨S1024, .f32⟩) main_call3_v1) (TRef.of (T := ⟨S1024, .f32⟩) main_call3_v0) (TRef.of (T := ⟨S1024, .f32⟩) main_call3_v2) maximumf,
    TRef.unary (TRef.of (T := ⟨S1024, .f32⟩) main_call3_v2) (TRef.of (T := ⟨S1024x1, .f32⟩) main_call3_v3) (broadcastInDim S1024x1 ![0] bcast_S1024_S1024x1_0),
    TRef.unary (TRef.of (T := ⟨S1024x1, .f32⟩) main_call3_v3) (TRef.of (T := ⟨S1024x100000, .f32⟩) main_call3_v4) (broadcastInDim S1024x100000 ![0, 1] bcast_S1024x1_S1024x100000_0_1),
    TRef.binary (TRef.of (T := ⟨S1024x100000, .f32⟩) main_v40) (TRef.of (T := ⟨S1024x100000, .f32⟩) main_call3_v4) (TRef.of (T := ⟨S1024x100000, .f32⟩) main_call3_v5) subf ]

/-- The row maximum of the logits. -/
abbrev opsB1a : List (HloOp τ sig (Elt F)) :=
  [ TRef.nullary (TRef.of (T := ⟨S_, .f32⟩) main_call3_cst) (constant S_ .f32 0xFF800000#32),
    TRef.binary (TRef.of (T := ⟨S1024x100000, .f32⟩) main_v40) (TRef.of (T := ⟨S_, .f32⟩) main_call3_cst) (TRef.of (T := ⟨S1024, .f32⟩) main_call3_v0) (fun x v => Host.reduce FloatOps.maximumf x v reducesTo_S1024x100000_S1024_d1 h_S_) ]

/-- The row maximum joined with minus infinity. -/
abbrev opsB1b : List (HloOp τ sig (Elt F)) :=
  [ TRef.nullary (TRef.of (T := ⟨S_, .f32⟩) main_call3_cst_0) (constant S_ .f32 0xFF800000#32),
    TRef.unary (TRef.of (T := ⟨S_, .f32⟩) main_call3_cst_0) (TRef.of (T := ⟨S1024, .f32⟩) main_call3_v1) (broadcastInDim S1024 ![] bcast_S_S1024),
    TRef.binary (TRef.of (T := ⟨S1024, .f32⟩) main_call3_v1) (TRef.of (T := ⟨S1024, .f32⟩) main_call3_v0) (TRef.of (T := ⟨S1024, .f32⟩) main_call3_v2) maximumf ]

/-- The joined maximum broadcast back over the row and subtracted from the logits. -/
abbrev opsB1c : List (HloOp τ sig (Elt F)) :=
  [ TRef.unary (TRef.of (T := ⟨S1024, .f32⟩) main_call3_v2) (TRef.of (T := ⟨S1024x1, .f32⟩) main_call3_v3) (broadcastInDim S1024x1 ![0] bcast_S1024_S1024x1_0),
    TRef.unary (TRef.of (T := ⟨S1024x1, .f32⟩) main_call3_v3) (TRef.of (T := ⟨S1024x100000, .f32⟩) main_call3_v4) (broadcastInDim S1024x100000 ![0, 1] bcast_S1024x1_S1024x100000_0_1),
    TRef.binary (TRef.of (T := ⟨S1024x100000, .f32⟩) main_v40) (TRef.of (T := ⟨S1024x100000, .f32⟩) main_call3_v4) (TRef.of (T := ⟨S1024x100000, .f32⟩) main_call3_v5) subf ]

/-- The first stretch is its three parts, one after the other. -/
theorem opsB1_split : opsB1 (F := F) = opsB1a ++ opsB1b ++ opsB1c := rfl

/-- After the first part the row maximum's buffer holds its stage. -/
theorem stretchB1a_v0 (W : Valuation τ sig (Elt F)) (x0 : (⟨S1024x512, .f32⟩ : BufTy).Contents (Elt F)) (x1 : (⟨S1024, .i32⟩ : BufTy).Contents (Elt F))
    (x2 : (⟨S100000x512, .f32⟩ : BufTy).Contents (Elt F))
    (h40 : W (Proc.devRef .tc main_v40) = val_main_v40 (F := F) x0 x1 x2) :
    after (opsB1a (F := F)) W (Proc.devRef .tc main_call3_v0) = val_main_call3_v0 (F := F) x0 x1 x2 := by
  after_results_simp
  simp only [TRef.ofBuf, TRef.toBuf, cast_eq]
  rw [h40]
  rfl

/-- The first part does not write the logits. -/
theorem stretchB1a_v40 (W : Valuation τ sig (Elt F)) :
    after (opsB1a (F := F)) W (Proc.devRef .tc main_v40) = W (Proc.devRef .tc main_v40) := by
  after_results_simp

/-- After the second part the joined maximum's buffer holds its stage. -/
theorem stretchB1b_v2 (W : Valuation τ sig (Elt F)) (x0 : (⟨S1024x512, .f32⟩ : BufTy).Contents (Elt F)) (x1 : (⟨S1024, .i32⟩ : BufTy).Contents (Elt F))
    (x2 : (⟨S100000x512, .f32⟩ : BufTy).Contents (Elt F))
    (h0 : W (Proc.devRef .tc main_call3_v0) = val_main_call3_v0 (F := F) x0 x1 x2) :
    after (opsB1b (F := F)) W (Proc.devRef .tc main_call3_v2) = val_main_call3_v2 (F := F) x0 x1 x2 := by
  after_results_simp
  simp only [TRef.ofBuf, TRef.toBuf, cast_eq]
  rw [h0]
  rfl

/-- The second part does not write the logits. -/
theorem stretchB1b_v40 (W : Valuation τ sig (Elt F)) :
    after (opsB1b (F := F)) W (Proc.devRef .tc main_v40) = W (Proc.devRef .tc main_v40) := by
  after_results_simp

/-- After the third part the shifted logits' buffer holds its stage. -/
theorem stretchB1c_v5 (W : Valuation τ sig (Elt F)) (x0 : (⟨S1024x512, .f32⟩ : BufTy).Contents (Elt F)) (x1 : (⟨S1024, .i32⟩ : BufTy).Contents (Elt F))
    (x2 : (⟨S100000x512, .f32⟩ : BufTy).Contents (Elt F))
    (h2 : W (Proc.devRef .tc main_call3_v2) = val_main_call3_v2 (F := F) x0 x1 x2)
    (h40 : W (Proc.devRef .tc main_v40) = val_main_v40 (F := F) x0 x1 x2) :
    after (opsB1c (F := F)) W (Proc.devRef .tc main_call3_v5) = val_main_call3_v5 (F := F) x0 x1 x2 := by
  after_results_simp
  simp only [TRef.ofBuf, TRef.toBuf, cast_eq]
  rw [h2, h40]
  rfl

/-- The first stretch leaves the shifted logits' stage in their buffer. -/
theorem stretchB1_v5 (W : Valuation τ sig (Elt F)) (x0 : (⟨S1024x512, .f32⟩ : BufTy).Contents (Elt F)) (x1 : (⟨S1024, .i32⟩ : BufTy).Contents (Elt F))
    (x2 : (⟨S100000x512, .f32⟩ : BufTy).Contents (Elt F))
    (h40 : W (Proc.devRef .tc main_v40) = val_main_v40 (F := F) x0 x1 x2) :
    after (opsB1 (F := F)) W (Proc.devRef .tc main_call3_v5) = val_main_call3_v5 (F := F) x0 x1 x2 := by
  rw [opsB1_split, StableHlo.after_append, StableHlo.after_append]
  have a0 := stretchB1a_v0 W x0 x1 x2 h40
  have a40 : after (opsB1a (F := F)) W (Proc.devRef .tc main_v40) = val_main_v40 (F := F) x0 x1 x2 := (stretchB1a_v40 W).trans h40
  have b2 := stretchB1b_v2 (after opsB1a W) x0 x1 x2 a0
  have b40 : after (opsB1b (F := F)) (after opsB1a W) (Proc.devRef .tc main_v40) = val_main_v40 (F := F) x0 x1 x2 :=
    (stretchB1b_v40 _).trans a40
  exact stretchB1c_v5 _ x0 x1 x2 b2 b40

/-- The first stretch does not write the labels. -/
theorem stretchB1_arg1 (W : Valuation τ sig (Elt F)) :
    after (opsB1 (F := F)) W (Proc.devRef .tc main_arg1) = W (Proc.devRef .tc main_arg1) := by
  after_results_simp

/-! ## The other four stretches -/

/-- The exponentials, their row sums, the logarithm, the log-softmax. -/
abbrev opsB2 : List (HloOp τ sig (Elt F)) :=
  [     TRef.unary (TRef.of (T := ⟨S1024x100000, .f32⟩) main_call3_v5) (TRef.of (T := ⟨S1024x100000, .f32⟩) main_call3_v6) Host.exp,
        TRef.nullary (TRef.of (T := ⟨S_, .f32⟩) main_call3_cst_1) (constant S_ .f32 0x00000000#32),
        TRef.binary (TRef.of (T := ⟨S1024x100000, .f32⟩) main_call3_v6) (TRef.of (T := ⟨S_, .f32⟩) main_call3_cst_1) (TRef.of (T := ⟨S1024, .f32⟩) main_call3_v7) (fun x v => Host.reduceAdd x v reducesTo_S1024x100000_S1024_d1 h_S_),
        TRef.unary (TRef.of (T := ⟨S1024, .f32⟩) main_call3_v7) (TRef.of (T := ⟨S1024x1, .f32⟩) main_call3_v8) (broadcastInDim S1024x1 ![0] bcast_S1024_S1024x1_0),
        TRef.unary (TRef.of (T := ⟨S1024x1, .f32⟩) main_call3_v8) (TRef.of (T := ⟨S1024x1, .f32⟩) main_call3_v9) Host.log,
        TRef.unary (TRef.of (T := ⟨S1024x1, .f32⟩) main_call3_v9) (TRef.of (T := ⟨S1024x100000, .f32⟩) main_call3_v10) (broadcastInDim S1024x100000 ![0, 1] bcast_S1024x1_S1024x100000_0_1),
        TRef.binary (TRef.of (T := ⟨S1024x100000, .f32⟩) main_call3_v5) (TRef.of (T := ⟨S1024x100000, .f32⟩) main_call3_v10) (TRef.of (T := ⟨S1024x100000, .f32⟩) main_v41) subf ]

/-- The label column and its wrap of a negative index. -/
abbrev opsB3 : List (HloOp τ sig (Elt F)) :=
  [     unary main_arg1 main_v42 (broadcastInDim S1024x1 ![0] bcast_S1024_S1024x1_0 : (⟨S1024, .i32⟩ : BufTy).Contents (Elt F) → (⟨S1024x1, .i32⟩ : BufTy).Contents (Elt F)),
        TRef.nullary (TRef.of (T := ⟨S_, .i32⟩) main_call4_c) (constantI S_ 32 0#32),
        TRef.unary (TRef.of (T := ⟨S_, .i32⟩) main_call4_c) (TRef.of (T := ⟨S1024x1, .i32⟩) main_call4_v0) (broadcastInDim S1024x1 ![] bcast_S_S1024x1),
        TRef.binary (TRef.of (T := ⟨S1024x1, .i32⟩) main_v42) (TRef.of (T := ⟨S1024x1, .i32⟩) main_call4_v0) (TRef.of (T := ⟨S1024x1, .i1⟩) main_call4_v1) (cmpi .slt),
        TRef.nullary (TRef.of (T := ⟨S_, .i32⟩) main_call4_c_0) (constantI S_ 32 100000#32),
        TRef.unary (TRef.of (T := ⟨S_, .i32⟩) main_call4_c_0) (TRef.of (T := ⟨S1024x1, .i32⟩) main_call4_v2) (broadcastInDim S1024x1 ![] bcast_S_S1024x1),
        TRef.binary (TRef.of (T := ⟨S1024x1, .i32⟩) main_v42) (TRef.of (T := ⟨S1024x1, .i32⟩) main_call4_v2) (TRef.of (T := ⟨S1024x1, .i32⟩) main_call4_v3) addi,
        TRef.ternary (TRef.of (T := ⟨S1024x1, .i1⟩) main_call4_v1) (TRef.of (T := ⟨S1024x1, .i32⟩) main_call4_v3) (TRef.of (T := ⟨S1024x1, .i32⟩) main_v42) (TRef.of (T := ⟨S1024x1, .i32⟩) main_call4_v4) select,
        TRef.reshape (TRef.of (T := ⟨S1024x1, .i32⟩) main_call4_v4) (TRef.of (T := ⟨S1024x1x1, .i32⟩) main_call4_v5) rfl shapeCasts_S1024x1_S1024x1x1 ]

/-- The range mask of the index column. -/
abbrev opsB4 : List (HloOp τ sig (Elt F)) :=
  [     TRef.nullary (TRef.of (T := ⟨S1, .i32⟩) main_call4_c_1) (constantI S1 32 99999#32),
        TRef.nullary (TRef.of (T := ⟨S_, .i32⟩) main_call4_c_2) (constantI S_ 32 0#32),
        TRef.unary (TRef.of (T := ⟨S_, .i32⟩) main_call4_c_2) (TRef.of (T := ⟨S1024x1x1, .i32⟩) main_call4_v6) (broadcastInDim S1024x1x1 ![] bcast_S_S1024x1x1),
        TRef.binary (TRef.of (T := ⟨S1024x1x1, .i32⟩) main_call4_v5) (TRef.of (T := ⟨S1024x1x1, .i32⟩) main_call4_v6) (TRef.of (T := ⟨S1024x1x1, .i1⟩) main_call4_v7) (cmpi .sge),
        TRef.unary (TRef.of (T := ⟨S1, .i32⟩) main_call4_c_1) (TRef.of (T := ⟨S1x1x1, .i32⟩) main_call4_v8) (broadcastInDim S1x1x1 ![2] bcast_S1_S1x1x1_2),
        TRef.unary (TRef.of (T := ⟨S1x1x1, .i32⟩) main_call4_v8) (TRef.of (T := ⟨S1024x1x1, .i32⟩) main_call4_v9) (broadcastInDim S1024x1x1 ![0, 1, 2] bcast_S1x1x1_S1024x1x1_0_1_2),
        TRef.binary (TRef.of (T := ⟨S1024x1x1, .i32⟩) main_call4_v5) (TRef.of (T := ⟨S1024x1x1, .i32⟩) main_call4_v9) (TRef.of (T := ⟨S1024x1x1, .i1⟩) main_call4_v10) (cmpi .sle),
        TRef.binary (TRef.of (T := ⟨S1024x1x1, .i1⟩) main_call4_v7) (TRef.of (T := ⟨S1024x1x1, .i1⟩) main_call4_v10) (TRef.of (T := ⟨S1024x1x1, .i1⟩) main_call4_v11) andi,
        TRef.nullary (TRef.of (T := ⟨S_, .i1⟩) main_call4_c_3) (constantI S_ 1 1#1),
        TRef.binary (TRef.of (T := ⟨S1024x1x1, .i1⟩) main_call4_v11) (TRef.of (T := ⟨S_, .i1⟩) main_call4_c_3) (TRef.of (T := ⟨S1024x1, .i1⟩) main_call4_v12) (fun x v => Host.reduce IntOp.andi x v reducesTo_S1024x1x1_S1024x1_d2 h_S_) ]

/-- The gather, the fill, the negation and the mean. -/
abbrev opsB5 : List (HloOp τ sig (Elt F)) :=
  [     TRef.binary (TRef.of (T := ⟨S1024x100000, .f32⟩) main_v41) (TRef.of (T := ⟨S1024x1x1, .i32⟩) main_call4_v5) (TRef.of (T := ⟨S1024x1, .f32⟩) main_call4_v13) (fun x i => Host.gather gather_S1024x100000_S1024x1x1_S1024x1_n_1_0_0_1_2_11 x i),
        TRef.nullary (TRef.of (T := ⟨S_, .f32⟩) main_call4_cst) (constant S_ .f32 0x7FC00000#32),
        TRef.unary (TRef.of (T := ⟨S_, .f32⟩) main_call4_cst) (TRef.of (T := ⟨S1024x1, .f32⟩) main_call4_v14) (broadcastInDim S1024x1 ![] bcast_S_S1024x1),
        TRef.ternary (TRef.of (T := ⟨S1024x1, .i1⟩) main_call4_v12) (TRef.of (T := ⟨S1024x1, .f32⟩) main_call4_v13) (TRef.of (T := ⟨S1024x1, .f32⟩) main_call4_v14) (TRef.of (T := ⟨S1024x1, .f32⟩) main_v43) select,
        reshape main_v43 main_v44 rfl shapeCasts_S1024x1_S1024,
        unary main_v44 main_v45 (Host.negf : (⟨S1024, .f32⟩ : BufTy).Contents (Elt F) → (⟨S1024, .f32⟩ : BufTy).Contents (Elt F)),
        nullary main_cst_12 (constant S_ .f32 0x00000000#32),
        binary main_v45 main_cst_12 main_v46 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
        nullary main_cst_13 (constant S_ .f32 0x44800000#32),
        binary main_v46 main_cst_13 main_v47 (Host.divf : (⟨S_, .f32⟩ : BufTy).Contents (Elt F) → (⟨S_, .f32⟩ : BufTy).Contents (Elt F) → (⟨S_, .f32⟩ : BufTy).Contents (Elt F)) ]

/-- The 44 operations are the five stretches, one after the other. -/
theorem opsB_split : (opsB (F := F)) = opsB1 ++ (opsB2 ++ (opsB3 ++ (opsB4 ++ opsB5))) := rfl

/-- After the second stretch the log-softmax's buffer holds its stage. -/
theorem stretchB2_v41 (W : Valuation τ sig (Elt F)) (x0 : (⟨S1024x512, .f32⟩ : BufTy).Contents (Elt F)) (x1 : (⟨S1024, .i32⟩ : BufTy).Contents (Elt F)) (x2 : (⟨S100000x512, .f32⟩ : BufTy).Contents (Elt F))
    (h5 : W (Proc.devRef .tc main_call3_v5) = val_main_call3_v5 (F := F) x0 x1 x2) :
    after (opsB2 (F := F)) W (Proc.devRef .tc main_v41) = val_main_v41 (F := F) x0 x1 x2 := by
  after_results_simp
  generalize W (Proc.devRef .tc main_call3_v5) = y at h5 ⊢
  subst h5
  (try simp only [TRef.ofBuf, TRef.toBuf, cast_eq])
  rfl

/-- The second stretch does not write the labels. -/
theorem stretchB2_arg1 (W : Valuation τ sig (Elt F)) :
    after (opsB2 (F := F)) W (Proc.devRef .tc main_arg1) = W (Proc.devRef .tc main_arg1) := by
  after_results_simp

/-- After the third stretch the index column's buffer holds its stage. -/
theorem stretchB3_v5 (W : Valuation τ sig (Elt F)) (x1 : (⟨S1024, .i32⟩ : BufTy).Contents (Elt F))
    (h1 : W (Proc.devRef .tc main_arg1) = x1) :
    after (opsB3 (F := F)) W (Proc.devRef .tc main_call4_v5) = val_main_call4_v5 (F := F) x1 := by
  after_results_simp
  generalize W (Proc.devRef .tc main_arg1) = y at h1 ⊢
  subst h1
  (try simp only [TRef.ofBuf, TRef.toBuf, cast_eq])
  rfl

/-- The third stretch does not write the log-softmax. -/
theorem stretchB3_v41 (W : Valuation τ sig (Elt F)) :
    after (opsB3 (F := F)) W (Proc.devRef .tc main_v41) = W (Proc.devRef .tc main_v41) := by
  after_results_simp

/-- After the fourth stretch the range mask's buffer holds its stage. -/
theorem stretchB4_v12 (W : Valuation τ sig (Elt F)) (x1 : (⟨S1024, .i32⟩ : BufTy).Contents (Elt F))
    (h5 : W (Proc.devRef .tc main_call4_v5) = val_main_call4_v5 (F := F) x1) :
    after (opsB4 (F := F)) W (Proc.devRef .tc main_call4_v12) = val_main_call4_v12 (F := F) x1 := by
  after_results_simp
  generalize W (Proc.devRef .tc main_call4_v5) = y at h5 ⊢
  subst h5
  (try simp only [TRef.ofBuf, TRef.toBuf, cast_eq])
  rfl

/-- The fourth stretch does not write the log-softmax. -/
theorem stretchB4_v41 (W : Valuation τ sig (Elt F)) :
    after (opsB4 (F := F)) W (Proc.devRef .tc main_v41) = W (Proc.devRef .tc main_v41) := by
  after_results_simp

/-- The fourth stretch does not write the index column. -/
theorem stretchB4_call4_v5 (W : Valuation τ sig (Elt F)) :
    after (opsB4 (F := F)) W (Proc.devRef .tc main_call4_v5) = W (Proc.devRef .tc main_call4_v5) := by
  after_results_simp

/-- After the fifth stretch the result buffer holds its stage. -/
theorem stretchB5_v47 (W : Valuation τ sig (Elt F)) (x0 : (⟨S1024x512, .f32⟩ : BufTy).Contents (Elt F)) (x1 : (⟨S1024, .i32⟩ : BufTy).Contents (Elt F)) (x2 : (⟨S100000x512, .f32⟩ : BufTy).Contents (Elt F))
    (h41 : W (Proc.devRef .tc main_v41) = val_main_v41 (F := F) x0 x1 x2)
    (h5 : W (Proc.devRef .tc main_call4_v5) = val_main_call4_v5 (F := F) x1)
    (h12 : W (Proc.devRef .tc main_call4_v12) = val_main_call4_v12 (F := F) x1) :
    after (opsB5 (F := F)) W (Proc.devRef .tc main_v47) = val_main_v47 (F := F) x0 x1 x2 := by
  after_results_simp
  generalize W (Proc.devRef .tc main_v41) = y41 at h41 ⊢
  generalize W (Proc.devRef .tc main_call4_v5) = y5 at h5 ⊢
  generalize W (Proc.devRef .tc main_call4_v12) = y12 at h12 ⊢
  subst h41 h5 h12
  (try simp only [TRef.ofBuf, TRef.toBuf, cast_eq])
  rfl

/-- From a valuation holding the logits' stage and the labels they leave the result's stage in the result buffer. -/
theorem afterB_v47 (U : Valuation τ sig (Elt F))
    (x0 : (⟨S1024x512, .f32⟩ : BufTy).Contents (Elt F)) (x1 : (⟨S1024, .i32⟩ : BufTy).Contents (Elt F))
    (x2 : (⟨S100000x512, .f32⟩ : BufTy).Contents (Elt F))
    (h40 : U (Proc.devRef .tc main_v40) = val_main_v40 (F := F) x0 x1 x2)
    (h1 : U (Proc.devRef .tc main_arg1) = x1) :
    after (opsB (F := F)) U (Proc.devRef .tc main_v47) = val_main_v47 (F := F) x0 x1 x2 := by
  rw [opsB_split, StableHlo.after_append, StableHlo.after_append, StableHlo.after_append, StableHlo.after_append]
  have a1 : after (opsB1 (F := F)) U (Proc.devRef .tc main_arg1) = x1 := (stretchB1_arg1 U).trans h1
  have a2 : after (opsB2 (F := F)) (after (opsB1 (F := F)) U) (Proc.devRef .tc main_arg1) = x1 := (stretchB2_arg1 _).trans a1
  have v41 := stretchB2_v41 (after (opsB1 (F := F)) U) x0 x1 x2 (stretchB1_v5 U x0 x1 x2 h40)
  have c5 := stretchB3_v5 (after (opsB2 (F := F)) (after (opsB1 (F := F)) U)) x1 a2
  have v41' := (stretchB3_v41 (after (opsB2 (F := F)) (after (opsB1 (F := F)) U))).trans v41
  exact stretchB5_v47 _ x0 x1 x2 ((stretchB4_v41 _).trans v41') ((stretchB4_call4_v5 _).trans c5) (stretchB4_v12 _ x1 c5)

end Cert.ReferenceIdeal.RV

end
-- ==== Proof.RefStages.lean ====
/-
  The reference program's operations applied in order leave in the result buffer the composition of its stages: the
  list is its first 64 operations followed by its last 44, and each part is followed by itself.
-/
import proofs.«422797_j35029753266820_1_alg».proof.Proof.RefStagesA
import proofs.«422797_j35029753266820_1_alg».proof.Proof.RefStagesB
import Idealize.ShloMosaic.Lib.Pipeline.Frame
import Idealize.ShloMosaic.Lib.StableHlo.Run

noncomputable section

namespace Cert.ReferenceIdeal.RV

open Idealize.ShloMosaic Idealize.ShloMosaic.TcCoe Idealize.SL.Sem Idealize.ShloMosaic.StableHlo
open Cert.ReferenceIdeal Cert.ReferenceIdeal.Gen Cert.ReferenceIdeal.ReadP Cert.ReferenceIdeal.ValueP

variable {F : FTy → Type} [FloatOps F]

/-- The operation list is the two parts, one after the other. -/
theorem ops_split : (ops (F := F)) = opsA (F := F) ++ opsB (F := F) := rfl

/-- What the operations leave in the result buffer is the last stage of the arguments. -/
theorem after_eq_val (m : (ℓ : Loc nD τ sig) → Buf (Elt F) ℓ) (c : Dev nD) :
    after (ops (F := F)) (launchContents m c) (Proc.devRef .tc main_v47)
      = val_main_v47 (F := F) (m ((c.tc : Thread nD τ).loc main_arg0)) (m ((c.tc : Thread nD τ).loc main_arg1))
          (m ((c.tc : Thread nD τ).loc main_arg2)) := by
  rw [ops_split, StableHlo.after_append]
  exact afterB_v47 _ _ _ _ (afterA_v40 _) (afterA_arg1 _)

end Cert.ReferenceIdeal.RV

end
-- ==== Proof.RDefs.lean ====
/-
  The reference program's arguments as plain tables: the embeddings X[b, d], the class rows W[j, d]; the hypothesis that
  every label word, read signed, is a class number; the labels as class numbers under it.
-/
import proofs.«422797_j35029753266820_1_alg».proof.Proof.RefRead
import proofs.«422797_j35029753266820_1_alg».proof.Proof.Spec

noncomputable section

namespace Cert.ReferenceIdeal.RV

open Idealize.ShloMosaic Idealize.ShloMosaic.TcCoe Idealize.SL.Sem Idealize.ShloMosaic.ValueIdx Idealize.ShloMosaic.StableHlo
open Cert.ReferenceIdeal Cert.ReferenceIdeal.Gen Cert.ReferenceIdeal.ReadP Cert.Arc

/-- The embeddings. -/
def Xt (x0 : (⟨S1024x512, .f32⟩ : BufTy).Contents (Elt Ideal)) : Fin 1024 → Fin 512 → EReal :=
  fun b d => x0 (ix2 b d)

/-- The class rows. -/
def Wt (x2 : (⟨S100000x512, .f32⟩ : BufTy).Contents (Elt Ideal)) : Fin 100000 → Fin 512 → EReal :=
  fun j d => x2 (ix2 j d)

/-- Every label, read signed, is a class number. -/
def LabelsOK (x1 : (⟨S1024, .i32⟩ : BufTy).Contents (Elt Ideal)) : Prop :=
  ∀ b : Fin 1024, 0 ≤ (x1 (ix1 b)).toInt ∧ (x1 (ix1 b)).toInt < 100000

/-- The labels as class numbers. -/
def labT (x1 : (⟨S1024, .i32⟩ : BufTy).Contents (Elt Ideal)) (h : LabelsOK x1) : Fin 1024 → Fin 100000 :=
  fun b => ⟨(x1 (ix1 b)).toInt.toNat, by have := h b; omega⟩

end Cert.ReferenceIdeal.RV

end
-- ==== Proof.RefLogits.lean ====
/-
  The reference's clipped cosines and logits read at (b, j): the embeddings and the class rows are divided row by row
  by their clamped norms, the matrix product of the one with the transpose of the other is the inner product of the
  normalised rows, clipped; the one-hot of the labels (an equality test of the label against the class number) selects the
  margin at the label's class and the plain cosine elsewhere, and the scale multiplies.
-/
import proofs.«422797_j35029753266820_1_alg».proof.Proof.RDefs
import Idealize.ShloMosaic.Lib.StableHlo.Predicate

noncomputable section

namespace Cert.ReferenceIdeal.RV

open Idealize.ShloMosaic Idealize.ShloMosaic.TcCoe Idealize.SL.Sem Idealize.ShloMosaic.ValueIdx Idealize.ShloMosaic.StableHlo
open Cert.ReferenceIdeal Cert.ReferenceIdeal.Gen Cert.ReferenceIdeal.ReadP Cert.Arc

/-! ## The composed index maps at coordinates -/

private theorem idx_v1_ix (b : Fin 1024) (k : Fin 512) : idx_main_v1 (ix1 b) k = ix2 b k :=
  funext fun a => Fin.ext (by match a with | ⟨0, _⟩ => rfl | ⟨1, _⟩ => rfl)
private theorem idx_v2_ix (b : Fin 1024) : idx_main_v2 (ix2 b (0 : Fin 1)) = ix1 b :=
  funext fun a => Fin.ext (by match a with | ⟨0, _⟩ => rfl)
private theorem idx_v6_ix (b : Fin 1024) (d : Fin 512) : idx_main_v6 (ix2 b d) = ix2 b (0 : Fin 1) :=
  funext fun a => Fin.ext (by match a with | ⟨0, _⟩ => rfl | ⟨1, _⟩ => rfl)
private theorem idx_v9_ix (j : Fin 100000) (k : Fin 512) : idx_main_v9 (ix1 j) k = ix2 j k :=
  funext fun a => Fin.ext (by match a with | ⟨0, _⟩ => rfl | ⟨1, _⟩ => rfl)
private theorem idx_v10_ix (j : Fin 100000) : idx_main_v10 (ix2 j (0 : Fin 1)) = ix1 j :=
  funext fun a => Fin.ext (by match a with | ⟨0, _⟩ => rfl)
private theorem idx_v14_ix (j : Fin 100000) (d : Fin 512) : idx_main_v14 (ix2 j d) = ix2 j (0 : Fin 1) :=
  funext fun a => Fin.ext (by match a with | ⟨0, _⟩ => rfl | ⟨1, _⟩ => rfl)
private theorem idx_v16_ix (k : Fin 512) (j : Fin 100000) : idx_main_v16 (ix2 k j) = ix2 j k :=
  funext fun a => Fin.ext (by match a with | ⟨0, _⟩ => rfl | ⟨1, _⟩ => rfl)
private theorem lidx_v17_ix (b : Fin 1024) (j : Fin 100000) (k : Fin 512) : lidx_main_v17 (ix2 b j) k = ix2 b k :=
  funext fun a => Fin.ext (by match a with | ⟨0, _⟩ => rfl | ⟨1, _⟩ => rfl)
private theorem ridx_v17_ix (b : Fin 1024) (j : Fin 100000) (k : Fin 512) : ridx_main_v17 (ix2 b j) k = ix2 k j :=
  funext fun a => Fin.ext (by match a with | ⟨0, _⟩ => rfl | ⟨1, _⟩ => rfl)

/-! ## The rows divided by their clamped norms -/

/-- The clamped norm of embedding row b. -/
private theorem embNorm (x0 : (⟨S1024x512, .f32⟩ : BufTy).Contents (Elt Ideal)) (b : Fin 1024) :
    val_main_v5 (F := Ideal) x0 (ix2 b (0 : Fin 1))
      = max (Ideal.sqrt (∑ k : Fin 512, Xt x0 b k * Xt x0 b k)) eps := by
  rw [val_main_v5_apply, val_main_v3_apply, val_main_v2_apply, val_main_v4_apply, val_main_cst_0_apply,
    idx_v2_ix, val_main_v1_apply, val_main_cst_apply]
  simp only [val_main_v0_apply, idx_v1_ix, Ideal.maximumf_def, Ideal.hostUnary_sqrt_def, Ideal.ofBits_def,
    Ideal.mulf_def, Ideal.ofBits_zero_f32, zero_add]
  rfl

/-- The normalised embedding at (b, d). -/
private theorem embUnit (x0 : (⟨S1024x512, .f32⟩ : BufTy).Contents (Elt Ideal)) (b : Fin 1024) (d : Fin 512) :
    val_main_v7 (F := Ideal) x0 (ix2 b d) = unitRow (Xt x0 b) d := by
  rw [val_main_v7_apply, val_main_v6_apply, idx_v6_ix, embNorm, Ideal.hostDivf_def]
  rfl

/-- The clamped norm of class row j. -/
private theorem clsNorm (x2 : (⟨S100000x512, .f32⟩ : BufTy).Contents (Elt Ideal)) (j : Fin 100000) :
    val_main_v13 (F := Ideal) x2 (ix2 j (0 : Fin 1))
      = max (Ideal.sqrt (∑ k : Fin 512, Wt x2 j k * Wt x2 j k)) eps := by
  rw [val_main_v13_apply, val_main_v11_apply, val_main_v10_apply, val_main_v12_apply, val_main_cst_2_apply,
    idx_v10_ix, val_main_v9_apply, val_main_cst_1_apply]
  simp only [val_main_v8_apply, idx_v9_ix, Ideal.maximumf_def, Ideal.hostUnary_sqrt_def, Ideal.ofBits_def,
    Ideal.mulf_def, Ideal.ofBits_zero_f32, zero_add]
  rfl

/-- The normalised class row at (j, d). -/
private theorem clsUnit (x2 : (⟨S100000x512, .f32⟩ : BufTy).Contents (Elt Ideal)) (j : Fin 100000) (d : Fin 512) :
    val_main_v15 (F := Ideal) x2 (ix2 j d) = unitRow (Wt x2 j) d := by
  rw [val_main_v15_apply, val_main_v14_apply, idx_v14_ix, clsNorm, Ideal.hostDivf_def]
  rfl

/-- The matrix product at (b, j): the inner product of the two normalised rows. -/
private theorem dotUnit (x0 : (⟨S1024x512, .f32⟩ : BufTy).Contents (Elt Ideal)) (x2 : (⟨S100000x512, .f32⟩ : BufTy).Contents (Elt Ideal))
    (b : Fin 1024) (j : Fin 100000) :
    val_main_v17 (F := Ideal) x0 x2 (ix2 b j) = ∑ d : Fin 512, unitRow (Xt x0 b) d * unitRow (Wt x2 j) d := by
  rw [val_main_v17_apply]
  refine Finset.sum_congr rfl fun k _ => ?_
  rw [lidx_v17_ix, ridx_v17_ix, val_main_v16_apply, idx_v16_ix, embUnit, clsUnit]

/-- The clipped cosine matrix at (b, j). -/
theorem cos_apply (x0 : (⟨S1024x512, .f32⟩ : BufTy).Contents (Elt Ideal)) (x2 : (⟨S100000x512, .f32⟩ : BufTy).Contents (Elt Ideal))
    (b : Fin 1024) (j : Fin 100000) :
    val_main_v18 (F := Ideal) x0 x2 (ix2 b j) = cosv (Xt x0) (Wt x2) b j := by
  rw [val_main_v18_apply, val_main_call0_v4_apply, val_main_call0_v3_apply, val_main_cst_4_apply,
    val_main_call0_v2_apply, val_main_call0_v1_apply, val_main_call0_v0_apply, val_main_cst_3_apply, dotUnit]
  simp only [Ideal.minimumf_def, Ideal.maximumf_def, Ideal.ofBits_def]
  rfl

/-! ## The margin -/

/-- A select on "the second is below the first" is the conditional on that order. -/
private theorem select_cmp_ogt {α : Type} (c y : EReal) (A B : α) :
    Scalar.select (Ideal.cmp .ogt c y) A B = if y < c then A else B := by
  by_cases hc : y < c
  · have e : Ideal.cmp .ogt c y = 1#1 := by
      show BitVec.ofBool (decide (y < c)) = 1#1
      rw [decide_eq_true hc]; rfl
    rw [e, select_one, if_pos hc]
  · have e : Ideal.cmp .ogt c y = 0#1 := by
      show BitVec.ofBool (decide (y < c)) = 0#1
      rw [decide_eq_false hc]; rfl
    rw [e, select_zero, if_neg hc]

/-- The margin stage at any index is the margin map of the clipped cosine there. -/
private theorem margin_apply (x0 : (⟨S1024x512, .f32⟩ : BufTy).Contents (Elt Ideal)) (x2 : (⟨S100000x512, .f32⟩ : BufTy).Contents (Elt Ideal))
    (i : S1024x100000.Idx) :
    val_main_v32 (F := Ideal) x0 x2 i = marginR (val_main_v18 (F := Ideal) x0 x2 i) := by
  rw [val_main_v32_apply, val_main_v29_apply, val_main_v28_apply, val_main_cst_8_apply,
    val_main_v27_apply, val_main_v24_apply, val_main_v23_apply, val_main_cst_6_apply,
    val_main_v26_apply, val_main_v22_apply, val_main_v21_apply, val_main_v20_apply, val_main_cst_5_apply,
    val_main_v19_apply, val_main_v25_apply, val_main_cst_7_apply,
    val_main_v31_apply, val_main_v30_apply, val_main_cst_9_apply]
  generalize val_main_v18 (F := Ideal) x0 x2 i = c
  simp only [Ideal.cmpf_def, Ideal.mulf_def, Ideal.subf_def, Ideal.hostUnary_sqrt_def, Ideal.ofBits_def]
  rw [select_cmp_ogt]
  rfl

/-! ## The one-hot of the labels -/

/-- Under the hypothesis on the labels, a label word is the word of class number j exactly when the label is j. -/
private theorem label_eq_iff (x1 : (⟨S1024, .i32⟩ : BufTy).Contents (Elt Ideal)) (h : LabelsOK x1) (b : Fin 1024) (j : Fin 100000) :
    (x1 (ix1 b) : BitVec 32) = BitVec.ofNat 32 j.val ↔ j = labT x1 h b := by
  have hb := h b
  have hj := j.isLt
  constructor
  · intro e
    apply Fin.ext
    show j.val = (x1 (ix1 b)).toInt.toNat
    rw [e, Predicate.toInt_ofNat_small j.val (by omega)]
    exact (Int.toNat_natCast _).symm
  · intro e
    have hv : j.val = (x1 (ix1 b)).toInt.toNat := congrArg Fin.val e
    have ht : (x1 (ix1 b)).toInt = (j.val : ℤ) := by omega
    calc (x1 (ix1 b) : BitVec 32) = BitVec.ofInt 32 (x1 (ix1 b)).toInt := (BitVec.ofInt_toInt).symm
      _ = BitVec.ofInt 32 (j.val : ℤ) := by rw [ht]
      _ = BitVec.ofNat 32 j.val := BitVec.ofInt_natCast 32 j.val

private theorem idx_c2_ix (b : Fin 1024) (j : Fin 100000) : idx_main_call2_v0 (idx_main_call2_v2 (ix2 b j)) = ix1 b :=
  funext fun a => Fin.ext (by match a with | ⟨0, _⟩ => rfl)

/-- The one-hot at (b, j): one at the label's class, zero elsewhere. -/
private theorem onehot_apply (x1 : (⟨S1024, .i32⟩ : BufTy).Contents (Elt Ideal)) (h : LabelsOK x1) (b : Fin 1024) (j : Fin 100000) :
    val_main_v33 (F := Ideal) x1 (ix2 b j) = if j = labT x1 h b then (1 : EReal) else 0 := by
  rw [val_main_v33_apply, val_main_call2_v4_apply, val_main_call2_v2_apply, val_main_call2_v0_apply,
    val_main_call2_v3_apply, val_main_call2_v1_apply, idx_c2_ix]
  show FloatOps.uitofp (F := Ideal) .f32 (IntOp.cmpi .eq (x1 (ix1 b)) (BitVec.ofNat 32 j.val)) = _
  by_cases hj : j = labT x1 h b
  · have e : IntOp.cmpi .eq (x1 (ix1 b) : BitVec 32) (BitVec.ofNat 32 j.val) = 1#1 :=
      Predicate.cmpi_eq_iff.mpr ((label_eq_iff x1 h b j).mpr hj)
    rw [e, if_pos hj]
    show (((1#1 : BitVec 1).toNat : ℝ) : EReal) = 1
    simp
  · have e : IntOp.cmpi .eq (x1 (ix1 b) : BitVec 32) (BitVec.ofNat 32 j.val) = 0#1 :=
      eq_zero_of_ne_one fun e1 => hj ((label_eq_iff x1 h b j).mp (Predicate.cmpi_eq_iff.mp e1))
    rw [e, if_neg hj]
    show (((0#1 : BitVec 1).toNat : ℝ) : EReal) = 0
    simp

/-! ## The logits -/

/-- The logits at (b, j), every label a class number. -/
theorem logits_apply (x0 : (⟨S1024x512, .f32⟩ : BufTy).Contents (Elt Ideal)) (x1 : (⟨S1024, .i32⟩ : BufTy).Contents (Elt Ideal))
    (x2 : (⟨S100000x512, .f32⟩ : BufTy).Contents (Elt Ideal)) (h : LabelsOK x1) (b : Fin 1024) (j : Fin 100000) :
    val_main_v40 (F := Ideal) x0 x1 x2 (ix2 b j) = logitR (cosv (Xt x0) (Wt x2) b) (labT x1 h b) j := by
  rw [val_main_v40_apply, val_main_v39_apply, val_main_cst_11_apply, val_main_v38_apply, val_main_v34_apply,
    val_main_v37_apply, val_main_v36_apply, val_main_v35_apply, val_main_cst_10_apply, margin_apply,
    onehot_apply x1 h, cos_apply]
  simp only [Ideal.mulf_def, Ideal.addf_def, Ideal.subf_def, Ideal.ofBits_def]
  rfl

end Cert.ReferenceIdeal.RV

end
-- ==== Proof.RefLoss.lean ====
/-
  The reference's result from its logits: the log-softmax along the classes (the row maximum subtracted, then the
  logarithm of the row's sum of exponentials subtracted), the entry at the label taken out of each row (every label a
  class number), negated, summed over the rows and divided by 1024.

  The row maximum is a fold of max from minus infinity over the 100000 classes, which is the supremum of the row; the
  maximum of that with minus infinity is the same. The take along the classes wraps a negative label by adding 100000,
  masks the labels outside [0, 99999] and gathers row b of the log-softmax at the wrapped label clamped into
  [0, 99999]: with every label a class number the wrap and the clamp return the label and the mask is one, so the
  entry taken is the log-softmax of row b at its label. Its negation is the row's loss.
-/
import proofs.«422797_j35029753266820_1_alg».proof.Proof.RefLogits
import proofs.«422797_j35029753266820_1_alg».proof.Proof.LibTakeFill
import Idealize.ShloMosaic.Lib.ValueLayout

noncomputable section

namespace Cert.ReferenceIdeal.RV

open Idealize.ShloMosaic Idealize.ShloMosaic.TcCoe Idealize.SL.Sem Idealize.ShloMosaic.ValueIdx Idealize.ShloMosaic.StableHlo
open Cert.ReferenceIdeal Cert.ReferenceIdeal.Gen Cert.ReferenceIdeal.ReadP Cert.Arc
open Idealize.ShloMosaic.TakeFill

namespace Loss

/-! ## The row maximum -/

/-- The reduced index of row b with the class number k put back is (b, k). -/
theorem lift_row (hr : S1024x100000.Reduces [1] S1024) (b : Fin 1024) (k : Fin (S1024x100000.size 1)) :
    hr.lift (ix1 b) k = ix2 b (⟨k.val, k.isLt⟩ : Fin 100000) := by
  funext c; apply Fin.ext
  fin_cases c <;> rfl

/-- The word of minus infinity denotes the least extended real. -/
theorem neg_inf_word : Ideal.ofBits .f32 0xFF800000#32 = (⊥ : EReal) := by
  simp [Ideal.ofBits, Ideal.ieee]

/-- The maximum-reduction of a matrix along the classes, started from minus infinity, is at row b the supremum of
    the row. -/
theorem reduce_max_row (y : (⟨S1024x100000, .f32⟩ : BufTy).Contents (Elt Ideal)) (b : Fin 1024) :
    Host.reduce (FloatOps.maximumf (F := Ideal) (φ := .f32)) y (val_main_call3_cst (F := Ideal)) reducesTo_S1024x100000_S1024_d1 h_S_ (ix1 b)
      = Finset.univ.sup fun j : Fin 100000 => y (ix2 b j) := by
  have hr : S1024x100000.Reduces [1] S1024 := by decide
  rw [Host.reduce_eq_fold_single (FloatOps.maximumf (F := Ideal) (φ := .f32)) y _ reducesTo_S1024x100000_S1024_d1 hr h_S_]
  have hbot : val_main_call3_cst (F := Ideal) (Shape.Idx.first h_S_) = (⊥ : EReal) := neg_inf_word
  rw [hbot]
  have hf : (y ∘ hr.lift (ix1 b)) = fun k : Fin 100000 => y (ix2 b k) :=
    funext fun k => congrArg y (lift_row hr b k)
  show Finset.fold max ⊥ (y ∘ hr.lift (ix1 b)) (Finset.univ : Finset (Fin 100000)) = _
  rw [hf]
  rfl

/-! ## The log-softmax along the classes -/

/-- The logits of row b. -/
abbrev rowLogits (x0 : (⟨S1024x512, .f32⟩ : BufTy).Contents (Elt Ideal)) (x1 : (⟨S1024, .i32⟩ : BufTy).Contents (Elt Ideal))
    (x2 : (⟨S100000x512, .f32⟩ : BufTy).Contents (Elt Ideal)) (h : LabelsOK x1) (b : Fin 1024) : Fin 100000 → EReal :=
  logitR (cosv (Xt x0) (Wt x2) b) (labT x1 h b)

section Softmax
variable (x0 : (⟨S1024x512, .f32⟩ : BufTy).Contents (Elt Ideal)) (x1 : (⟨S1024, .i32⟩ : BufTy).Contents (Elt Ideal))
  (x2 : (⟨S100000x512, .f32⟩ : BufTy).Contents (Elt Ideal)) (h : LabelsOK x1)

/-- The row maximum of the logits. -/
theorem rowmax_v0 (b : Fin 1024) :
    val_main_call3_v0 (F := Ideal) x0 x1 x2 (ix1 b) = Finset.univ.sup (rowLogits x0 x1 x2 h b) := by
  unfold val_main_call3_v0
  rw [reduce_max_row]
  exact congrArg (Finset.univ.sup) (funext fun j => logits_apply x0 x1 x2 h b j)

/-- The maximum with minus infinity changes nothing. -/
theorem rowmax_v2 (b : Fin 1024) :
    val_main_call3_v2 (F := Ideal) x0 x1 x2 (ix1 b) = Finset.univ.sup (rowLogits x0 x1 x2 h b) := by
  rw [val_main_call3_v2_apply, val_main_call3_v1_apply, val_main_call3_cst_0_apply, rowmax_v0 x0 x1 x2 h b]
  simp only [Ideal.maximumf_def, Ideal.ofBits_def, neg_inf_word]
  exact bot_sup_eq _

/-- The logits with their row maximum subtracted. -/
theorem shift_v5 (b : Fin 1024) (j : Fin 100000) :
    val_main_call3_v5 (F := Ideal) x0 x1 x2 (ix2 b j)
      = rowLogits x0 x1 x2 h b j - Finset.univ.sup (rowLogits x0 x1 x2 h b) := by
  have e4 : idx_main_call3_v4 (ix2 b j) = ix2 b (0 : Fin 1) :=
    funext fun a => Fin.ext (by match a with | ⟨0, _⟩ => rfl | ⟨1, _⟩ => rfl)
  have e3 : idx_main_call3_v3 (ix2 b (0 : Fin 1)) = ix1 b :=
    funext fun a => Fin.ext (by match a with | ⟨0, _⟩ => rfl)
  rw [val_main_call3_v5_apply, val_main_call3_v4_apply, e4, val_main_call3_v3_apply, e3, rowmax_v2 x0 x1 x2 h b,
    logits_apply x0 x1 x2 h b j]
  rfl

/-- The row's sum of the exponentials of the shifted logits. -/
theorem sum_v7 (b : Fin 1024) :
    val_main_call3_v7 (F := Ideal) x0 x1 x2 (ix1 b)
      = ∑ j : Fin 100000, Ideal.exp (rowLogits x0 x1 x2 h b j - Finset.univ.sup (rowLogits x0 x1 x2 h b)) := by
  have e7 : ∀ k : Fin 100000, idx_main_call3_v7 (ix1 b) k = ix2 b k := fun k =>
    funext fun a => Fin.ext (by match a with | ⟨0, _⟩ => rfl | ⟨1, _⟩ => rfl)
  rw [val_main_call3_v7_apply, val_main_call3_cst_1_apply]
  simp only [Ideal.ofBits_def, Ideal.ofBits_zero_f32, zero_add]
  refine Finset.sum_congr rfl fun k _ => ?_
  rw [e7 k, val_main_call3_v6_apply, shift_v5 x0 x1 x2 h b k]
  rfl

/-- The log-softmax at (b, j). -/
theorem lsm_v41 (b : Fin 1024) (j : Fin 100000) :
    val_main_v41 (F := Ideal) x0 x1 x2 (ix2 b j)
      = (rowLogits x0 x1 x2 h b j - Finset.univ.sup (rowLogits x0 x1 x2 h b))
        - Ideal.log (∑ j' : Fin 100000, Ideal.exp (rowLogits x0 x1 x2 h b j' - Finset.univ.sup (rowLogits x0 x1 x2 h b))) := by
  have e10 : idx_main_call3_v10 (ix2 b j) = ix2 b (0 : Fin 1) :=
    funext fun a => Fin.ext (by match a with | ⟨0, _⟩ => rfl | ⟨1, _⟩ => rfl)
  have e8 : idx_main_call3_v8 (ix2 b (0 : Fin 1)) = ix1 b :=
    funext fun a => Fin.ext (by match a with | ⟨0, _⟩ => rfl)
  rw [val_main_v41_apply, shift_v5 x0 x1 x2 h b j, val_main_call3_v10_apply, e10, val_main_call3_v9_apply,
    val_main_call3_v8_apply, e8, sum_v7 x0 x1 x2 h b]
  simp only [Ideal.subf_def, Ideal.hostUnary_log_def]

end Softmax

/-! ## The entry at the label -/

section Take
variable (x0 : (⟨S1024x512, .f32⟩ : BufTy).Contents (Elt Ideal)) (x1 : (⟨S1024, .i32⟩ : BufTy).Contents (Elt Ideal))
  (x2 : (⟨S100000x512, .f32⟩ : BufTy).Contents (Elt Ideal))

/-- The label column, wrapped when negative, holds at (b, 0) the label of row b: no label is negative. -/
theorem wrap_v4 (h : LabelsOK x1) (b : Fin 1024) (z : Fin 1) : val_main_call4_v4 (F := Ideal) x1 (ix2 b z) = x1 (ix1 b) := by
  have e42 : idx_main_v42 (ix2 b z) = ix1 b := funext fun a => Fin.ext (by match a with | ⟨0, _⟩ => rfl)
  rw [val_main_call4_v4_apply, val_main_call4_v1_apply, val_main_call4_v3_apply, val_main_v42_apply, e42,
    val_main_call4_v0_apply, val_main_call4_c_apply, val_main_call4_v2_apply, val_main_call4_c_0_apply]
  exact wrap_select (x1 (ix1 b)) 100000#32 (h b).1

/-- The same column with a unit axis added. -/
theorem wrap_v5 (h : LabelsOK x1) (b : Fin 1024) (z z' : Fin 1) : val_main_call4_v5 (F := Ideal) x1 (ix3 b z z') = x1 (ix1 b) := by
  have e5 : idx_main_call4_v5 (ix3 b z z') = ix2 b (0 : Fin 1) :=
    funext fun a => Fin.ext (by
      match a with
      | ⟨0, _⟩ =>
        show ((b.val * 1 + z.val) * 1 + z'.val) / 1 = b.val
        have := z.isLt; have := z'.isLt; omega
      | ⟨1, _⟩ => rfl)
  rw [val_main_call4_v5_apply, e5, wrap_v4 x1 h b 0]

/-- The range mask is one everywhere: every label is a class number. -/
theorem mask_v11 (h : LabelsOK x1) (i : S1024x1x1.Idx) : val_main_call4_v11 (F := Ideal) x1 i = 1#1 := by
  obtain ⟨b, z, z', rfl⟩ : ∃ (b : Fin 1024) (z z' : Fin 1), i = ix3 b z z' := ⟨i 0, i 1, i 2, eq_ix3 i⟩
  rw [val_main_call4_v11_apply, val_main_call4_v7_apply, val_main_call4_v10_apply, wrap_v5 x1 h b z z',
    val_main_call4_v6_apply, val_main_call4_c_2_apply, val_main_call4_v9_apply, val_main_call4_v8_apply,
    val_main_call4_c_1_apply]
  refine range_mask (x1 (ix1 b)) 99999#32 (h b).1 ?_
  have e : (99999#32 : BitVec 32).toInt = 99999 := by decide
  have := (h b).2
  omega

/-- Its "and" reduction over the unit axis is one. -/
theorem mask_v12 (h : LabelsOK x1) (i : S1024x1.Idx) : val_main_call4_v12 (F := Ideal) x1 i = 1#1 := by
  unfold val_main_call4_v12
  exact reduce_andi_ones _ _ reducesTo_S1024x1x1_S1024x1_d2 h_S_ (mask_v11 x1 h) (fun _ => rfl) i

/-- The gather along the classes, the rows paired off, read at (b, 0): row b of the operand at the class number the
    index word of row b denotes, read signed and clamped into [0, 99999]. On the row axis (a batching axis) the
    operand index is the result's row; on the class axis (collapsed, named by the start index map) it is the clamped
    start index, read at [b, 0, 0]. -/
theorem gather_label {α : Type} (y : S1024x100000.Idx → α) (idx : IVec S1024x1x1 32) (b : Fin 1024) :
    Host.gather gather_S1024x100000_S1024x1x1_S1024x1_n_1_0_0_1_2_11 y idx (ix2 b (0 : Fin 1))
      = y (ix2 b (⟨min (idx (ix3 b (0 : Fin 1) (0 : Fin 1))).toInt.toNat 99999, by omega⟩ : Fin 100000)) := by
  have h0b : (0 : Fin 2) ∈ gather_S1024x100000_S1024x1x1_S1024x1_n_1_0_0_1_2_11.operandBatchingDims :=
    List.mem_singleton.2 rfl
  have h1b : (1 : Fin 2) ∉ gather_S1024x100000_S1024x1x1_S1024x1_n_1_0_0_1_2_11.operandBatchingDims := by decide
  have h1m : (1 : Fin 2) ∈ gather_S1024x100000_S1024x1x1_S1024x1_n_1_0_0_1_2_11.startIndexMap :=
    List.mem_singleton.2 rfl
  have hk : ∀ a : Fin 2, a ∉ gather_S1024x100000_S1024x1x1_S1024x1_n_1_0_0_1_2_11.sKept := by decide
  unfold Host.gather
  congr 1
  funext a
  refine Fin.ext ?_
  match a with
  | ⟨0, _⟩ =>
    show gather_S1024x100000_S1024x1x1_S1024x1_n_1_0_0_1_2_11.start (ix2 b (0 : Fin 1)) idx 0
        + gather_S1024x100000_S1024x1x1_S1024x1_n_1_0_0_1_2_11.batchCoord (ix2 b (0 : Fin 1)) 0
        + gather_S1024x100000_S1024x1x1_S1024x1_n_1_0_0_1_2_11.offCoord (ix2 b (0 : Fin 1)) 0 = b.val
    rw [GatherDims.start_batching _ _ _ _ h0b, GatherDims.offCoord_eq_zero _ _ _ (hk 0)]
    unfold GatherDims.batchCoord
    rw [dif_pos h0b]
    simp only [Nat.zero_add, Nat.add_zero]
    rfl
  | ⟨1, _⟩ =>
    show gather_S1024x100000_S1024x1x1_S1024x1_n_1_0_0_1_2_11.start (ix2 b (0 : Fin 1)) idx 1
        + gather_S1024x100000_S1024x1x1_S1024x1_n_1_0_0_1_2_11.batchCoord (ix2 b (0 : Fin 1)) 1
        + gather_S1024x100000_S1024x1x1_S1024x1_n_1_0_0_1_2_11.offCoord (ix2 b (0 : Fin 1)) 1
      = min (idx (ix3 b (0 : Fin 1) (0 : Fin 1))).toInt.toNat 99999
    rw [GatherDims.batchCoord_eq_zero _ _ _ h1b, GatherDims.offCoord_eq_zero _ _ _ (hk 1)]
    unfold GatherDims.start
    rw [dif_pos h1m]
    have hsi : gather_S1024x100000_S1024x1x1_S1024x1_n_1_0_0_1_2_11.siIdx (ix2 b (0 : Fin 1))
        ⟨List.idxOf (1 : Fin 2) gather_S1024x100000_S1024x1x1_S1024x1_n_1_0_0_1_2_11.startIndexMap,
          List.idxOf_lt_length_iff.2 h1m⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-- The gathered column holds at (b, 0) the log-softmax of row b at its label. -/
theorem gather_v13 (h : LabelsOK x1) (b : Fin 1024) :
    val_main_call4_v13 (F := Ideal) x0 x1 x2 (ix2 b (0 : Fin 1))
      = val_main_v41 (F := Ideal) x0 x1 x2 (ix2 b (labT x1 h b)) := by
  unfold val_main_call4_v13
  generalize val_main_v41 (F := Ideal) x0 x1 x2 = y
  rw [gather_label y _ b]
  refine congrArg y (congrArg (fun j : Fin 100000 => ix2 b j) (Fin.ext ?_))
  show min (val_main_call4_v5 (F := Ideal) x1 (ix3 b (0 : Fin 1) (0 : Fin 1))).toInt.toNat 99999 = (x1 (ix1 b)).toInt.toNat
  rw [wrap_v5 x1 h b 0 0]
  have := h b
  omega

/-- The select on the mask keeps the gathered entry. -/
theorem take_v43 (h : LabelsOK x1) (b : Fin 1024) :
    val_main_v43 (F := Ideal) x0 x1 x2 (ix2 b (0 : Fin 1))
      = val_main_v41 (F := Ideal) x0 x1 x2 (ix2 b (labT x1 h b)) := by
  rw [val_main_v43_apply, mask_v12 x1 h, select_one, gather_v13 x0 x1 x2 h b]

end Take

/-! ## The mean of the row losses -/

/-- A sum over the row indices is the sum over the row numbers. -/
theorem sum_rows (f : S1024.Idx → EReal) : ∑ j : S1024.Idx, f j = ∑ b : Fin 1024, f (ix1 b) :=
  Fintype.sum_equiv ⟨fun j => j 0, fun b => ix1 b, fun j => (eq_ix1 j).symm, fun _ => rfl⟩ _ _
    fun j => congrArg f (eq_ix1 j)

/-- The negated entry at the label is the row's loss. -/
theorem neg_v45 (x0 : (⟨S1024x512, .f32⟩ : BufTy).Contents (Elt Ideal)) (x1 : (⟨S1024, .i32⟩ : BufTy).Contents (Elt Ideal))
    (x2 : (⟨S100000x512, .f32⟩ : BufTy).Contents (Elt Ideal)) (h : LabelsOK x1) (b : Fin 1024) :
    val_main_v45 (F := Ideal) x0 x1 x2 (ix1 b) = rowR (cosv (Xt x0) (Wt x2) b) (labT x1 h b) := by
  have e44 : idx_main_v44 (ix1 b) = ix2 b (0 : Fin 1) :=
    funext fun a => Fin.ext (by
      match a with
      | ⟨0, _⟩ => exact Nat.div_one _
      | ⟨1, _⟩ => rfl)
  rw [val_main_v45_apply, val_main_v44_apply, e44, take_v43 x0 x1 x2 h b, lsm_v41 x0 x1 x2 h b]
  simp only [Ideal.hostNegf_def, Ideal.negf_def]
  rfl

end Loss

open Loss in
/-- The reference's result is the mean row loss of the clipped cosines. -/
theorem ref_result (x0 : (⟨S1024x512, .f32⟩ : BufTy).Contents (Elt Ideal)) (x1 : (⟨S1024, .i32⟩ : BufTy).Contents (Elt Ideal))
    (x2 : (⟨S100000x512, .f32⟩ : BufTy).Contents (Elt Ideal)) (h : LabelsOK x1) :
    val_main_v47 (F := Ideal) x0 x1 x2 ix0 = resR (Xt x0) (Wt x2) (labT x1 h) := by
  rw [val_main_v47_apply, val_main_v46_apply, val_main_cst_12_apply, val_main_cst_13_apply, sum_rows]
  simp only [Ideal.hostDivf_def, Ideal.ofBits_def, Ideal.ofBits_zero_f32, zero_add]
  unfold resR nB
  exact congrArg (fun s => Ideal.div s (Ideal.ofBits .f32 0x44800000#32))
    (Finset.sum_congr rfl fun b _ => neg_v45 x0 x1 x2 h b)

end Cert.ReferenceIdeal.RV

end
-- ==== Proof.RefMain.lean ====
/-
  The reference program's run: every weakly fair execution ends with the result at the mean row loss (Spec.lean's resR)
  of the program's own arguments, the arguments unchanged, provided every label is a class number.
-/
import proofs.«422797_j35029753266820_1_alg».proof.Proof.RefStages
import proofs.«422797_j35029753266820_1_alg».proof.Proof.RefLoss

noncomputable section

namespace Cert.ReferenceIdeal.RV

open Idealize.ShloMosaic Idealize.ShloMosaic.TcCoe Idealize.SL.Sem Idealize.ShloMosaic.ValueIdx Idealize.ShloMosaic.StableHlo
open Cert.ReferenceIdeal Cert.ReferenceIdeal.Gen Cert.ReferenceIdeal.ReadP Cert.Arc

open Cert.ReferenceIdeal.ValueP

/-- The run, read. -/
theorem run (m : (ℓ : Loc nD τ sig) → Buf (Elt Ideal) ℓ) (ρ : Dev nD → PrngReg)
    (hL : ∀ c : Dev nD, LabelsOK (m ((c.tc : Thread nD τ).loc main_arg1))) :
    θ_run defs (onTc (τ := τ) (main (F := Ideal))) ⟨m, fun _ => 0, ρ⟩ fun r => ∀ c : Dev nD,
      r.2.mem ((c.tc : Thread nD τ).loc main_v47)
          = (fun _ => resR (Xt (m ((c.tc : Thread nD τ).loc main_arg0))) (Wt (m ((c.tc : Thread nD τ).loc main_arg2)))
              (labT (m ((c.tc : Thread nD τ).loc main_arg1)) (hL c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(h c).1.trans ((after_eq_val m c).trans (funext fun i => by rw [eq_ix0 i]; exact ref_result _ _ _ (hL c))), (h c).2⟩)
    (ValueP.run (F := Ideal) m ρ)

end Cert.ReferenceIdeal.RV

end
-- ==== Proof.Lits.lean ====
/-
  The float literals of the two programs as real numbers: each word of `Spec.lean` denotes a dyadic rational.
  lo = −(1 − 2⁻²³), hi = 1 − 2⁻²³; the margin's cosine and sine 14723392/2²⁴ and 16086852/2²⁵, its threshold
  the negative of the cosine, its linear offset 16086852/2²⁶; the scale 64; the batch size 1024; the floor under
  the logarithm 10633824·2⁻¹²³ (about 10⁻³⁰); the floor under a norm 9223372·2⁻⁶³ (about 10⁻¹²).
-/
import proofs.«422797_j35029753266820_1_alg».proof.Proof.Spec

noncomputable section

namespace Cert.Arc

open Idealize.ShloMosaic

def loR : ℝ := -(8388607 / 8388608)
def hiR : ℝ := 8388607 / 8388608
def cosMR : ℝ := 14723392 / 16777216
def sinMR : ℝ := 16086852 / 33554432
def thrR : ℝ := -(14723392 / 16777216)
def mmR : ℝ := 16086852 / 67108864
def tinyR : ℝ := 10633824 * (2 : ℝ) ^ (-123 : ℤ)
def epsR : ℝ := 9223372 * (2 : ℝ) ^ (-63 : ℤ)

theorem lo_eq : lo = ((loR : ℝ) : EReal) := by
  unfold lo loR; simp [Ideal.ofBits, Ideal.ieee, -EReal.coe_mul]; norm_num
theorem hi_eq : hi = ((hiR : ℝ) : EReal) := by
  unfold hi hiR; simp [Ideal.ofBits, Ideal.ieee, -EReal.coe_mul]; norm_num
theorem cosM_eq : cosM = ((cosMR : ℝ) : EReal) := by
  unfold cosM cosMR; simp [Ideal.ofBits, Ideal.ieee, -EReal.coe_mul]; norm_num
theorem sinM_eq : sinM = ((sinMR : ℝ) : EReal) := by
  unfold sinM sinMR; simp [Ideal.ofBits, Ideal.ieee, -EReal.coe_mul]; norm_num
theorem thr_eq : thr = ((thrR : ℝ) : EReal) := by
  unfold thr thrR; simp [Ideal.ofBits, Ideal.ieee, -EReal.coe_mul]; norm_num
theorem mm_eq : mm = ((mmR : ℝ) : EReal) := by
  unfold mm mmR; simp [Ideal.ofBits, Ideal.ieee, -EReal.coe_mul]; norm_num
theorem sc_eq : sc = ((64 : ℝ) : EReal) := by
  unfold sc; simp [Ideal.ofBits, Ideal.ieee, -EReal.coe_mul]; norm_num
theorem one_eq : one = ((1 : ℝ) : EReal) := by
  unfold one; simp [Ideal.ofBits, Ideal.ieee, -EReal.coe_mul]; norm_num
theorem nB_eq : nB = ((1024 : ℝ) : EReal) := by
  unfold nB; simp [Ideal.ofBits, Ideal.ieee, -EReal.coe_mul]; norm_num
theorem tiny_eq : tiny = ((tinyR : ℝ) : EReal) := by
  unfold tiny tinyR; simp [Ideal.ofBits, Ideal.ieee, -EReal.coe_mul]
theorem eps_eq : eps = ((epsR : ℝ) : EReal) := by
  unfold eps epsR; simp [Ideal.ofBits, Ideal.ieee, -EReal.coe_mul]
/-- The zero word denotes zero. -/
theorem zero_eq : Ideal.ofBits .f32 0x00000000#32 = 0 := by
  simp [Ideal.ofBits, Ideal.ieee]

end Cert.Arc

end
-- ==== Proof.MathDefs.lean ====
/-
  The two row losses as functions of real clipped cosines r_j ∈ [lo, hi] and the label l.

  φ(c) = c·cos m − √(1 − c²)·sin m above the threshold, c − mm below it.
  Kernel:    top = max(64·φ(r_l), max_j 64·r_j),
             T = Σ_j exp(64·r_j − top) − exp(64·r_l − top) + exp(64·φ(r_l) − top),
             loss = top + log(max(T, tiny)) − 64·φ(r_l).
  Reference: L_j = 64·([j = l]·φ(r_j) + (1 − [j = l])·r_j),  M = max_j L_j,
             loss = −((L_l − M) − log Σ_j exp(L_j − M)).
-/
import proofs.«422797_j35029753266820_1_alg».proof.Proof.Lits
import Mathlib.Analysis.SpecialFunctions.Log.Basic
import Mathlib.Analysis.SpecialFunctions.Sqrt

noncomputable section

namespace Cert.Arc

/-- The margin map on a real cosine. -/
def phiReal (c : ℝ) : ℝ :=
  if thrR < c then c * cosMR - Real.sqrt (1 - c * c) * sinMR else c - mmR

instance : Nonempty (Fin 100000) := ⟨⟨0, by norm_num⟩⟩

/-- The kernel's final running maximum: the scaled margin of the label against every scaled cosine. -/
def topK (r : Fin 100000 → ℝ) (l : Fin 100000) : ℝ :=
  max (64 * phiReal (r l)) (Finset.univ.sup' Finset.univ_nonempty fun j => 64 * r j)

/-- The kernel's corrected sum of exponentials. -/
def sumK (r : Fin 100000 → ℝ) (l : Fin 100000) : ℝ :=
  (∑ j : Fin 100000, Real.exp (64 * r j - topK r l)) - Real.exp (64 * r l - topK r l)
    + Real.exp (64 * phiReal (r l) - topK r l)

/-- The kernel's loss of a row, over the reals. -/
def rowKr (r : Fin 100000 → ℝ) (l : Fin 100000) : ℝ :=
  topK r l + Real.log (max (sumK r l) tinyR) - 64 * phiReal (r l)

/-- The reference's logit, over the reals. -/
def logitRr (r : Fin 100000 → ℝ) (l j : Fin 100000) : ℝ :=
  64 * ((if j = l then (1 : ℝ) else 0) * phiReal (r j) + (1 - (if j = l then (1 : ℝ) else 0)) * r j)

/-- The reference's loss of a row, over the reals. -/
def rowRr (r : Fin 100000 → ℝ) (l : Fin 100000) : ℝ :=
  -((logitRr r l l - Finset.univ.sup' Finset.univ_nonempty (logitRr r l))
      - Real.log (∑ j : Fin 100000, Real.exp (logitRr r l j - Finset.univ.sup' Finset.univ_nonempty (logitRr r l))))

end Cert.Arc

end
-- ==== Proof.MathK.lean ====
/-
  The kernel's row loss on real cosines: the streamed maximum and sum of the 50 blocks are the maximum over all classes
  (against the start value) and the sum over all classes of exponentials shifted by that maximum.
-/
import proofs.«422797_j35029753266820_1_alg».proof.Proof.MathDefs

noncomputable section

namespace Cert.Arc

open Idealize.ShloMosaic

/-! ## Coercions of finite maxima and sums -/

/-- The coercion of the reals into the extended reals commutes with the binary maximum. -/
private theorem coe_max_ereal (x y : ℝ) : ((max x y : ℝ) : EReal) = max (x : EReal) (y : EReal) :=
  EReal.coe_strictMono.monotone.map_max

/-- A finite sum of coerced reals is the coercion of the real sum. -/
private theorem coe_sum_ereal {ι : Type} (s : Finset ι) (f : ι → ℝ) :
    (∑ i ∈ s, ((f i : ℝ) : EReal)) = ((∑ i ∈ s, f i : ℝ) : EReal) := by
  classical
  refine Finset.induction_on s ?_ ?_
  · simp
  · intro a s ha ih
    rw [Finset.sum_insert ha, Finset.sum_insert ha, ih, EReal.coe_add]

/-- The supremum of coerced reals over a nonempty finite set is the coercion of the real supremum. -/
private theorem coe_sup_ereal {ι : Type} (s : Finset ι) (hs : s.Nonempty) (f : ι → ℝ) :
    s.sup (fun i => ((f i : ℝ) : EReal)) = ((s.sup' hs f : ℝ) : EReal) := by
  rw [← Finset.sup'_eq_sup hs]
  exact (Finset.apply_sup'_eq_sup'_comp hs (fun x : ℝ => (x : EReal)) (fun x y => coe_max_ereal x y)).symm

/-! ## The margin of a real cosine -/

/-- The scaled margin of a real cosine in [lo, hi] is the coercion of 64 φ(c): the radicand 1 − c² is nonnegative there. -/
theorem sc_marginK_coe (c : ℝ) (hc : loR ≤ c ∧ c ≤ hiR) :
    sc * marginK ((c : ℝ) : EReal) = ((64 * phiReal c : ℝ) : EReal) := by
  have h0 : 0 ≤ 1 - c * c := by
    have h1 : 0 ≤ 1 + c := by have := hc.1; unfold loR at this; linarith
    have h2 : 0 ≤ 1 - c := by have := hc.2; unfold hiR at this; linarith
    nlinarith [mul_nonneg h1 h2]
  unfold marginK phiReal
  rw [sc_eq, thr_eq, cosM_eq, sinM_eq, one_eq, mm_eq]
  by_cases h : thrR < c
  · rw [if_pos (EReal.coe_lt_coe_iff.mpr h), if_pos h, ← EReal.coe_mul, ← EReal.coe_mul, ← EReal.coe_sub,
      ← EReal.coe_zero, ← coe_max_ereal, max_eq_left h0, Ideal.sqrt_coe, if_neg (not_lt.mpr h0), ← EReal.coe_mul,
      ← EReal.coe_sub, ← EReal.coe_mul]
  · rw [if_neg (fun h' => h (EReal.coe_lt_coe_iff.mp h')), if_neg h, ← EReal.coe_sub, ← EReal.coe_mul]

/-! ## The streamed maximum and sum -/

/-- While the scaled cosines read so far are real, the running pair is real: the running maximum is the least upper bound
    of the start value and the terms read, and the running sum is the sum of their exponentials shifted by that maximum
    (one block rescales the old sum by exp(M − M′), and exp(M − M′) · exp(t − M) = exp(t − M′)). -/
theorem runML_coe (a : ℝ) (t : ℕ → ℝ) (s : ℕ → EReal) (N : ℕ)
    (hs : ∀ k, k < 2000 * N → s k = ((t k : ℝ) : EReal)) :
    ∀ n, n ≤ N → ∃ M L : ℝ, runML (a : EReal) s n = ((M : EReal), (L : EReal))
      ∧ (∀ x : ℝ, M ≤ x ↔ a ≤ x ∧ ∀ k, k < 2000 * n → t k ≤ x)
      ∧ L = ∑ k ∈ Finset.range (2000 * n), Real.exp (t k - M) := by
  intro n
  induction n with
  | zero =>
    intro _
    refine ⟨a, 0, ?_, ?_, ?_⟩
    · rw [EReal.coe_zero]; rfl
    · intro x; simp
    · simp
  | succ n ih =>
    intro hn
    obtain ⟨M, L, hrun, hM, hL⟩ := ih (Nat.le_of_succ_le hn)
    have hblk : ∀ q : Fin 2000, s (2000 * n + q.val) = ((t (2000 * n + q.val) : ℝ) : EReal) := by
      intro q; apply hs; have := q.isLt; omega
    obtain ⟨B, hB⟩ : ∃ B : ℝ, B = Finset.univ.sup' Finset.univ_nonempty (fun q : Fin 2000 => t (2000 * n + q.val)) :=
      ⟨_, rfl⟩
    have hsup : blkSup s n = ((B : ℝ) : EReal) := by
      unfold blkSup
      rw [show (fun q : Fin 2000 => s (2000 * n + q.val)) = fun q : Fin 2000 => ((t (2000 * n + q.val) : ℝ) : EReal)
        from funext hblk, hB]
      exact coe_sup_ereal _ _ _
    obtain ⟨M', hM'⟩ : ∃ M' : ℝ, M' = max M B := ⟨_, rfl⟩
    have hsum : blkSum s ((M' : ℝ) : EReal) n
        = ((∑ q : Fin 2000, Real.exp (t (2000 * n + q.val) - M') : ℝ) : EReal) := by
      unfold blkSum
      rw [← coe_sum_ereal]
      refine Finset.sum_congr rfl (fun q _ => ?_)
      rw [hblk q, ← EReal.coe_sub, Ideal.exp_coe]
    refine ⟨M', Real.exp (M - M') * L + ∑ q : Fin 2000, Real.exp (t (2000 * n + q.val) - M'), ?_, ?_, ?_⟩
    · show stepML s (runML (a : EReal) s n) n = _
      rw [hrun]
      unfold stepML
      simp only []
      rw [hsup, ← coe_max_ereal, ← hM', hsum, ← EReal.coe_sub, Ideal.exp_coe, ← EReal.coe_mul, ← EReal.coe_add]
    · intro x
      rw [hM', max_le_iff, hM x, hB, Finset.sup'_le_iff]
      constructor
      · rintro ⟨⟨ha, h1⟩, h2⟩
        refine ⟨ha, fun k hk => ?_⟩
        by_cases hk' : k < 2000 * n
        · exact h1 k hk'
        · have h3 := h2 ⟨k - 2000 * n, by omega⟩ (Finset.mem_univ _)
          have h4 : 2000 * n + (k - 2000 * n) = k := by omega
          simpa only [h4] using h3
      · rintro ⟨ha, h⟩
        exact ⟨⟨ha, fun k hk => h k (by omega)⟩, fun q _ => h _ (by have := q.isLt; omega)⟩
    · rw [hL, Finset.mul_sum, show 2000 * (n + 1) = 2000 * n + 2000 by ring, Finset.sum_range_add,
        Finset.sum_range (fun q => Real.exp (t (2000 * n + q) - M'))]
      congr 1
      refine Finset.sum_congr rfl (fun k _ => ?_)
      rw [← Real.exp_add]; congr 1; ring

/-! ## The row loss -/

/-- On real cosines in [lo, hi] the kernel's row loss (streamed, over the extended reals) is the real closed form. -/
theorem rowK_real (r : Fin 100000 → ℝ) (hr : ∀ j, loR ≤ r j ∧ r j ≤ hiR) (l : Fin 100000) :
    rowK (fun j => ((r j : ℝ) : EReal)) l = ((rowKr r l : ℝ) : EReal) := by
  have hinit : sc * marginK ((r l : ℝ) : EReal) = ((64 * phiReal (r l) : ℝ) : EReal) :=
    sc_marginK_coe (r l) (hr l)
  -- the scaled cosines as a real sequence (zero past the last class)
  obtain ⟨t, ht⟩ : ∃ t : ℕ → ℝ, t = fun k => if h : k < 100000 then r ⟨k, h⟩ * 64 else 0 := ⟨_, rfl⟩
  have htj : ∀ j : Fin 100000, t j.val = 64 * r j := by
    intro j; rw [ht]; simp only []; rw [dif_pos j.isLt, mul_comm]
  obtain ⟨M, L, hrun, hM, hL⟩ := runML_coe (64 * phiReal (r l)) t (sSeq fun j => ((r j : ℝ) : EReal)) 50
    (by intro k hk
        have hk' : k < 100000 := by omega
        unfold sSeq; rw [dif_pos hk', ht]; simp only []; rw [dif_pos hk', sc_eq, ← EReal.coe_mul]) 50 le_rfl
  -- the final running maximum is the maximum over all classes against the start value
  have hMtop : M = topK r l := by
    refine eq_of_forall_ge_iff (fun x => ?_)
    rw [hM x]; unfold topK; rw [max_le_iff, Finset.sup'_le_iff]
    constructor
    · rintro ⟨ha, h⟩
      exact ⟨ha, fun j _ => by rw [← htj j]; exact h j.val (by have := j.isLt; omega)⟩
    · rintro ⟨ha, h⟩
      refine ⟨ha, fun k hk => ?_⟩
      have hk' : k < 100000 := by omega
      have h1 := h ⟨k, hk'⟩ (Finset.mem_univ _)
      rw [← htj ⟨k, hk'⟩] at h1; exact h1
  -- the final running sum is the sum over all classes
  have hLsum : L = ∑ j : Fin 100000, Real.exp (64 * r j - topK r l) := by
    rw [hL, show 2000 * 50 = 100000 from rfl, Finset.sum_range (fun k => Real.exp (t k - M)), hMtop]
    exact Finset.sum_congr rfl (fun j _ => by rw [htj j])
  have htiny : 0 < tinyR := by unfold tinyR; positivity
  unfold rowK
  beta_reduce
  rw [hinit, hrun]
  simp only [sc_eq, tiny_eq, ← EReal.coe_mul, ← EReal.coe_sub, ← EReal.coe_add, Ideal.exp_coe, ← coe_max_ereal,
    Ideal.log_coe]
  rw [if_neg (not_le.mpr (lt_of_lt_of_le htiny (le_max_right _ _))), ← EReal.coe_add, ← EReal.coe_sub]
  unfold rowKr sumK
  rw [hMtop, hLsum]

end Cert.Arc

end
-- ==== Proof.MathR.lean ====
/-
  The reference's row loss on real cosines: every operation of the log-softmax stays inside the reals.
-/
import proofs.«422797_j35029753266820_1_alg».proof.Proof.MathDefs

noncomputable section

namespace Cert.Arc

open Idealize.ShloMosaic

/-! ## Finite suprema and sums of coerced reals -/

/-- The supremum of finitely many coerced reals, over a nonempty index set, is the coercion of the largest. -/
theorem sup_coe_real {ι : Type*} (s : Finset ι) (hs : s.Nonempty) (f : ι → ℝ) :
    s.sup (fun i => ((f i : ℝ) : EReal)) = ((s.sup' hs f : ℝ) : EReal) := by
  apply le_antisymm
  · apply Finset.sup_le
    intro i hi
    exact EReal.coe_le_coe_iff.mpr (Finset.le_sup' f hi)
  · obtain ⟨i, hi, h⟩ := Finset.exists_mem_eq_sup' hs f
    rw [h]
    exact Finset.le_sup (f := fun i => ((f i : ℝ) : EReal)) hi

/-- A finite sum of coerced reals is the coercion of the real sum. -/
theorem sum_coe_real {ι : Type*} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-! ## The log-softmax of real logits -/

/-- The negative log-softmax at `l` of real logits `L`, computed over the extended reals, is the real one:
    the largest logit is real, every shifted exponential is a positive real, so the logarithm is taken of a positive real. -/
theorem logSoftmax_real {ι : Type*} [Fintype ι] [Nonempty ι] (L : ι → ℝ) (l : ι) :
    -((((L l : ℝ) : EReal) - Finset.univ.sup (fun j => ((L j : ℝ) : EReal)))
        - Ideal.log (∑ j : ι, Ideal.exp (((L j : ℝ) : EReal) - Finset.univ.sup (fun j => ((L j : ℝ) : EReal)))))
      = ((-((L l - Finset.univ.sup' Finset.univ_nonempty L)
          - Real.log (∑ j : ι, Real.exp (L j - Finset.univ.sup' Finset.univ_nonempty L))) : ℝ) : EReal) := by
  rw [sup_coe_real Finset.univ Finset.univ_nonempty L]
  have hexp : ∀ j : ι, Ideal.exp (((L j : ℝ) : EReal) - ((Finset.univ.sup' Finset.univ_nonempty L : ℝ) : EReal))
      = ((Real.exp (L j - Finset.univ.sup' Finset.univ_nonempty L) : ℝ) : EReal) := by
    intro j
    rw [← EReal.coe_sub, Ideal.exp_coe]
  rw [Finset.sum_congr rfl (fun j _ => hexp j), sum_coe_real, Ideal.log_coe]
  have hpos : 0 < ∑ j : ι, Real.exp (L j - Finset.univ.sup' Finset.univ_nonempty L) :=
    Finset.sum_pos (fun j _ => Real.exp_pos _) Finset.univ_nonempty
  rw [if_neg (not_le.mpr hpos), ← EReal.coe_sub, ← EReal.coe_sub, ← EReal.coe_neg]

/-! ## The margin and the logits on real cosines -/

/-- On a real cosine in [lo, hi] the radicand 1 − c² is not negative, so the margin is the real margin. -/
theorem marginR_real (c : ℝ) (h1 : loR ≤ c) (h2 : c ≤ hiR) :
    marginR ((c : ℝ) : EReal) = ((phiReal c : ℝ) : EReal) := by
  have hrad : ¬ (1 - c * c < 0) := by
    unfold loR at h1
    unfold hiR at h2
    nlinarith
  unfold marginR phiReal
  rw [thr_eq, cosM_eq, sinM_eq, mm_eq, one_eq, ← EReal.coe_mul c c, ← EReal.coe_sub, Ideal.sqrt_coe,
    if_neg hrad]
  by_cases h : thrR < c
  · rw [if_pos h, if_pos (EReal.coe_lt_coe_iff.mpr h), ← EReal.coe_mul, ← EReal.coe_mul, ← EReal.coe_sub]
  · rw [if_neg h, if_neg (fun h' => h (EReal.coe_lt_coe_iff.mp h')), ← EReal.coe_sub]

/-- The reference's logit on real cosines in [lo, hi] is the real logit. -/
theorem logitR_real (r : Fin 100000 → ℝ) (hr : ∀ j, loR ≤ r j ∧ r j ≤ hiR) (l j : Fin 100000) :
    logitR (fun j => ((r j : ℝ) : EReal)) l j = ((logitRr r l j : ℝ) : EReal) := by
  have hind : (if j = l then (1 : EReal) else 0) = (((if j = l then (1 : ℝ) else 0) : ℝ) : EReal) := by
    by_cases h : j = l
    · rw [if_pos h, if_pos h, EReal.coe_one]
    · rw [if_neg h, if_neg h, EReal.coe_zero]
  unfold logitR logitRr
  rw [sc_eq, one_eq, hind, marginR_real (r j) (hr j).1 (hr j).2, ← EReal.coe_mul, ← EReal.coe_sub,
    ← EReal.coe_mul, ← EReal.coe_add, ← EReal.coe_mul]

/-- On real cosines in [lo, hi] the reference's row loss (over the extended reals) is the real closed form. -/
theorem rowR_real (r : Fin 100000 → ℝ) (hr : ∀ j, loR ≤ r j ∧ r j ≤ hiR) (l : Fin 100000) :
    rowR (fun j => ((r j : ℝ) : EReal)) l = ((rowRr r l : ℝ) : EReal) := by
  have hL : logitR (fun j => ((r j : ℝ) : EReal)) l = fun j => ((logitRr r l j : ℝ) : EReal) :=
    funext (logitR_real r hr l)
  unfold rowR rowRr
  rw [hL]
  exact logSoftmax_real (logitRr r l) l

end Cert.Arc

end
-- ==== Proof.MathCore.lean ====
/-
  The two real closed forms agree: the kernel's corrected sum is the reference's sum of exponentials of the logits,
  shifted by another constant; it is at least the floor under the logarithm; and m + log Σ exp(L_j − m) does not
  depend on m.
-/
import proofs.«422797_j35029753266820_1_alg».proof.Proof.MathDefs
import Mathlib.Analysis.SpecialFunctions.Exp
import Mathlib.Analysis.SpecialFunctions.Log.Basic
import Mathlib.Analysis.SpecialFunctions.Sqrt
import Mathlib.Analysis.Complex.ExponentialBounds
import Mathlib.Algebra.BigOperators.Group.Finset.Basic
import Mathlib.Algebra.Order.BigOperators.Group.Finset
import Mathlib.Tactic.NormNum
import Mathlib.Tactic.Linarith
import Mathlib.Tactic.Positivity
import Mathlib.Tactic.Ring

noncomputable section

namespace Cert.Arc

/-! ### Sums of exponentials over an arbitrary finite index type -/

section Abstract

variable {ι : Type*} [Fintype ι] [DecidableEq ι]

/-- Taking the l-th term exp(f l − a) out of Σ_j exp(f j − a) and putting exp(p − a) in its place gives the sum of
exponentials of the family that is p at l and f elsewhere. -/
theorem sum_exp_replace (f : ι → ℝ) (l : ι) (p a : ℝ) :
    (∑ j, Real.exp (f j - a)) - Real.exp (f l - a) + Real.exp (p - a)
      = ∑ j, Real.exp ((if j = l then p else f j) - a) := by
  have h1 : ∑ j, Real.exp (f j - a)
      = Real.exp (f l - a) + ∑ j ∈ Finset.univ.erase l, Real.exp (f j - a) :=
    (Finset.add_sum_erase Finset.univ (fun j => Real.exp (f j - a)) (Finset.mem_univ l)).symm
  have h2 : ∑ j, Real.exp ((if j = l then p else f j) - a)
      = Real.exp (p - a) + ∑ j ∈ Finset.univ.erase l, Real.exp ((if j = l then p else f j) - a) := by
    have := (Finset.add_sum_erase Finset.univ (fun j => Real.exp ((if j = l then p else f j) - a))
      (Finset.mem_univ l)).symm
    simpa using this
  have h3 : ∑ j ∈ Finset.univ.erase l, Real.exp ((if j = l then p else f j) - a)
      = ∑ j ∈ Finset.univ.erase l, Real.exp (f j - a) := by
    refine Finset.sum_congr rfl fun j hj => ?_
    rw [if_neg (Finset.ne_of_mem_erase hj)]
  rw [h1, h2, h3]; ring

/-- a + log Σ_j exp(L j − a) is the same for every a: exp(L j − a) = exp(b − a)·exp(L j − b), and the logarithm of the
product of two positive numbers is the sum of their logarithms. -/
theorem lse_shift [Nonempty ι] (L : ι → ℝ) (a b : ℝ) :
    a + Real.log (∑ j, Real.exp (L j - a)) = b + Real.log (∑ j, Real.exp (L j - b)) := by
  have hpos : 0 < ∑ j, Real.exp (L j - b) :=
    Finset.sum_pos (fun j _ => Real.exp_pos _) Finset.univ_nonempty
  have h : ∑ j, Real.exp (L j - a) = Real.exp (b - a) * ∑ j, Real.exp (L j - b) := by
    rw [Finset.mul_sum]
    refine Finset.sum_congr rfl fun j _ => ?_
    rw [← Real.exp_add]; congr 1; ring
  rw [h, Real.log_mul (Real.exp_pos _).ne' hpos.ne', Real.log_exp]; ring

/-- One term of the sum of exponentials is at least exp(−40): where the running maximum is p the term of l is 1; where
it is f k for some k ≠ l the term of k is 1; where it is f l the term of l is exp(p − f l). -/
theorem sum_exp_ge [Nonempty ι] (f : ι → ℝ) (l : ι) (p : ℝ) (hp : -40 ≤ p - f l) :
    Real.exp (-40) ≤ ∑ j, Real.exp ((if j = l then p else f j)
      - max p (Finset.univ.sup' Finset.univ_nonempty f)) := by
  have key : ∃ k, -40 ≤ (if k = l then p else f k) - max p (Finset.univ.sup' Finset.univ_nonempty f) := by
    rcases le_total (Finset.univ.sup' Finset.univ_nonempty f) p with h | h
    · refine ⟨l, ?_⟩
      rw [if_pos rfl, max_eq_left h]; norm_num
    · obtain ⟨k, -, hk⟩ := Finset.exists_mem_eq_sup' Finset.univ_nonempty f
      refine ⟨k, ?_⟩
      rw [max_eq_right h, hk]
      by_cases hkl : k = l
      · rw [if_pos hkl, hkl]; exact hp
      · rw [if_neg hkl]; norm_num
  obtain ⟨k, hk⟩ := key
  calc Real.exp (-40)
      ≤ Real.exp ((if k = l then p else f k) - max p (Finset.univ.sup' Finset.univ_nonempty f)) :=
        Real.exp_le_exp.mpr hk
    _ ≤ ∑ j, Real.exp ((if j = l then p else f j) - max p (Finset.univ.sup' Finset.univ_nonempty f)) :=
        Finset.single_le_sum
          (f := fun j => Real.exp ((if j = l then p else f j) - max p (Finset.univ.sup' Finset.univ_nonempty f)))
          (fun j _ => (Real.exp_pos _).le) (Finset.mem_univ k)

/-- The two closed forms over an arbitrary finite index type: with the floor at most exp(−40) and p − f l ≥ −40, the
corrected sum is the sum of exponentials of the family L (p at l, f elsewhere) shifted by the running maximum, the
floor under the logarithm is not reached, and the shift may be replaced by the maximum of L. -/
theorem lse_core [Nonempty ι] (f : ι → ℝ) (l : ι) (p tiny : ℝ) (hp : -40 ≤ p - f l)
    (htiny : tiny ≤ Real.exp (-40)) :
    max p (Finset.univ.sup' Finset.univ_nonempty f)
        + Real.log (max ((∑ j, Real.exp (f j - max p (Finset.univ.sup' Finset.univ_nonempty f)))
            - Real.exp (f l - max p (Finset.univ.sup' Finset.univ_nonempty f))
            + Real.exp (p - max p (Finset.univ.sup' Finset.univ_nonempty f))) tiny) - p
      = -((p - Finset.univ.sup' Finset.univ_nonempty (fun j => if j = l then p else f j))
          - Real.log (∑ j, Real.exp ((if j = l then p else f j)
              - Finset.univ.sup' Finset.univ_nonempty (fun j => if j = l then p else f j)))) := by
  rw [sum_exp_replace, max_eq_left (htiny.trans (sum_exp_ge f l p hp)),
    lse_shift (fun j => if j = l then p else f j) _
      (Finset.univ.sup' Finset.univ_nonempty (fun j => if j = l then p else f j))]
  ring

end Abstract

/-! ### The numeric facts -/

/-- The margin map lowers a cosine of [lo, hi] by less than 0.61: above the threshold
φ(c) − c = c(cos m − 1) − √(1 − c²)·sin m ≥ −(1 − cos m) − sin m, below it φ(c) − c = −mm. -/
theorem phiReal_sub_ge (c : ℝ) (h1 : loR ≤ c) (h2 : c ≤ hiR) : -(61 / 100) ≤ phiReal c - c := by
  unfold loR at h1
  unfold hiR at h2
  unfold phiReal
  split_ifs with h
  · have hs0 : 0 ≤ Real.sqrt (1 - c * c) := Real.sqrt_nonneg _
    have hs1 : Real.sqrt (1 - c * c) ≤ 1 := by
      rw [Real.sqrt_le_one]; nlinarith [mul_self_nonneg c]
    unfold cosMR sinMR
    linarith
  · unfold mmR
    norm_num

/-- The floor under the logarithm is below exp(−40): exp 40 = (exp 1)⁴⁰ ≤ 3⁴⁰ and 10633824·3⁴⁰ ≤ 2¹²³. -/
theorem tinyR_le_exp : tinyR ≤ Real.exp (-40) := by
  have h40 : Real.exp 40 ≤ 3 ^ 40 := by
    have h : Real.exp 40 = Real.exp 1 ^ 40 := by
      rw [← Real.exp_nat_mul]; norm_num
    rw [h]
    exact pow_le_pow_left₀ (Real.exp_pos 1).le Real.exp_one_lt_three.le 40
  have h1 : tinyR ≤ ((3 : ℝ) ^ 40)⁻¹ := by
    unfold tinyR; norm_num
  have h2 : ((3 : ℝ) ^ 40)⁻¹ ≤ (Real.exp 40)⁻¹ := inv_anti₀ (Real.exp_pos _) h40
  rw [Real.exp_neg]
  exact h1.trans h2

/-! ### The two row losses -/

/-- The reference's logit is the scaled margin at the label and the scaled cosine elsewhere. -/
theorem logitRr_eq (r : Fin 100000 → ℝ) (l : Fin 100000) :
    logitRr r l = fun j => if j = l then 64 * phiReal (r l) else 64 * r j := by
  funext j
  unfold logitRr
  by_cases h : j = l
  · rw [if_pos h, if_pos h, h]; ring
  · rw [if_neg h, if_neg h]; ring

/-- Over the reals the kernel's row loss is the reference's. -/
theorem rowKr_eq_rowRr (r : Fin 100000 → ℝ) (hr : ∀ j, loR ≤ r j ∧ r j ≤ hiR) (l : Fin 100000) :
    rowKr r l = rowRr r l := by
  have hp : -40 ≤ 64 * phiReal (r l) - (fun j => 64 * r j) l := by
    have := phiReal_sub_ge (r l) (hr l).1 (hr l).2
    show -40 ≤ 64 * phiReal (r l) - 64 * r l
    linarith
  have hcore := lse_core (fun j => 64 * r j) l (64 * phiReal (r l)) tinyR hp tinyR_le_exp
  unfold rowKr rowRr sumK topK
  rw [logitRr_eq]
  simp only [if_pos rfl]
  exact hcore

end Cert.Arc

end
-- ==== Proof.Math.lean ====
/-
  The two results agree: a clipped cosine is a real number in [lo, hi], whatever the rows hold, so each row's loss is
  computed inside the reals on both sides, where the two closed forms agree.
-/
import proofs.«422797_j35029753266820_1_alg».proof.Proof.MathK
import proofs.«422797_j35029753266820_1_alg».proof.Proof.MathR
import proofs.«422797_j35029753266820_1_alg».proof.Proof.MathCore

noncomputable section

namespace Cert.Arc

open Idealize.ShloMosaic

theorem loR_le_hiR : loR ≤ hiR := by unfold loR hiR; norm_num

/-- A clipped inner product lies between the two clip bounds. -/
theorem cosN_mem (e w : Fin 512 → EReal) : lo ≤ cosN e w ∧ cosN e w ≤ hi := by
  unfold cosN
  refine ⟨le_min ?_ (le_max_left _ _), min_le_left _ _⟩
  rw [lo_eq, hi_eq]
  exact EReal.coe_le_coe_iff.mpr loR_le_hiR

/-- An extended real between the two clip bounds is a real number between them. -/
theorem real_of_mem (x : EReal) (h : lo ≤ x ∧ x ≤ hi) : ∃ r : ℝ, x = (r : EReal) ∧ loR ≤ r ∧ r ≤ hiR := by
  rw [lo_eq, hi_eq] at h
  have hb : x ≠ ⊥ := fun e => by rw [e] at h; exact absurd h.1 (not_le.mpr (EReal.bot_lt_coe _))
  have ht : x ≠ ⊤ := fun e => by rw [e] at h; exact absurd h.2 (not_le.mpr (EReal.coe_lt_top _))
  refine ⟨x.toReal, (EReal.coe_toReal ht hb).symm, ?_, ?_⟩
  · have := h.1; rw [← EReal.coe_toReal ht hb] at this; exact EReal.coe_le_coe_iff.mp this
  · have := h.2; rw [← EReal.coe_toReal ht hb] at this; exact EReal.coe_le_coe_iff.mp this

/-- On cosines between the clip bounds the kernel's row loss is the reference's. -/
theorem rowK_eq_rowR (c : Fin 100000 → EReal) (hc : ∀ j, lo ≤ c j ∧ c j ≤ hi) (l : Fin 100000) :
    rowK c l = rowR c l := by
  choose r hr using fun j => real_of_mem (c j) (hc j)
  obtain rfl : c = fun j => ((r j : ℝ) : EReal) := funext fun j => (hr j).1
  rw [rowK_real r (fun j => (hr j).2) l, rowR_real r (fun j => (hr j).2) l, rowKr_eq_rowRr r (fun j => (hr j).2) l]

/-- The two results are one extended real. -/
theorem resK_eq_resR (X : Fin 1024 → Fin 512 → EReal) (W : Fin 100000 → Fin 512 → EReal) (lab : Fin 1024 → Fin 100000) :
    resK X W lab = resR X W lab := by
  unfold resK resR
  refine congrArg (Ideal.div · nB) (Finset.sum_congr rfl fun b _ => ?_)
  exact rowK_eq_rowR _ (fun j => cosN_mem _ _) _

end Cert.Arc

end
-- ==== Proof.PreDecode.lean ====
/-
  What the precondition says about the labels. The precondition is the conjunction of four "all" reductions: every
  embedding finite, every class-row entry finite, every label ≥ 0, every label < 100000 (signed compares against
  broadcast constants, reduced by "and" from one). If the whole is one, the last two conjuncts are one, so every label,
  read signed, lies in [0, 100000).
-/
import proofs.«422797_j35029753266820_1_alg».proof.Pre_finite_inputs
import proofs.«422797_j35029753266820_1_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Arc.Pre

open Idealize.ShloMosaic Idealize.ShloMosaic.ValueIdx

/-- Under the precondition every label, read signed, is a class number. -/
theorem labels_in_range (a0 : FVec Ideal Cert.Pre_finite_inputs.S1024x512 .f32) (a1 : IVec Cert.Pre_finite_inputs.S1024 32)
    (a2 : FVec Ideal Cert.Pre_finite_inputs.S100000x512 .f32)
    (h : Cert.Pre_finite_inputs.fn (F := Ideal) a0 a1 a2 = fun _ => 1#1) (b : Fin 1024) :
    0 ≤ (a1 (ix1 b)).toInt ∧ (a1 (ix1 b)).toInt < 100000 := by
  -- the whole predicate at its one index: ((finite x ∧ finite w) ∧ all (label ≥ 0)) ∧ all (label < 100000)
  have h0 := congrFun h ValueIdx.ix0
  dsimp only [Cert.Pre_finite_inputs.fn, Cert.Pre_finite_inputs.fn_part1] at h0
  obtain ⟨h12, h15⟩ := IntOp.andi_eq_one.1 h0
  obtain ⟨-, h11⟩ := IntOp.andi_eq_one.1 h12
  -- the scalar shape has one index, so an "all" that is one has a one at every label
  haveI : Subsingleton Cert.Pre_finite_inputs.S_.Idx := ⟨fun a b => funext fun d => d.elim0⟩
  have hge := Host.reduce_andi_all _ _ _ _ _ h11 (ix1 b)
  have hlt := Host.reduce_andi_all _ _ _ _ _ h15 (ix1 b)
  -- a signed compare that is one orders the signed values; the broadcast constants read 0 and 100000 everywhere
  have hge' : (0#32 : BitVec 32).toInt ≤ (a1 (ix1 b)).toInt := IntOp.cmpi_sge.1 hge
  have hlt' : (a1 (ix1 b)).toInt < (100000#32 : BitVec 32).toInt := IntOp.cmpi_slt.1 hlt
  have e0 : (0#32 : BitVec 32).toInt = 0 := by decide
  have e1 : (100000#32 : BitVec 32).toInt = 100000 := by decide
  rw [e0] at hge'
  rw [e1] at hlt'
  exact ⟨hge', hlt'⟩

end Cert.Arc.Pre

end
-- ==== Proof.lean ====
/-
  The certificate of the streamed ArcFace loss: a Pallas kernel that normalises 1024 embeddings, streams the 100000
  class rows in 50 blocks of 2000 through a running maximum and a running sum of exponentials of the scaled clipped
  cosines (started at the scaled margin of each row's label), and corrects the label's term on the host, against the plain
  jnp reference (normalise, one matrix product, clip, margin at the label by a one-hot, log-softmax, the entry at the
  label, mean).

  The precondition asks, beside finite inputs, that every label be a class number (0 ≤ label < 100000): outside that
  range the reference's own take_along_axis leaves its array. Only that part of the precondition is used: a clipped
  cosine is a real number in [lo, hi] whatever the rows hold, so both losses are computed inside the reals.

  The three frames: the kernel's two are the generated frame runs; the reference's is its run with the result dropped.
  The idealization rewrote nothing. The value claim: the kernel's run ends at Spec.lean's resK of the arguments
  (Proof/KValue.lean), the reference's at resR (Proof/RefMain.lean), and the two are one extended real (Proof/Math.lean).
-/
import proofs.«422797_j35029753266820_1_alg».proof.Defs
import proofs.«422797_j35029753266820_1_alg».proof.Proof.Gen.Kernel
import proofs.«422797_j35029753266820_1_alg».proof.Proof.Gen.Kernel.Skeleton
import proofs.«422797_j35029753266820_1_alg».proof.Proof.Gen.Kernel.Launch
import proofs.«422797_j35029753266820_1_alg».proof.Proof.Gen.Kernel.Points
import proofs.«422797_j35029753266820_1_alg».proof.Proof.Gen.Kernel.Frame
import proofs.«422797_j35029753266820_1_alg».proof.Proof.Gen.KernelIdeal
import proofs.«422797_j35029753266820_1_alg».proof.Proof.Gen.KernelIdeal.Skeleton
import proofs.«422797_j35029753266820_1_alg».proof.Proof.Gen.KernelIdeal.Launch
import proofs.«422797_j35029753266820_1_alg».proof.Proof.Gen.KernelIdeal.Points
import proofs.«422797_j35029753266820_1_alg».proof.Proof.Gen.KernelIdeal.Frame
import proofs.«422797_j35029753266820_1_alg».proof.Proof.Gen.ReferenceIdeal
import proofs.«422797_j35029753266820_1_alg».proof.Proof.Gen.Pre_finite_inputs
import proofs.«422797_j35029753266820_1_alg».proof.Proof.KValue
import proofs.«422797_j35029753266820_1_alg».proof.Proof.RefMain
import proofs.«422797_j35029753266820_1_alg».proof.Proof.Math
import proofs.«422797_j35029753266820_1_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Under the precondition every label of the kernel program's memory is a class number. -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) : Cert.KernelIdeal.KV.InRange m c :=
  fun b => Cert.Arc.Pre.labels_in_range _ _ _ (h c) b

/-- Both programs end at one extended real: the kernel's mean streamed row loss is the reference's mean log-softmax loss. -/
theorem algebraic : Cert.algebraic_KernelIdeal_ReferenceIdeal := by
  intro m ρ m' ρ' hpre hagree
  have hIn : ∀ c, Cert.KernelIdeal.KV.InRange m c := inRange_of_pre m hpre
  have hL : ∀ c : Dev Cert.ReferenceIdeal.nD,
      Cert.ReferenceIdeal.RV.LabelsOK (m' ((c.tc : Thread Cert.ReferenceIdeal.nD Cert.ReferenceIdeal.τ).loc Cert.ReferenceIdeal.main_arg1)) := by
    intro c
    rw [(hagree c).2.1]
    exact hIn c
  refine ⟨fun c => fun _ => Cert.Arc.resK (Cert.KernelIdeal.KV.Xof m c) (Cert.KernelIdeal.KV.Wof m c) (Cert.KernelIdeal.KV.labOf m c (hIn c)),
    Cert.KernelIdeal.KV.run m ρ hIn, ?_⟩
  refine (θ_run Cert.ReferenceIdeal.defs _ _).mono (fun _ h c => ⟨(h c).1.trans ?_, (h c).2⟩)
    (Cert.ReferenceIdeal.RV.run m' ρ' hL)
  funext _
  show Cert.Arc.resR _ _ _ = Cert.Arc.resK (Cert.KernelIdeal.KV.Xof m c) (Cert.KernelIdeal.KV.Wof m c) (Cert.KernelIdeal.KV.labOf m c (hIn c))
  rw [Cert.Arc.resK_eq_resR]
  have eX : Cert.ReferenceIdeal.RV.Xt (m' ((c.tc : Thread Cert.ReferenceIdeal.nD Cert.ReferenceIdeal.τ).loc Cert.ReferenceIdeal.main_arg0))
      = Cert.KernelIdeal.KV.Xof m c :=
    funext fun b => funext fun d =>
      congrArg (fun x : (⟨2, ![1024, 512]⟩ : Shape).Idx → EReal => x (ValueIdx.ix2 b d)) (hagree c).1
  have eW : Cert.ReferenceIdeal.RV.Wt (m' ((c.tc : Thread Cert.ReferenceIdeal.nD Cert.ReferenceIdeal.τ).loc Cert.ReferenceIdeal.main_arg2))
      = Cert.KernelIdeal.KV.Wof m c :=
    funext fun j => funext fun d =>
      congrArg (fun x : (⟨2, ![100000, 512]⟩ : Shape).Idx → EReal => x (ValueIdx.ix2 j d)) (hagree c).2.2
  have eL : Cert.ReferenceIdeal.RV.labT (m' ((c.tc : Thread Cert.ReferenceIdeal.nD Cert.ReferenceIdeal.τ).loc Cert.ReferenceIdeal.main_arg1)) (hL c)
      = Cert.KernelIdeal.KV.labOf m c (hIn c) :=
    funext fun b => Fin.ext
      (congrArg (fun x : (⟨1, ![1024]⟩ : Shape).Idx → BitVec 32 => (x (ValueIdx.ix1 b)).toInt.toNat) (hagree c).2.1)
  rw [eX, eW, eL]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
